-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S262144x128 .f32) (main_arg1 : FVec F S128x128 .f32) (main_arg2 : FVec F S128x128 .f32) (main_arg3 : FVec F S256x128 .f32) (main_arg4 : FVec F S128 .f32) (main_arg5 : FVec F S128 .f32) (main_arg6 : IVec S262144 32) (main_arg7 : IVec S1048576 32) (main_arg8 : IVec S1048576 32) (main_arg9 : IVec S524288 32) (main_arg10 : IVec S524288 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩
abbrev S65536x128 : Shape := ⟨2, ![65536, 128]⟩
abbrev S262144x1 : Shape := ⟨2, ![262144, 1]⟩
abbrev S1048576x1 : Shape := ⟨2, ![1048576, 1]⟩
abbrev S1048576x128 : Shape := ⟨2, ![1048576, 128]⟩
abbrev S524288x128 : Shape := ⟨2, ![524288, 128]⟩
abbrev S8192x128 : Shape := ⟨2, ![8192, 128]⟩
abbrev S524288x1 : Shape := ⟨2, ![524288, 1]⟩
abbrev S524288x2x128 : Shape := ⟨3, ![524288, 2, 128]⟩
abbrev S1x128 : Shape := ⟨2, ![1, 128]⟩
abbrev S4096x128 : Shape := ⟨2, ![4096, 128]⟩
abbrev S4096x2x128 : Shape := ⟨3, ![4096, 2, 128]⟩
abbrev S4096x1x128 : Shape := ⟨3, ![4096, 1, 128]⟩

abbrev nBuf : Space → Nat
  | .hbm => 78
  | .vmem => 30
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S262144, .i32⟩
  | .hbm, ⟨7, _⟩ => ⟨S1048576, .i32⟩
  | .hbm, ⟨8, _⟩ => ⟨S1048576, .i32⟩
  | .hbm, ⟨9, _⟩ => ⟨S524288, .i32⟩
  | .hbm, ⟨10, _⟩ => ⟨S524288, .i32⟩
  | .hbm, ⟨11, _⟩ => ⟨S_, .f32⟩
  | .hbm, ⟨12, _⟩ => ⟨S65536x128, .f32⟩
  | .hbm, ⟨13, _⟩ => ⟨S262144x1, .i32⟩
  | .hbm, ⟨14, _⟩ => ⟨S65536x128, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x128, .f32⟩
  | .hbm, ⟨24, _⟩ => ⟨S_, .f32⟩
  | .hbm, ⟨25, _⟩ => ⟨S524288x128, .f32⟩
  | .hbm, ⟨26, _⟩ => ⟨S1048576x1, .i32⟩
  | .hbm, ⟨27, _⟩ => ⟨S524288x128, .f32⟩
  | .hbm, ⟨28, _⟩ => ⟨S128x128, .f32⟩
  | .hbm, ⟨29, _⟩ => ⟨S65536x128, .f32⟩
  | .hbm, ⟨30, _⟩ => ⟨S128x128, .f32⟩
  | .hbm, ⟨31, _⟩ => ⟨S524288x128, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S524288x1, .i32⟩
  | .hbm, ⟨40, _⟩ => ⟨S524288x128, .f32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S524288x2x128, .f32⟩
  | .hbm, ⟨55, _⟩ => ⟨S1x128, .f32⟩
  | .hbm, ⟨56, _⟩ => ⟨S1x128, .f32⟩
  | .hbm, ⟨57, _⟩ => ⟨S1048576x128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S1x128, .f32⟩
  | .hbm, ⟨77, _⟩ => ⟨S1048576x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S128x128, .f32⟩
  | .local _ .vmem, ⟨8, _⟩ => ⟨S8192x128, .f32⟩
  | .local _ .vmem, ⟨9, _⟩ => ⟨S8192x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S128x128, .f32⟩
  | .local _ .vmem, ⟨17, _⟩ => ⟨S128x128, .f32⟩
  | .local _ .vmem, ⟨18, _⟩ => ⟨S4096x2x128, .f32⟩
  | .local _ .vmem, ⟨19, _⟩ => ⟨S4096x2x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S8192x128, .f32⟩
  | .local _ .vmem, ⟨25, _⟩ => ⟨S8192x128, .f32⟩
  | .local _ .vmem, ⟨26, _⟩ => ⟨S1x128, .f32⟩
  | .local _ .vmem, ⟨27, _⟩ => ⟨S1x128, .f32⟩
  | .local _ .vmem, ⟨28, _⟩ => ⟨S8192x128, .f32⟩
  | .local _ .vmem, ⟨29, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![128], ![false]⟩

def k2_cond2 (i : grid2.Coords) : BitVec 1 :=
  let arg0 : BitVec 32 := BitVec.ofNat 32 (i 0).val
  let c127_i32 : BitVec 32 := 127#32
  let v49 : BitVec 1 := Scalar.cmpi .eq arg0 c127_i32
  let v50 : BitVec 32 := Scalar.extui v49
  let c0_i32_28 : BitVec 32 := 0#32
  let v51 : BitVec 1 := Scalar.cmpi .ne v50 c0_i32_28
  v51

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S65536x128 : S_.BroadcastsInDim S65536x128 (![] : Fin 0 → Fin S65536x128.rank)
  bcast_S262144_S262144x1_0 : S262144.BroadcastsInDim S262144x1 (![0] : Fin 1 → Fin S262144x1.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S524288x128 : S_.BroadcastsInDim S524288x128 (![] : Fin 0 → Fin S524288x128.rank)
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S524288 : S_.BroadcastsInDim S524288 (![] : Fin 0 → Fin S524288.rank)
  bcast_S524288_S524288x1_0 : S524288.BroadcastsInDim S524288x1 (![0] : Fin 1 → Fin S524288x1.rank)
  slices_S256x128_S128x128_0_0 : S256x128.Slices ![0, 0] S128x128
  slices_S256x128_S128x128_128_0 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x2x128_S4096x1x128_0_0_0 : ∀ a, (![0, 0, 0] : Fin 3 → Nat) a + S4096x1x128.size a ≤ S4096x2x128.size a
  h_S4096x1x128 : 0 < S4096x1x128.numel
  shapeCasts_S4096x1x128_S4096x128 : S4096x1x128.ShapeCasts S4096x128
  shapeCasts_S4096x128_S4096x1x128 : S4096x128.ShapeCasts S4096x1x128
  inb_S4096x2x128_S4096x1x128_0_1_0 : ∀ a, (![0, 1, 0] : Fin 3 → Nat) a + S4096x1x128.size a ≤ S4096x2x128.size a
  reduces_S4096x128_S128 : S4096x128.Reduces [0] S128
  shapeCasts_S128_S1x128 : S128.ShapeCasts S1x128
  shapeCasts_S524288x2x128_S1048576x128 : S524288x2x128.ShapeCasts S1048576x128
  shapeCasts_S1x128_S128 : S1x128.ShapeCasts S128
  bcast_S_S128 : S_.BroadcastsInDim S128 (![] : Fin 0 → Fin S128.rank)
  broadcasts_S1x128_S8192x128 : S1x128.Broadcasts S8192x128
  scatter_S65536x128_S262144x1_S262144x128_1_0_0_1_wf : ScatterDims.WF S65536x128 S262144x1 S262144x128 [1] [0] [0] 1
  gather_S262144x128_S1048576x1_S1048576x128_1_0_n_n_0_1_1128_wf : GatherDims.WF S262144x128 S1048576x1 S1048576x128 [1] [0] [] [0] [] 1 ![1, 128]
  scatter_S524288x128_S1048576x1_S1048576x128_1_0_0_1_wf : ScatterDims.WF S524288x128 S1048576x1 S1048576x128 [1] [0] [0] 1
  dot_S8192x128_S128x128_S8192x128_1_0_0_1_n_n_wf : DotDims.WF S8192x128 S128x128 S8192x128 [1] [0] [0] [1] [] []
  gather_S65536x128_S524288x1_S524288x128_1_0_n_n_0_1_1128_wf : GatherDims.WF S65536x128 S524288x1 S524288x128 [1] [0] [] [0] [] 1 ![1, 128]
  gather_S262144x128_S524288x1_S524288x128_1_0_n_n_0_1_1128_wf : GatherDims.WF S262144x128 S524288x1 S524288x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S524288x128.size a
  hwx1_0 : ∀ i : grid1.Coords, EltTy.bits .f32 = 32 ∨ (Rect.block (s := S524288x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S524288x128.size a
  hwx1_2 : ∀ i : grid1.Coords, EltTy.bits .f32 = 32 ∨ (Rect.block (s := S524288x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S524288x128.size a
  hwx2_0 : ∀ i : grid2.Coords, EltTy.bits .f32 = 32 ∨ (Rect.block (s := S524288x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S524288x128.size a
  hwx2_1 : ∀ i : grid2.Coords, EltTy.bits .f32 = 32 ∨ (Rect.block (s := S524288x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S524288x128.size a
  hwx2_2 : ∀ i : grid2.Coords, EltTy.bits .f32 = 32 ∨ (Rect.block (s := S524288x128) S4096x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x2x128.size a ≤ S524288x2x128.size a
  hwx2_5 : ∀ i : grid2.Coords, EltTy.bits .f32 = 32 ∨ (Rect.block (s := S524288x2x128) S4096x2x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S1048576x128.size a
  hwx3_0 : ∀ i : grid3.Coords, EltTy.bits .f32 = 32 ∨ (Rect.block (s := S1048576x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S1048576x128.size a
  hwx3_3 : ∀ i : grid3.Coords, EltTy.bits .f32 = 32 ∨ (Rect.block (s := S1048576x128) S8192x128.size (cc3_transform_3 i) (hinb3_3 i)).WholeWords (EltTy.packing .f32)

variable [Facts₀]

def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S524288x128_S1048576x1_S1048576x128_1_0_0_1 : ScatterDims S524288x128 S1048576x1 S1048576x128 where
  updateWindowDims := [1]
  insertedWindowDims := [0]
  scatterDimsToOperandDims := [0]
  indexVectorDim := 1
  wf := scatter_S524288x128_S1048576x1_S1048576x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def gather_S262144x128_S524288x1_S524288x128_1_0_n_n_0_1_1128 : GatherDims S262144x128 S524288x1 S524288x128 where
  offsetDims := [1]
  collapsedSliceDims := [0]
  operandBatchingDims := []
  startIndicesBatchingDims := []
  startIndexMap := [0]
  indexVectorDim := 1
  sliceSizes := ![1, 128]
  wf := gather_S262144x128_S524288x1_S524288x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v23) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35_0) S4096x2x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v35_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v36) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S256x128 : Shape := ⟨2, ![256, 128]⟩
abbrev S128 : Shape := ⟨1, ![128]⟩
abbrev S262144 : Shape := ⟨1, ![262144]⟩
abbrev S1048576 : Shape := ⟨1, ![1048576]⟩
abbrev S524288 : Shape := ⟨1, ![524288]⟩
abbrev S_ : Shape := ⟨0, ![]⟩
abbrev S65536x128 : Shape := ⟨2, ![65536, 128]⟩
abbrev S262144x1 : Shape := ⟨2, ![262144, 1]⟩
abbrev S1048576x1 : Shape := ⟨2, ![1048576, 1]⟩
abbrev S1048576x128 : Shape := ⟨2, ![1048576, 128]⟩
abbrev S524288x128 : Shape := ⟨2, ![524288, 128]⟩
abbrev S524288x1 : Shape := ⟨2, ![524288, 1]⟩
abbrev S128x256 : Shape := ⟨2, ![128, 256]⟩
abbrev S524288x256 : Shape := ⟨2, ![524288, 256]⟩
abbrev S524288x2x128 : Shape := ⟨3, ![524288, 2, 128]⟩
abbrev S524288x1x128 : Shape := ⟨3, ![524288, 1, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S262144, .i32⟩
  | .hbm, ⟨7, _⟩ => ⟨S1048576, .i32⟩
  | .hbm, ⟨8, _⟩ => ⟨S1048576, .i32⟩
  | .hbm, ⟨9, _⟩ => ⟨S524288, .i32⟩
  | .hbm, ⟨10, _⟩ => ⟨S524288, .i32⟩
  | .hbm, ⟨11, _⟩ => ⟨S_, .f32⟩
  | .hbm, ⟨12, _⟩ => ⟨S65536x128, .f32⟩
  | .hbm, ⟨13, _⟩ => ⟨S262144x1, .i32⟩
  | .hbm, ⟨14, _⟩ => ⟨S65536x128, .f32⟩
  | .hbm, ⟨15, _⟩ => ⟨S128x128, .f32⟩
  | .hbm, ⟨16, _⟩ => ⟨S65536x128, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x128, .f32⟩
  | .hbm, ⟨26, _⟩ => ⟨S_, .f32⟩
  | .hbm, ⟨27, _⟩ => ⟨S524288x128, .f32⟩
  | .hbm, ⟨28, _⟩ => ⟨S1048576x1, .i32⟩
  | .hbm, ⟨29, _⟩ => ⟨S524288x128, .f32⟩
  | .hbm, ⟨30, _⟩ => ⟨S128x128, .f32⟩
  | .hbm, ⟨31, _⟩ => ⟨S524288x128, .f32⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S_, .i32⟩
  | .hbm, ⟨36, _⟩ => ⟨S524288, .i32⟩
  | .hbm, ⟨37, _⟩ => ⟨S524288, .i32⟩
  | .hbm, ⟨38, _⟩ => ⟨S524288, .i32⟩
  | .hbm, ⟨39, _⟩ => ⟨S524288x1, .i32⟩
  | .hbm, ⟨40, _⟩ => ⟨S524288x128, .f32⟩
  | .hbm, ⟨41, _⟩ => ⟨S524288x128, .f32⟩
  | .hbm, ⟨42, _⟩ => ⟨S_, .i32⟩
  | .hbm, ⟨43, _⟩ => ⟨S524288, .i32⟩
  | .hbm, ⟨44, _⟩ => ⟨S524288, .i1⟩
  | .hbm, ⟨45, _⟩ => ⟨S_, .i32⟩
  | .hbm, ⟨46, _⟩ => ⟨S524288, .i32⟩
  | .hbm, ⟨47, _⟩ => ⟨S524288, .i32⟩
  | .hbm, ⟨48, _⟩ => ⟨S524288, .i32⟩
  | .hbm, ⟨49, _⟩ => ⟨S524288x1, .i32⟩
  | .hbm, ⟨50, _⟩ => ⟨S524288x128, .f32⟩
  | .hbm, ⟨51, _⟩ => ⟨S128x256, .f32⟩
  | .hbm, ⟨52, _⟩ => ⟨S524288x256, .f32⟩
  | .hbm, ⟨53, _⟩ => ⟨S524288x2x128, .f32⟩
  | .hbm, ⟨54, _⟩ => ⟨S524288x1x128, .f32⟩
  | .hbm, ⟨55, _⟩ => ⟨S524288x2x128, .f32⟩
  | .hbm, ⟨56, _⟩ => ⟨S524288x2x128, .f32⟩
  | .hbm, ⟨57, _⟩ => ⟨S1048576x128, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1048576x128, .f32⟩
  | .hbm, ⟨65, _⟩ => ⟨S1048576x128, .f32⟩
  | .hbm, ⟨66, _⟩ => ⟨S1048576x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S1x128, .f32⟩
  | .hbm, ⟨73, _⟩ => ⟨S1048576x128, .f32⟩
  | .hbm, ⟨74, _⟩ => ⟨S1048576x128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S1048576x128, .f32⟩
  | .hbm, ⟨81, _⟩ => ⟨S1048576x128, .f32⟩
  | .hbm, ⟨82, _⟩ => ⟨S1x128, .f32⟩
  | .hbm, ⟨83, _⟩ => ⟨S1048576x128, .f32⟩
  | .hbm, ⟨84, _⟩ => ⟨S1048576x128, .f32⟩
  | .hbm, ⟨85, _⟩ => ⟨S1x128, .f32⟩
  | .hbm, ⟨86, _⟩ => ⟨S1048576x128, .f32⟩
  | .hbm, ⟨87, _⟩ => ⟨S1048576x128, .f32⟩
  | .hbm, ⟨88, _⟩ => ⟨S_, .f32⟩
  | .hbm, ⟨89, _⟩ => ⟨S1048576x128, .f32⟩
  | .hbm, ⟨90, _⟩ => ⟨S1048576x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_cst : Ref sig .tc := ⟨.hbm, 88, rfl⟩
abbrev main_call0_v0 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  bcast_S262144_S262144x1_0 : S262144.BroadcastsInDim S262144x1 (![0] : Fin 1 → Fin S262144x1.rank)
  transposes_S128x128_S128x128_1_0 : S128x128.Transposes [1, 0] S128x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S524288x128 : S_.BroadcastsInDim S524288x128 (![] : Fin 0 → Fin S524288x128.rank)
  bcast_S_S524288 : S_.BroadcastsInDim S524288 (![] : Fin 0 → Fin S524288.rank)
  bcast_S524288_S524288x1_0 : S524288.BroadcastsInDim S524288x1 (![0] : Fin 1 → Fin S524288x1.rank)
  transposes_S256x128_S128x256_1_0 : S256x128.Transposes [1, 0] S128x256
  shapeCasts_S524288x256_S524288x2x128 : S524288x256.ShapeCasts S524288x2x128
  bcast_S524288x128_S524288x1x128_0_2 : S524288x128.BroadcastsInDim S524288x1x128 (![0, 2] : Fin 2 → Fin S524288x1x128.rank)
  bcast_S524288x1x128_S524288x2x128_0_1_2 : S524288x1x128.BroadcastsInDim S524288x2x128 (![0, 1, 2] : Fin 3 → Fin S524288x2x128.rank)
  shapeCasts_S524288x2x128_S1048576x128 : S524288x2x128.ShapeCasts S1048576x128
  reducesTo_S1048576x128_S128_d0 : S1048576x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  scatter_S65536x128_S262144x1_S262144x128_1_0_0_1_wf : ScatterDims.WF S65536x128 S262144x1 S262144x128 [1] [0] [0] 1
  dot_S65536x128_S128x128_S65536x128_1_0_0_1_n_n_wf : DotDims.WF S65536x128 S128x128 S65536x128 [1] [0] [0] [1] [] []
  gather_S262144x128_S1048576x1_S1048576x128_1_0_n_n_0_1_1128_wf : GatherDims.WF S262144x128 S1048576x1 S1048576x128 [1] [0] [] [0] [] 1 ![1, 128]
  scatter_S524288x128_S1048576x1_S1048576x128_1_0_0_1_wf : ScatterDims.WF S524288x128 S1048576x1 S1048576x128 [1] [0] [0] 1
  dot_S524288x128_S128x128_S524288x128_1_0_0_1_n_n_wf : DotDims.WF S524288x128 S128x128 S524288x128 [1] [0] [0] [1] [] []
  gather_S65536x128_S524288x1_S524288x128_1_0_n_n_0_1_1128_wf : GatherDims.WF S65536x128 S524288x1 S524288x128 [1] [0] [] [0] [] 1 ![1, 128]
  gather_S262144x128_S524288x1_S524288x128_1_0_n_n_0_1_1128_wf : GatherDims.WF S262144x128 S524288x1 S524288x128 [1] [0] [] [0] [] 1 ![1, 128]
  dot_S524288x128_S128x256_S524288x256_1_0_0_1_n_n_wf : DotDims.WF S524288x128 S128x256 S524288x256 [1] [0] [0] [1] [] []

variable [Facts₀]

def scatter_S65536x128_S262144x1_S262144x128_1_0_0_1 : ScatterDims S65536x128 S262144x1 S262144x128 where
  updateWindowDims := [1]
  insertedWindowDims := [0]
  scatterDimsToOperandDims := [0]
  indexVectorDim := 1
  wf := scatter_S65536x128_S262144x1_S262144x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S262144x128_S1048576x1_S1048576x128_1_0_n_n_0_1_1128 : GatherDims S262144x128 S1048576x1 S1048576x128 where
  offsetDims := [1]
  collapsedSliceDims := [0]
  operandBatchingDims := []
  startIndicesBatchingDims := []
  startIndexMap := [0]
  indexVectorDim := 1
  sliceSizes := ![1, 128]
  wf := gather_S262144x128_S1048576x1_S1048576x128_1_0_n_n_0_1_1128_wf
def scatter_S524288x128_S1048576x1_S1048576x128_1_0_0_1 : ScatterDims S524288x128 S1048576x1 S1048576x128 where
  updateWindowDims := [1]
  insertedWindowDims := [0]
  scatterDimsToOperandDims := [0]
  indexVectorDim := 1
  wf := scatter_S524288x128_S1048576x1_S1048576x128_1_0_0_1_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def gather_S262144x128_S524288x1_S524288x128_1_0_n_n_0_1_1128 : GatherDims S262144x128 S524288x1 S524288x128 where
  offsetDims := [1]
  collapsedSliceDims := [0]
  operandBatchingDims := []
  startIndicesBatchingDims := []
  startIndexMap := [0]
  indexVectorDim := 1
  sliceSizes := ![1, 128]
  wf := gather_S262144x128_S524288x1_S524288x128_1_0_n_n_0_1_1128_wf
def dot_S524288x128_S128x256_S524288x256_1_0_0_1_n_n : DotDims S524288x128 S128x256 S524288x256 where
  lhsContracting := [1]
  rhsContracting := [0]
  lhsNonContracting := [0]
  rhsNonContracting := [1]
  lhsBatch := []
  rhsBatch := []
  wf := dot_S524288x128_S128x256_S524288x256_1_0_0_1_n_n_wf

class Facts : Prop extends Facts₀ where

variable [Facts]
-- ==== Proof.K.Reg0.lean ====
/- REGION 0 of @main (custom_call 0, kernel cc0__linear_kernel, pipeline 0), the class-A half, at a parameter V: the
   TensorCore's buffer contents when the region is entered. Each window's block at a point (iblk0); the output
   window's staging buffer after the body as a function of the two input blocks (out0_2: the one whole store of the
   product payload of the two whole loads); the body's triple on whole staging memrefs (sound_kernel0); the
   pipeline's proof data at V (dat0) and the body obligation at every point of the grid (body_obligation0). -/
import proofs.«150802_j73332271612005_1_alg».proof.Proof.K.Launch
import proofs.«150802_j73332271612005_1_alg».proof.Proof.Gen.Kernel.Skeleton
import proofs.«150802_j73332271612005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, cc0__linear_kernel (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is V's
    (hA) and whose body leaves the block in place (hafter): the window is fetched at every point, uncut and never
    idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there (the first point) or not
    (every later point: its block index, the whole array, has not moved and the body leaves the buffer in place),
    for ANY proof data whose array is V's (hA) and whose body leaves the block in place (hafter). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 8192x128 staging buffer (the load of window 0's, the load and the store of window 2's). -/
abbrev r0_0 : Rect S8192x128 := Rect.unit (s := S8192x128) ![0, 0] S8192x128.size inb_S8192x128_S8192x128_0_0
/-- The whole 128x128 staging buffer (the load of window 1's). -/
abbrev r0_1 : Rect S128x128 := Rect.unit (s := S128x128) ![0, 0] S128x128.size inb_S128x128_S128x128_0_0

/-! ## What the body leaves in the output window's buffer -/

/-- Window 2's staging buffer after the body, from the input windows' blocks: its one store, of the payload of the
    two whole loads. -/
def out0_2 (x0 : Vec F S8192x128 .f32) (x1 : Vec F S128x128 .f32) : Vec F S8192x128 .f32 :=
  View.canon [⟨r0_0, k0_pay1 (View.ld x0 r0_0) (View.ld x1 r0_1)⟩]

/-- The store is of the whole buffer (checked by evaluation), so it covers it. -/
theorem cover0_2 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents x0, x1 and the output's at anything, runs
    to the continuation holding the inputs' as they were and the output's at out0_2 of the inputs'. -/
theorem sound_kernel0 (c : Dev nD) (E : Set ℕ) (i : grid0.Coords) (arg1 : Memref sig .tc .vmem S8192x128 .f32) (harg1 : arg1.IsWhole)
    (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (before0_0, before0_1), so sound_kernel0 applies;
    the invariant and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Gen

end
-- ==== Proof.K.Reg1.lean ====
/- REGION 1 of @main (custom_call 1, kernel cc1__linear_kernel, pipeline 1), the class-A half, at a parameter V: the
   TensorCore's buffer contents when the region is entered. Each window's block at a point (iblk1); the output
   window's staging buffer after the body as a function of the two input blocks (out1_2: the one whole store of the
   product payload of the two whole loads); the body's triple on whole staging memrefs (sound_kernel1); the
   pipeline's proof data at V (dat1) and the body obligation at every point of the grid (body_obligation1). -/
import proofs.«150802_j73332271612005_1_alg».proof.Proof.K.Launch
import proofs.«150802_j73332271612005_1_alg».proof.Proof.Gen.Kernel.Skeleton
import proofs.«150802_j73332271612005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, cc1__linear_kernel (pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is V's
    (hA) and whose body leaves the block in place (hafter): the window is fetched at every point, uncut and never
    idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there (the first point) or not
    (every later point: its block index, the whole array, has not moved and the body leaves the buffer in place),
    for ANY proof data whose array is V's (hA) and whose body leaves the block in place (hafter). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 8192x128 staging buffer (the load of window 0's, the load and the store of window 2's). -/
abbrev r1_0 : Rect S8192x128 := Rect.unit (s := S8192x128) ![0, 0] S8192x128.size inb_S8192x128_S8192x128_0_0
/-- The whole 128x128 staging buffer (the load of window 1's). -/
abbrev r1_1 : Rect S128x128 := Rect.unit (s := S128x128) ![0, 0] S128x128.size inb_S128x128_S128x128_0_0

/-! ## What the body leaves in the output window's buffer -/

/-- Window 2's staging buffer after the body, from the input windows' blocks: its one store, of the payload of the
    two whole loads. -/
def out1_2 (x0 : Vec F S8192x128 .f32) (x1 : Vec F S128x128 .f32) : Vec F S8192x128 .f32 :=
  View.canon [⟨r1_0, k1_pay1 (View.ld x0 r1_0) (View.ld x1 r1_1)⟩]

/-- The store is of the whole buffer (checked by evaluation), so it covers it. -/
theorem cover1_2 (p0 : Vec F S8192x128 .f32) (y : S8192x128.Idx) :
    ∃ pc ∈ ([⟨r1_0, p0⟩] : List (View.Piece (Elt F) S8192x128 .f32)), y ∈ pc.1.set :=
  View.cover_of_tiled [⟨r1_0, p0⟩] S8192x128.size (by rfl) y

/-! ## The body's triple -/

set_option maxHeartbeats 1000000 in
/-- The kernel body on whole staging memrefs, the inputs' at read contents x0, x1 and the output's at anything, runs
    to the continuation holding the inputs' as they were and the output's at out1_2 of the inputs'. -/
theorem sound_kernel1 (c : Dev nD) (E : Set ℕ) (i : grid1.Coords) (arg1 : Memref sig .tc .vmem S8192x128 .f32) (harg1 : arg1.IsWhole)
    (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them (V); after the body at point t each
    input's buffer at its block and the output's at out1_2 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (before1_0, before1_1), so sound_kernel1 applies;
    the invariant and the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Gen

end
-- ==== Proof.K.Reg2Runs.lean ====
/- Custom_call 2 (the combine kernel, pipeline 2) at the buffer contents `V` its region is entered with: what the three
   runs of its body (first point, middle points, last point) are stated over — each window's block at a point, the two
   branch conditions decided over the grid, where the two last-point outputs are idle, the staging and scratch memrefs,
   and the region invariant with the two carried scratch buffers named. -/
import proofs.«150802_j73332271612005_1_alg».proof.Proof.K.Launch
import proofs.«150802_j73332271612005_1_alg».proof.Proof.Gen.Kernel.Skeleton
import proofs.«150802_j73332271612005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (fetched at every point) holds its block in its current staging buffer at every point, for any proof data
    whose array is `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (fetched at every point) holds its block in its current staging buffer at every point, for any proof data
    whose array is `V`'s (`hA`) and whose body leaves the block in place (`hafter`): the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (fetched at every point) holds its block in its current staging buffer at every point, for any proof data
    whose array is `V`'s (`hA`) and whose body leaves the block in place (`hafter`): the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (fetched at the first point only, its block index never moving) holds its block in its current staging buffer at every point, for any proof data
    whose array is `V`'s (`hA`) and whose body leaves the block in place (`hafter`): the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (fetched at the first point only, its block index never moving) holds its block in its current staging buffer at every point, for any proof data
    whose array is `V`'s (`hA`) and whose body leaves the block in place (`hafter`): the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the two running sums): the grid coordinate is 0. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 128 = 0 :=
  (by decide +kernel : ∀ t : Fin grid2.N, cond2_0 (grid2.coords t) ↔ t.val % 128 = 0)

/-- The condition of the body's second `scf.if` (the running sums stored into the two small outputs): the grid
    coordinate is 127. -/
abbrev cond2_1 (i : grid2.Coords) : Prop := k2_cond2 i = 1#1
/-- It holds at the last point only — decided over the grid. -/
theorem hcond2_1 : ∀ t : Fin cfg2.N, cond2_1 (grid2.coords t) ↔ t.val % 128 = 127 :=
  (by decide +kernel : ∀ t : Fin grid2.N, cond2_1 (grid2.coords t) ↔ t.val % 128 = 127)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- At the first point output 6 is idle: the body stores nothing into it. -/
theorem idleAt2_6_A : ∀ t : Fin cfg2.N, cond2_0 (grid2.coords t) → ¬cond2_1 (grid2.coords t) → cfg2.idle 6 (grid2.coords t) = true := by decide +kernel
/-- At the first point output 6's block is not written back. -/
theorem noFlush2_6_A : ∀ t : Fin cfg2.N, cond2_0 (grid2.coords t) → ¬cond2_1 (grid2.coords t) → (cfg2.win 6).flush t = false := by decide +kernel
/-- At the middle points output 6 is idle. -/
theorem idleAt2_6_B : ∀ t : Fin cfg2.N, ¬cond2_0 (grid2.coords t) → ¬cond2_1 (grid2.coords t) → cfg2.idle 6 (grid2.coords t) = true := by decide +kernel
/-- At the middle points output 6's block is not written back. -/
theorem noFlush2_6_B : ∀ t : Fin cfg2.N, ¬cond2_0 (grid2.coords t) → ¬cond2_1 (grid2.coords t) → (cfg2.win 6).flush t = false := by decide +kernel
/-- At the last point output 6 is live: the body stores into it. -/
theorem liveAt2_6_C : ∀ t : Fin cfg2.N, ¬cond2_0 (grid2.coords t) → cond2_1 (grid2.coords t) → cfg2.idle 6 (grid2.coords t) = false := by decide +kernel
/-- At the first point output 7 is idle: the body stores nothing into it. -/
theorem idleAt2_7_A : ∀ t : Fin cfg2.N, cond2_0 (grid2.coords t) → ¬cond2_1 (grid2.coords t) → cfg2.idle 7 (grid2.coords t) = true := by decide +kernel
/-- At the first point output 7's block is not written back. -/
theorem noFlush2_7_A : ∀ t : Fin cfg2.N, cond2_0 (grid2.coords t) → ¬cond2_1 (grid2.coords t) → (cfg2.win 7).flush t = false := by decide +kernel
/-- At the middle points output 7 is idle. -/
theorem idleAt2_7_B : ∀ t : Fin cfg2.N, ¬cond2_0 (grid2.coords t) → ¬cond2_1 (grid2.coords t) → cfg2.idle 7 (grid2.coords t) = true := by decide +kernel
/-- At the middle points output 7's block is not written back. -/
theorem noFlush2_7_B : ∀ t : Fin cfg2.N, ¬cond2_0 (grid2.coords t) → ¬cond2_1 (grid2.coords t) → (cfg2.win 7).flush t = false := by decide +kernel
/-- At the last point output 7 is live: the body stores into it. -/
theorem liveAt2_7_C : ∀ t : Fin cfg2.N, ¬cond2_0 (grid2.coords t) → cond2_1 (grid2.coords t) → cfg2.idle 7 (grid2.coords t) = false := by decide +kernel

/-! ## The staging and scratch memrefs -/

/-- One staging buffer of each output window, through which its contents are stated (the choice does not matter). -/
abbrev VO2_5 : View sig .tc .vmem S4096x2x128 .f32 := (Memref.whole cc2_stg5_0 : Memref sig .tc .vmem S4096x2x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
/-- Each window's current staging memref at point `t`, spelled as the pipeline passes it, and its wholeness. -/
abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x2x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two scratch operands: whole scoped buffers of the kernel's own, passed beside the windows; the kernel carries
    a running sum in each from point to point. -/
abbrev scM2_0 : Memref sig .tc .vmem S1x128 .f32 := Memref.whole cc2_scratch0
abbrev scM2_1 : Memref sig .tc .vmem S1x128 .f32 := Memref.whole cc2_scratch1
/-- The same as views: what each holds is stated through them. -/
abbrev VS2_0 : View sig .tc .vmem S1x128 .f32 := scM2_0.view
abbrev VS2_1 : View sig .tc .vmem S1x128 .f32 := scM2_1.view

/-! ## The region invariant with the scratch named -/

/-- The core's scoped buffers that are neither a staging buffer of this call nor one of its two scratch operands, each
    at some contents: carried through the region unopened. -/
def rest2 (c : Dev nD) : sProp 𝕄 :=
  Pipeline.scopedRestBut (Ix := Unit) (Name := ℕ) (U := UR sig nD τ) (Lvl := ℕ) (Val := Elt F) spec2 c [cc2_scratch0, cc2_scratch1]

/-- The scoped rest of this call split at its two scratch operands, each whole at some contents. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ rest2 (F := F) c) :=
  Pipeline.scopedRest_split_of_list spec2 c [cc2_scratch0, cc2_scratch1] (by decide) (by decide)

/-- The region invariant with the two scratch operands as memrefs owned at some contents: what the body obligation
    hands a run and takes back. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ rest2 (F := F) c) ∗ (∃ r, prngReg c r)) := by
  unfold Pipeline.ΦA; rw [scopedRest2_split]; simp only [scM2_0, scM2_1, owns_whole]
  exact congrArg (fun X : sProp 𝕄 => iprop(X ∗ (∃ r, prngReg c r))) (BI.equiv_iff.mp ⟨BI.sep_assoc, BI.sep_assoc'⟩)

end Regions

end Cert.Kernel.Gen

end
-- ==== Proof.K.Reg2RunA.lean ====
/- Custom_call 2 (the combine kernel): the whole-body run at the first grid point (the reset of the running sums taken, the final store not taken) — the body's triple over its skeleton, the pieces
   each buffer ends with being the witness. -/
import proofs.«150802_j73332271612005_1_alg».proof.Proof.K.Reg2Runs

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the first grid point (the reset of the running sums taken, the final store not taken), with the proof that on whole memrefs — the five inputs' at their contents, the big output's at
    anything, the two small outputs' (idle here: no store) at contents handed back untouched, the two scratch buffers at anything — the body runs to
    the continuation holding the inputs' as they were and every stored buffer with its pieces written. -/
noncomputable def kernelRun2_A (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 x2 : Vec F S4096x128 .f32) (x3 x4 : Vec F S128x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Gen

end
-- ==== Proof.K.Reg2RunB.lean ====
/- Custom_call 2 (the combine kernel): the whole-body run at the middle grid points (neither the reset nor the final store taken) — the body's triple over its skeleton, the pieces
   each buffer ends with being the witness. -/
import proofs.«150802_j73332271612005_1_alg».proof.Proof.K.Reg2RunA

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the middle grid points (neither the reset nor the final store taken), with the proof that on whole memrefs — the five inputs' at their contents, the big output's at
    anything, the two small outputs' (idle here: no store) at contents handed back untouched, the two scratch buffers at the running sums the point before left — the body runs to
    the continuation holding the inputs' as they were and every stored buffer with its pieces written. -/
noncomputable def kernelRun2_B (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 x2 : Vec F S4096x128 .f32) (x3 x4 : Vec F S128x128 .f32) (xs0 xs1 : Vec F S1x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Gen

end
-- ==== Proof.K.Reg2RunC.lean ====
/- Custom_call 2 (the combine kernel): the whole-body run at the last grid point (the reset not taken, the final store taken) — the body's triple over its skeleton, the pieces
   each buffer ends with being the witness. -/
import proofs.«150802_j73332271612005_1_alg».proof.Proof.K.Reg2RunB

-- a block's rectangle has thousands of coordinates along its long axis
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the last grid point (the reset not taken, the final store taken), with the proof that on whole memrefs — the five inputs' at their contents, the big output's at
    anything, the two small outputs' at anything, the two scratch buffers at the running sums the point before left — the body runs to
    the continuation holding the inputs' as they were and every stored buffer with its pieces written. -/
noncomputable def kernelRun2_C (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 x2 : Vec F S4096x128 .f32) (x3 x4 : Vec F S128x128 .f32) (xs0 xs1 : Vec F S1x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Gen

end
-- ==== Proof.K.Reg2.lean ====
/- REGION 2 of @main, the certificate's frame half: custom_call 2, the kernel cc2__combine_kernel under the pipeline
   cfg2 / spec2 (a grid of 128 points, eight windows, two scratch rows carried from point to point). At a PARAMETER V —
   the TensorCore's buffer contents when the region is entered —: per case of the body's two conditionals what the stores
   leave in each output's buffer and in each scratch row, what they hold point by point, the proof data, the body
   obligation at every point, and that the invariant begins and ends as the region's own. -/
import proofs.«150802_j73332271612005_1_alg».proof.Proof.K.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, the combine kernel (pipeline 2), at the entry contents V

Per case of the body's two conditionals (first point, middle points, last point): that the stores into each buffer cover it,
and what they leave there; then what the outputs and the two running sums hold point by point, the proof data, the body
obligation at every point, and the invariant's two ends. -/

/-! ## Case A: the first point (the two running sums reset, the two row outputs not stored) -/

/-- In case A the two stores into output 5's buffer (rows `[:, 0, :]` and `[:, 1, :]`, each of extent 4096x1x128) tile it, so they
    cover it. -/
theorem cover2_A_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S4096x2x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S4096x1x128.size (by sl_kernel_rfl) y

/-- What case A leaves in output 5's staging buffer: its pieces read back (over contents that do not matter, the pieces
    covering the buffer). -/
def out2_A_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S4096x2x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)

/-- Case A stores nothing into output 6 (the window is idle at its points and not written back there): no pieces — a
    placeholder nothing consults, the window being neither written back at these points nor read at the next. -/
def out2_A_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 hc0 hc1 x0 x1 x2 x3 x4).2.1)

/-- Case A stores nothing into output 7 (the window is idle at its points and not written back there): no pieces — a
    placeholder nothing consults, the window being neither written back at these points nor read at the next. -/
def out2_A_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4).2.2.1)

/-- Case A's stores into scratch 0, which carries a running sum between points, are each of the whole 1x128 row: they cover it. -/
theorem scover2_A_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves in scratch 0: its pieces read back. -/
def sout2_A_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.2.2.1)

/-- Case A's stores into scratch 1, which carries a running sum between points, are each of the whole 1x128 row: they cover it. -/
theorem scover2_A_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves in scratch 1: its pieces read back. -/
def sout2_A_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.2.2.1)

/-! ## Case B: a middle point (no reset, the two row outputs not stored) -/

/-- In case B the two stores into output 5's buffer (rows `[:, 0, :]` and `[:, 1, :]`, each of extent 4096x1x128) tile it, so they
    cover it. -/
theorem cover2_B_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S4096x2x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S4096x1x128.size (by sl_kernel_rfl) y

/-- What case B leaves in output 5's staging buffer: its pieces read back (over contents that do not matter, the pieces
    covering the buffer). -/
def out2_B_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S4096x2x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)

/-- Case B stores nothing into output 6 (the window is idle at its points and not written back there): no pieces — a
    placeholder nothing consults, the window being neither written back at these points nor read at the next. -/
def out2_B_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)

/-- Case B stores nothing into output 7 (the window is idle at its points and not written back there): no pieces — a
    placeholder nothing consults, the window being neither written back at these points nor read at the next. -/
def out2_B_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's stores into scratch 0, which carries a running sum between points, are each of the whole 1x128 row: they cover it. -/
theorem scover2_B_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves in scratch 0: its pieces read back. -/
def sout2_B_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's stores into scratch 1, which carries a running sum between points, are each of the whole 1x128 row: they cover it. -/
theorem scover2_B_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves in scratch 1: its pieces read back. -/
def sout2_B_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## Case C: the last point (no reset, the two row outputs stored) -/

/-- In case C the two stores into output 5's buffer (rows `[:, 0, :]` and `[:, 1, :]`, each of extent 4096x1x128) tile it, so they
    cover it. -/
theorem cover2_C_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S4096x2x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S4096x1x128.size (by sl_kernel_rfl) y

/-- What case C leaves in output 5's staging buffer: its pieces read back (over contents that do not matter, the pieces
    covering the buffer). -/
def out2_C_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S4096x2x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)

/-- In case C the one store into output 6's buffer is of the whole 1x128 row, so it covers it. -/
theorem cover2_C_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves in output 6's staging buffer: its piece read back. -/
def out2_C_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)

/-- In case C the one store into output 7's buffer is of the whole 1x128 row, so it covers it. -/
theorem cover2_C_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves in output 7's staging buffer: its piece read back. -/
def out2_C_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's stores into scratch 0, which carries a running sum between points, are each of the whole 1x128 row: they cover it. -/
theorem scover2_C_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves in scratch 0: its pieces read back. -/
def sout2_C_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's stores into scratch 1, which carries a running sum between points, are each of the whole 1x128 row: they cover it. -/
theorem scover2_C_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves in scratch 1: its pieces read back. -/
def sout2_C_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the two running sums hold after each point -/

/-- THE ACCUMULATION. What the three outputs' staging buffers and the two scratch rows hold after the body at position `n` (a tuple:
    outputs 5, 6, 7, then scratch 0, 1): the case the closed forms select at `n`, run at the point's memrefs and input blocks, the
    two scratch rows entering at what this leaves at `n - 1`. An assignment of the conditions no point meets is no case. -/
def outsAt2 (c : Dev nD) : (n : ℕ) → n < cfg2.N → Vec F S4096x2x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 128 = 0 then
      if h1 : (n + 1) % 128 = 127 then
        False.elim (by have hN : n + 1 < 128 := lt_of_lt_of_eq hn (show cfg2.N = 128 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 128 = 127 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at a point of case A: that case's contents. -/
theorem outsAt2_A (c : Dev nD) (t : Fin cfg2.N) (h0 : t.val % 128 = 0) (h1 : ¬t.val % 128 = 127) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, the scratch rows entering at what the point before left. -/
theorem outsAt2_B (c : Dev nD) (t : Fin cfg2.N) (h0 : ¬t.val % 128 = 0) (h1 : ¬t.val % 128 = 127) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, the scratch rows entering at what the point before left. -/
theorem outsAt2_C (c : Dev nD) (t : Fin cfg2.N) (h0 : ¬t.val % 128 = 0) (h1 : t.val % 128 = 127) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the scoped rest, the two scratch rows
    among it at anything, and the generator register); afterwards the same with each scratch row at what the point before left
    in it (`outsAt2`'s last two components), the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.2.1) ∗ owns (c : Thread nD τ) scM2_1 fullShare ((outsAt2 V c n hn).2.2.2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two scratch rows at that point's contents. -/
theorem PhiS2_succ (c : Dev nD) (n : ℕ) (hn : n < cfg2.N) :
    PhiS2 V c (n + 1) hn = iprop(iprop(owns (c : Thread nD τ) scM2_0 fullShare ((outsAt2 V c n hn).2.2.2.1) ∗ owns (c : Thread nD τ) scM2_1 fullShare ((outsAt2 V c n hn).2.2.2.2) ∗ rest2 (F := F) c) ∗ (∃ r, prngReg c r)) := rfl

/-- Before a point that is not the first: the two scratch rows at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2.1) ∗ owns (c : Thread nD τ) scM2_1 fullShare ((outsAt2 V c (n - 1) (by omega)).2.2.2.2) ∗ rest2 (F := F) c) ∗ (∃ r, prngReg c r)) := by
  cases n with
  | zero => exact absurd rfl hz
  | succ n => rfl

/-! ## The pipeline's proof data -/

/-- The proof data of this pipeline on core `c`: the arrays as the region finds them (`V`); after the body at point `t` each
    input's buffer at its block and the outputs' at `outsAt2`'s first three components; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

/-- The proof data's arrays are the region-entry contents (the definition projected, never unfolded further). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns: each window's buffer at what the body leaves — for an output at a point idle for it and not written back,
    what it held. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the closed forms say which case the point is in; the invariant
    hands the body the two scratch rows at what the point before left (at anything at the first point), the other scoped buffers
    and the generator register at some state, and takes the scratch rows back at this point's contents (their stores cover them);
    output 5's two stores cover its buffer; outputs 6 and 7 are handed back untouched where the case does not store them, and
    hold their one covering store at the last point; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 128 = 0
  · by_cases h1 : t.val % 128 = 127
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold out2_A_5 sout2_A_0 sout2_A_1; (try dsimp only)
      by_cases hz : t.val = 0
      · rw [PhiS2_castSucc V c t, PhiS2_zero V c _ _ hz, PhiA2_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_A_5 c _ _ _ _ _ _ _ _ _ _ _ _ _ _ _ _ _ _ _ _ _ _ _ _ _ _ _ _)
        isplitl [H6]; · iexists _; iexact H6
        iexists _; iexact H7
      · exfalso; omega
  · by_cases h1 : t.val % 128 = 127
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold out2_C_5 out2_C_6 out2_C_7 sout2_C_0 sout2_C_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold out2_B_5 sout2_B_0 sout2_B_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the region's own back: what the two scratch rows hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Regions

end Cert.Kernel.Gen

end
-- ==== Proof.K.Reg3.lean ====
/- REGION 3 of @main, the class-A half: custom_call 3, the kernel cc3__bn_relu_kernel under the pipeline cfg3 / spec3
   (a grid of 128 points). At a PARAMETER V — the TensorCore's buffer contents when the region is entered —:
   each window's block at a point, what the body leaves in the output window's buffer as a closed function of the
   three input blocks, the body's triple, the proof data, and the body obligation at every point. -/
import proofs.«150802_j73332271612005_1_alg».proof.Proof.K.Launch
import proofs.«150802_j73332271612005_1_alg».proof.Proof.Gen.Kernel.Skeleton
import proofs.«150802_j73332271612005_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: custom_call 3, the scale-shift-clamp kernel (pipeline 3), at the entry contents V -/

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a row block of 8192 rows, fetched at every point): its current staging buffer holds its block at
    every point, for ANY proof data whose array is V's and whose body leaves the block in place; the window is
    uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole 1x128 scale row, fetched at the first point only): where it is not fetched its block
    index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the whole 1x128 shift row, fetched at the first point only): as window 1. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 8192x128 buffer as a rectangle. -/
abbrev r3_0 : Rect S8192x128 := Rect.unit (s := S8192x128) ![0, 0] S8192x128.size inb_S8192x128_S8192x128_0_0
/-- The whole 1x128 buffer as a rectangle. -/
abbrev r3_1 : Rect S1x128 := Rect.unit (s := S1x128) ![0, 0] S1x128.size inb_S1x128_S1x128_0_0

/-! ## What the body leaves in the output window's buffer -/

/-- Window 3's staging buffer after the body, from the three input windows' blocks: its one store, of the payload
    max(x0 * x1 + x2, 0) with the two rows broadcast along the long axis, over the whole buffer. -/
def out3_3 (x0 : Vec F S8192x128 .f32) (x1 : Vec F S1x128 .f32) (x2 : Vec F S1x128 .f32) : Vec F S8192x128 .f32 :=
  View.canon [⟨r3_0, k3_pay1 (View.ld x0 r3_0) (View.ld x1 r3_1) (View.ld x2 r3_1)⟩]

/-- The one store is over the whole buffer, so it covers it. -/
theorem cover3_3 (p0 : Vec F S8192x128 .f32) (y : S8192x128.Idx) :
    ∃ pc ∈ ([⟨r3_0, p0⟩] : List (View.Piece (Elt F) S8192x128 .f32)), y ∈ pc.1.set :=
  View.cover_of_tiled [⟨r3_0, p0⟩] S8192x128.size (by rfl) y

/-! ## The body's triple -/

set_option maxHeartbeats 1000000 in
/-- The kernel body at any grid coordinate, on whole staging memrefs, the inputs' at read contents x0 x1 x2 and the
    output's at anything, runs to the continuation holding the inputs' as they were and the output's at out3_3 of
    the inputs': the printed function is its skeleton of four loads and one store. -/
theorem sound_kernel3 (c : Dev nD) (E : Set ℕ) (i : grid3.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S8192x128 .f32) (harg4 : arg4.IsWhole)
    (x0 : Vec F S8192x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core c: the arrays as the region finds them (V); after the body at point t each
    input's buffer at its block and the output's at out3_3 of the input blocks; the invariant the class's (the
    scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and
    the core's owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Gen

end
-- ==== Proof.K.Run.lean ====
/- THE RUN of @main, a program of four kernel regions among four stretches of host operations: the buffer contents at
   every segment boundary as a fold from the launch memory (a stretch's result; a region's arrays at what its
   write-backs leave, every other buffer as entered), each argument array read back through the fold to its launch
   contents, every pipeline's proof data at its region's entry contents, a host segment per stretch and a region
   segment per pallas_call over the thread state "every unscoped buffer at the boundary's contents, the generator
   register at some state, nothing owed", and the frame claim at any F. -/
import proofs.«150802_j73332271612005_1_alg».proof.Proof.K.Reg0
import proofs.«150802_j73332271612005_1_alg».proof.Proof.K.Reg1
import proofs.«150802_j73332271612005_1_alg».proof.Proof.K.Reg2
import proofs.«150802_j73332271612005_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's eight segments from the launch to the return — four host stretches, each followed by a region

## What each host stretch writes -/

/-- The references the operations of host stretch 0 write (each operation's destination, in order). -/
abbrev hostWr0 : List (Ref sig .tc) := [main_cst, main_v0, main_v1, main_v2, main_c, main_v3, main_v4, main_c_0, main_v5, main_v6, main_v7, main_v8, main_v9, main_cst_1, main_v10, main_v11, main_v12, main_v13]
/-- Every operation of host stretch 0 writes inside that list. -/
theorem hostOps0_writes : (hostOps0 : List (HloOp τ sig (Elt F))).Forall fun op => op.writes ⊆ (hostWr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 1 write (each operation's destination, in order). -/
abbrev hostWr1 : List (Ref sig .tc) := [main_v15]
/-- Every operation of host stretch 1 writes inside that list. -/
theorem hostOps1_writes : (hostOps1 : List (HloOp τ sig (Elt F))).Forall fun op => op.writes ⊆ (hostWr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 2 write (each operation's destination, in order). -/
abbrev hostWr2 : List (Ref sig .tc) := [main_c_2, main_v17, main_v18, main_c_3, main_v19, main_v20, main_v21, main_v22, main_v23, main_c_4, main_v24, main_v25, main_c_5, main_v26, main_v27, main_v28, main_v29, main_v30, main_v31, main_v32, main_v33, main_v34]
/-- Every operation of host stretch 2 writes inside that list. -/
theorem hostOps2_writes : (hostOps2 : List (HloOp τ sig (Elt F))).Forall fun op => op.writes ⊆ (hostWr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 3 write (each operation's destination, in order). -/
abbrev hostWr3 : List (Ref sig .tc) := [main_v36, main_v37, main_cst_6, main_v38, main_v39, main_v40, main_cst_7, main_v41, main_v42, main_v43, main_v44, main_cst_8, main_v45, main_v46, main_v47, main_v48, main_v49, main_v50, main_v51, main_v52]
/-- Every operation of host stretch 3 writes inside that list. -/
theorem hostOps3_writes : (hostOps3 : List (HloOp τ sig (Elt F))).Forall fun op => op.writes ⊆ (hostWr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## The buffer contents at each segment boundary: a fold through @main -/

/-- Core c's buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- A reference host stretch 0 does not write holds after it what it held before. -/
theorem W1_of (c : Dev nD) (r : Ref sig .tc) (h : r ∉ (hostWr0 : List (Ref sig .tc))) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (hF0) and every other buffer what it
    held at entry (hrest0). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- A reference host stretch 1 does not write holds after it what it held before. -/
theorem W3_of (c : Dev nD) (r : Ref sig .tc) (h : r ∉ (hostWr1 : List (Ref sig .tc))) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (hF1) and every other buffer what it
    held at entry (hrest1). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- A reference host stretch 2 does not write holds after it what it held before. -/
theorem W5_of (c : Dev nD) (r : Ref sig .tc) (h : r ∉ (hostWr2 : List (Ref sig .tc))) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (hF2) and every other buffer what it
    held at entry (hrest2). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
/-- A reference host stretch 3 does not write holds after it what it held before. -/
theorem W7_of (c : Dev nD) (r : Ref sig .tc) (h : r ∉ (hostWr3 : List (Ref sig .tc))) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (hF3) and every other buffer what it
    held at entry (hrest3). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region stages one, so the fold at an
    argument's buffer walks back to the launch memory -/

/-- A reference no host stretch writes and no region stages ends at its launch contents. -/
theorem W8_of_untouched (c : Dev nD) (r : Ref sig .tc)
    (h0 : r ∉ (hostWr0 : List (Ref sig .tc))) (h1 : r ∉ (hostWr1 : List (Ref sig .tc)))
    (h2 : r ∉ (hostWr2 : List (Ref sig .tc))) (h3 : r ∉ (hostWr3 : List (Ref sig .tc)))
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r a3
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_untouched m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_untouched m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_untouched m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_untouched m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_untouched m ρ c main_arg10 (by decide) (by decide) (by decide) (by decide) (by decide) (by decide) (by decide) (by decide)

/-- The result array ends at what region 3's write-backs leave in it. -/
theorem W8_main_v53 (c : Dev nD) : W8 m ρ c (Proc.devRef .tc main_v53) = (dat3 (V7 m ρ) c).arrAt 3 cfg3.N :=
  W8_arr m ρ c 3

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal match, so that the configuration
    pinned at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owes,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along (its post is then
    those references at the stretch's result: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of host stretch 0 allocates a buffer. -/
theorem hostOps0_fresh : (hostOps0 : List (HloOp τ sig (Elt F))).Forall fun op => op.fresh = ∅ := by
  simp only [List.Forall]; repeat' constructor
/-- No operation of host stretch 1 allocates a buffer. -/
theorem hostOps1_fresh : (hostOps1 : List (HloOp τ sig (Elt F))).Forall fun op => op.fresh = ∅ := by
  simp only [List.Forall]; repeat' constructor
/-- No operation of host stretch 2 allocates a buffer. -/
theorem hostOps2_fresh : (hostOps2 : List (HloOp τ sig (Elt F))).Forall fun op => op.fresh = ∅ := by
  simp only [List.Forall]; repeat' constructor
/-- No operation of host stretch 3 allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W8, the generator
    register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- REGION 0 (custom_call 0) over the thread state: entered from every unscoped buffer at W1, left at W2. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at W3, left at W4. Its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 (custom_call 2) over the thread state: entered from every unscoped buffer at W5, left at W6. Its arrays
    split out of the unscoped buffers and put back at the exit contents; the generator register into the invariant
    and out (through the region's own first and last invariants); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 (custom_call 3) over the thread state: entered from every unscoped buffer at W7, left at W8. Its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents W8. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME at any F: every weakly fair execution of @main terminates, nothing faulting, and every final state has
    the eleven argument arrays as launched — each an unscoped buffer, read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c)⟩) (run_all m ρ)

/-- info: 'Cert.Kernel.Gen.frame' depends on axioms: [propext, Classical.choice, Quot.sound] -/
#guard_msgs in #print axioms frame

end Cert.Kernel.Gen

end
-- ==== Proof.KI.Reg0.lean ====
/- REGION 0 of @main (custom_call 0, kernel cc0__linear_kernel, pipeline 0), the class-A half, at a parameter V: the
   TensorCore's buffer contents when the region is entered. Each window's block at a point (iblk0); the output
   window's staging buffer after the body as a function of the two input blocks (out0_2: the one whole store of the
   product payload of the two whole loads); the body's triple on whole staging memrefs (sound_kernel0); the
   pipeline's proof data at V (dat0) and the body obligation at every point of the grid (body_obligation0). -/
import proofs.«150802_j73332271612005_1_alg».proof.Proof.KI.Launch
import proofs.«150802_j73332271612005_1_alg».proof.Proof.Gen.KernelIdeal.Skeleton
import proofs.«150802_j73332271612005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, cc0__linear_kernel (pipeline 0), at the entry contents V -/

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for ANY proof data whose array is V's
    (hA) and whose body leaves the block in place (hafter): the window is fetched at every point, uncut and never
    idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there (the first point) or not
    (every later point: its block index, the whole array, has not moved and the body leaves the buffer in place),
    for ANY proof data whose array is V's (hA) and whose body leaves the block in place (hafter). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 8192x128 staging buffer (the load of window 0's, the load and the store of window 2's). -/
abbrev r0_0 : Rect S8192x128 := Rect.unit (s := S8192x128) ![0, 0] S8192x128.size inb_S8192x128_S8192x128_0_0
/-- The whole 128x128 staging buffer (the load of window 1's). -/
abbrev r0_1 : Rect S128x128 := Rect.unit (s := S128x128) ![0, 0] S128x128.size inb_S128x128_S128x128_0_0

/-! ## What the body leaves in the output window's buffer -/

/-- Window 2's staging buffer after the body, from the input windows' blocks: its one store, of the payload of the
    two whole loads. -/
def out0_2 (x0 : Vec F S8192x128 .f32) (x1 : Vec F S128x128 .f32) : Vec F S8192x128 .f32 :=
  View.canon [⟨r0_0, k0_pay1 (View.ld x0 r0_0) (View.ld x1 r0_1)⟩]

/-- The store is of the whole buffer (checked by evaluation), so it covers it. -/
theorem cover0_2 (p0 : Vec F S8192x128 .f32) (y : S8192x128.Idx) :
    ∃ pc ∈ ([⟨r0_0, p0⟩] : List (View.Piece (Elt F) S8192x128 .f32)), y ∈ pc.1.set :=
  View.cover_of_tiled [⟨r0_0, p0⟩] S8192x128.size (by rfl) y

/-! ## The body's triple -/

set_option maxHeartbeats 1000000 in
/-- The kernel body on whole staging memrefs, the inputs' at read contents x0, x1 and the output's at anything, runs
    to the continuation holding the inputs' as they were and the output's at out0_2 of the inputs'. -/
theorem sound_kernel0 (c : Dev nD) (E : Set ℕ) (i : grid0.Coords) (arg1 : Memref sig .tc .vmem S8192x128 .f32) (harg1 : arg1.IsWhole)
    (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them (V); after the body at point t each
    input's buffer at its block and the output's at out0_2 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (before0_0, before0_1), so sound_kernel0 applies;
    the invariant and the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Gen

end
-- ==== Proof.KI.Reg1.lean ====
/- REGION 1 of @main (custom_call 1, kernel cc1__linear_kernel, pipeline 1), the class-A half, at a parameter V: the
   TensorCore's buffer contents when the region is entered. Each window's block at a point (iblk1); the output
   window's staging buffer after the body as a function of the two input blocks (out1_2: the one whole store of the
   product payload of the two whole loads); the body's triple on whole staging memrefs (sound_kernel1); the
   pipeline's proof data at V (dat1) and the body obligation at every point of the grid (body_obligation1). -/
import proofs.«150802_j73332271612005_1_alg».proof.Proof.KI.Launch
import proofs.«150802_j73332271612005_1_alg».proof.Proof.Gen.KernelIdeal.Skeleton
import proofs.«150802_j73332271612005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, cc1__linear_kernel (pipeline 1), at the entry contents V -/

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for ANY proof data whose array is V's
    (hA) and whose body leaves the block in place (hafter): the window is fetched at every point, uncut and never
    idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there (the first point) or not
    (every later point: its block index, the whole array, has not moved and the body leaves the buffer in place),
    for ANY proof data whose array is V's (hA) and whose body leaves the block in place (hafter). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 8192x128 staging buffer (the load of window 0's, the load and the store of window 2's). -/
abbrev r1_0 : Rect S8192x128 := Rect.unit (s := S8192x128) ![0, 0] S8192x128.size inb_S8192x128_S8192x128_0_0
/-- The whole 128x128 staging buffer (the load of window 1's). -/
abbrev r1_1 : Rect S128x128 := Rect.unit (s := S128x128) ![0, 0] S128x128.size inb_S128x128_S128x128_0_0

/-! ## What the body leaves in the output window's buffer -/

/-- Window 2's staging buffer after the body, from the input windows' blocks: its one store, of the payload of the
    two whole loads. -/
def out1_2 (x0 : Vec F S8192x128 .f32) (x1 : Vec F S128x128 .f32) : Vec F S8192x128 .f32 :=
  View.canon [⟨r1_0, k1_pay1 (View.ld x0 r1_0) (View.ld x1 r1_1)⟩]

/-- The store is of the whole buffer (checked by evaluation), so it covers it. -/
theorem cover1_2 (p0 : Vec F S8192x128 .f32) (y : S8192x128.Idx) :
    ∃ pc ∈ ([⟨r1_0, p0⟩] : List (View.Piece (Elt F) S8192x128 .f32)), y ∈ pc.1.set :=
  View.cover_of_tiled [⟨r1_0, p0⟩] S8192x128.size (by rfl) y

/-! ## The body's triple -/

set_option maxHeartbeats 1000000 in
/-- The kernel body on whole staging memrefs, the inputs' at read contents x0, x1 and the output's at anything, runs
    to the continuation holding the inputs' as they were and the output's at out1_2 of the inputs'. -/
theorem sound_kernel1 (c : Dev nD) (E : Set ℕ) (i : grid1.Coords) (arg1 : Memref sig .tc .vmem S8192x128 .f32) (harg1 : arg1.IsWhole)
    (arg2 : Memref sig .tc .vmem S128x128 .f32) (harg2 : arg2.IsWhole) (arg3 : Memref sig .tc .vmem S8192x128 .f32) (harg3 : arg3.IsWhole)
    (x0 : Vec F S8192x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them (V); after the body at point t each
    input's buffer at its block and the output's at out1_2 of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (before1_0, before1_1), so sound_kernel1 applies;
    the invariant and the core's owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Gen

end
-- ==== Proof.KI.Reg2Runs.lean ====
/- Custom_call 2 (the combine kernel, pipeline 2) at the buffer contents `V` its region is entered with: what the three
   runs of its body (first point, middle points, last point) are stated over — each window's block at a point, the two
   branch conditions decided over the grid, where the two last-point outputs are idle, the staging and scratch memrefs,
   and the region invariant with the two carried scratch buffers named. -/
import proofs.«150802_j73332271612005_1_alg».proof.Proof.KI.Launch
import proofs.«150802_j73332271612005_1_alg».proof.Proof.Gen.KernelIdeal.Skeleton
import proofs.«150802_j73332271612005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (fetched at every point) holds its block in its current staging buffer at every point, for any proof data
    whose array is `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (fetched at every point) holds its block in its current staging buffer at every point, for any proof data
    whose array is `V`'s (`hA`) and whose body leaves the block in place (`hafter`): the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (fetched at every point) holds its block in its current staging buffer at every point, for any proof data
    whose array is `V`'s (`hA`) and whose body leaves the block in place (`hafter`): the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (fetched at the first point only, its block index never moving) holds its block in its current staging buffer at every point, for any proof data
    whose array is `V`'s (`hA`) and whose body leaves the block in place (`hafter`): the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (fetched at the first point only, its block index never moving) holds its block in its current staging buffer at every point, for any proof data
    whose array is `V`'s (`hA`) and whose body leaves the block in place (`hafter`): the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reset of the two running sums): the grid coordinate is 0. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 128 = 0 :=
  (by decide +kernel : ∀ t : Fin grid2.N, cond2_0 (grid2.coords t) ↔ t.val % 128 = 0)

/-- The condition of the body's second `scf.if` (the running sums stored into the two small outputs): the grid
    coordinate is 127. -/
abbrev cond2_1 (i : grid2.Coords) : Prop := k2_cond2 i = 1#1
/-- It holds at the last point only — decided over the grid. -/
theorem hcond2_1 : ∀ t : Fin cfg2.N, cond2_1 (grid2.coords t) ↔ t.val % 128 = 127 :=
  (by decide +kernel : ∀ t : Fin grid2.N, cond2_1 (grid2.coords t) ↔ t.val % 128 = 127)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- At the first point output 6 is idle: the body stores nothing into it. -/
theorem idleAt2_6_A : ∀ t : Fin cfg2.N, cond2_0 (grid2.coords t) → ¬cond2_1 (grid2.coords t) → cfg2.idle 6 (grid2.coords t) = true := by decide +kernel
/-- At the first point output 6's block is not written back. -/
theorem noFlush2_6_A : ∀ t : Fin cfg2.N, cond2_0 (grid2.coords t) → ¬cond2_1 (grid2.coords t) → (cfg2.win 6).flush t = false := by decide +kernel
/-- At the middle points output 6 is idle. -/
theorem idleAt2_6_B : ∀ t : Fin cfg2.N, ¬cond2_0 (grid2.coords t) → ¬cond2_1 (grid2.coords t) → cfg2.idle 6 (grid2.coords t) = true := by decide +kernel
/-- At the middle points output 6's block is not written back. -/
theorem noFlush2_6_B : ∀ t : Fin cfg2.N, ¬cond2_0 (grid2.coords t) → ¬cond2_1 (grid2.coords t) → (cfg2.win 6).flush t = false := by decide +kernel
/-- At the last point output 6 is live: the body stores into it. -/
theorem liveAt2_6_C : ∀ t : Fin cfg2.N, ¬cond2_0 (grid2.coords t) → cond2_1 (grid2.coords t) → cfg2.idle 6 (grid2.coords t) = false := by decide +kernel
/-- At the first point output 7 is idle: the body stores nothing into it. -/
theorem idleAt2_7_A : ∀ t : Fin cfg2.N, cond2_0 (grid2.coords t) → ¬cond2_1 (grid2.coords t) → cfg2.idle 7 (grid2.coords t) = true := by decide +kernel
/-- At the first point output 7's block is not written back. -/
theorem noFlush2_7_A : ∀ t : Fin cfg2.N, cond2_0 (grid2.coords t) → ¬cond2_1 (grid2.coords t) → (cfg2.win 7).flush t = false := by decide +kernel
/-- At the middle points output 7 is idle. -/
theorem idleAt2_7_B : ∀ t : Fin cfg2.N, ¬cond2_0 (grid2.coords t) → ¬cond2_1 (grid2.coords t) → cfg2.idle 7 (grid2.coords t) = true := by decide +kernel
/-- At the middle points output 7's block is not written back. -/
theorem noFlush2_7_B : ∀ t : Fin cfg2.N, ¬cond2_0 (grid2.coords t) → ¬cond2_1 (grid2.coords t) → (cfg2.win 7).flush t = false := by decide +kernel
/-- At the last point output 7 is live: the body stores into it. -/
theorem liveAt2_7_C : ∀ t : Fin cfg2.N, ¬cond2_0 (grid2.coords t) → cond2_1 (grid2.coords t) → cfg2.idle 7 (grid2.coords t) = false := by decide +kernel

/-! ## The staging and scratch memrefs -/

/-- One staging buffer of each output window, through which its contents are stated (the choice does not matter). -/
abbrev VO2_5 : View sig .tc .vmem S4096x2x128 .f32 := (Memref.whole cc2_stg5_0 : Memref sig .tc .vmem S4096x2x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
/-- Each window's current staging memref at point `t`, spelled as the pipeline passes it, and its wholeness. -/
abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x2x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two scratch operands: whole scoped buffers of the kernel's own, passed beside the windows; the kernel carries
    a running sum in each from point to point. -/
abbrev scM2_0 : Memref sig .tc .vmem S1x128 .f32 := Memref.whole cc2_scratch0
abbrev scM2_1 : Memref sig .tc .vmem S1x128 .f32 := Memref.whole cc2_scratch1
/-- The same as views: what each holds is stated through them. -/
abbrev VS2_0 : View sig .tc .vmem S1x128 .f32 := scM2_0.view
abbrev VS2_1 : View sig .tc .vmem S1x128 .f32 := scM2_1.view

/-! ## The region invariant with the scratch named -/

/-- The core's scoped buffers that are neither a staging buffer of this call nor one of its two scratch operands, each
    at some contents: carried through the region unopened. -/
def rest2 (c : Dev nD) : sProp 𝕄 :=
  Pipeline.scopedRestBut (Ix := Unit) (Name := ℕ) (U := UR sig nD τ) (Lvl := ℕ) (Val := Elt F) spec2 c [cc2_scratch0, cc2_scratch1]

/-- The scoped rest of this call split at its two scratch operands, each whole at some contents. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ rest2 (F := F) c) :=
  Pipeline.scopedRest_split_of_list spec2 c [cc2_scratch0, cc2_scratch1] (by decide) (by decide)

/-- The region invariant with the two scratch operands as memrefs owned at some contents: what the body obligation
    hands a run and takes back. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ rest2 (F := F) c) ∗ (∃ r, prngReg c r)) := by
  unfold Pipeline.ΦA; rw [scopedRest2_split]; simp only [scM2_0, scM2_1, owns_whole]
  exact congrArg (fun X : sProp 𝕄 => iprop(X ∗ (∃ r, prngReg c r))) (BI.equiv_iff.mp ⟨BI.sep_assoc, BI.sep_assoc'⟩)

end Regions

end Cert.KernelIdeal.Gen

end
-- ==== Proof.KI.Reg2RunA.lean ====
/- Custom_call 2 (the combine kernel): the whole-body run at the first grid point (the reset of the running sums taken, the final store not taken) — the body's triple over its skeleton, the pieces
   each buffer ends with being the witness. -/
import proofs.«150802_j73332271612005_1_alg».proof.Proof.KI.Reg2Runs

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the first grid point (the reset of the running sums taken, the final store not taken), with the proof that on whole memrefs — the five inputs' at their contents, the big output's at
    anything, the two small outputs' (idle here: no store) at contents handed back untouched, the two scratch buffers at anything — the body runs to
    the continuation holding the inputs' as they were and every stored buffer with its pieces written. -/
noncomputable def kernelRun2_A (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 x1 x2 : Vec F S4096x128 .f32) (x3 x4 : Vec F S128x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Gen

end
-- ==== Proof.KI.Reg2RunB.lean ====
/- Custom_call 2 (the combine kernel): the whole-body run at the middle grid points (neither the reset nor the final store taken) — the body's triple over its skeleton, the pieces
   each buffer ends with being the witness. -/
import proofs.«150802_j73332271612005_1_alg».proof.Proof.KI.Reg2RunA

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the middle grid points (neither the reset nor the final store taken), with the proof that on whole memrefs — the five inputs' at their contents, the big output's at
    anything, the two small outputs' (idle here: no store) at contents handed back untouched, the two scratch buffers at the running sums the point before left — the body runs to
    the continuation holding the inputs' as they were and every stored buffer with its pieces written. -/
noncomputable def kernelRun2_B (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 x1 x2 : Vec F S4096x128 .f32) (x3 x4 : Vec F S128x128 .f32) (xs0 xs1 : Vec F S1x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Gen

end
-- ==== Proof.KI.Reg2RunC.lean ====
/- Custom_call 2 (the combine kernel): the whole-body run at the last grid point (the reset not taken, the final store taken) — the body's triple over its skeleton, the pieces
   each buffer ends with being the witness. -/
import proofs.«150802_j73332271612005_1_alg».proof.Proof.KI.Reg2RunB

-- a block's rectangle has thousands of coordinates along its long axis
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in each output's staging memref and in the two scratch buffers, as pieces (last first),
    at the last grid point (the reset not taken, the final store taken), with the proof that on whole memrefs — the five inputs' at their contents, the big output's at
    anything, the two small outputs' at anything, the two scratch buffers at the running sums the point before left — the body runs to
    the continuation holding the inputs' as they were and every stored buffer with its pieces written. -/
noncomputable def kernelRun2_C (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 x1 x2 : Vec F S4096x128 .f32) (x3 x4 : Vec F S128x128 .f32) (xs0 xs1 : Vec F S1x128 .f32) :
    Σ' (L5 : List (View.Piece (Elt F) S4096x2x128 .f32)), Σ' (L6 : List (View.Piece (Elt F) S1x128 .f32)), Σ' (L7 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__combine_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__combine_kernel_eq_skeleton]; unfold cc2__combine_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Gen

end
-- ==== Proof.KI.Reg2.lean ====
/- REGION 2 of @main, the certificate's frame half: custom_call 2, the kernel cc2__combine_kernel under the pipeline
   cfg2 / spec2 (a grid of 128 points, eight windows, two scratch rows carried from point to point). At a PARAMETER V —
   the TensorCore's buffer contents when the region is entered —: per case of the body's two conditionals what the stores
   leave in each output's buffer and in each scratch row, what they hold point by point, the proof data, the body
   obligation at every point, and that the invariant begins and ends as the region's own. -/
import proofs.«150802_j73332271612005_1_alg».proof.Proof.KI.Reg2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, the combine kernel (pipeline 2), at the entry contents V

Per case of the body's two conditionals (first point, middle points, last point): that the stores into each buffer cover it,
and what they leave there; then what the outputs and the two running sums hold point by point, the proof data, the body
obligation at every point, and the invariant's two ends. -/

/-! ## Case A: the first point (the two running sums reset, the two row outputs not stored) -/

/-- In case A the two stores into output 5's buffer (rows `[:, 0, :]` and `[:, 1, :]`, each of extent 4096x1x128) tile it, so they
    cover it. -/
theorem cover2_A_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S4096x2x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S4096x1x128.size (by sl_kernel_rfl) y

/-- What case A leaves in output 5's staging buffer: its pieces read back (over contents that do not matter, the pieces
    covering the buffer). -/
def out2_A_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S4096x2x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)

/-- Case A stores nothing into output 6 (the window is idle at its points and not written back there): no pieces — a
    placeholder nothing consults, the window being neither written back at these points nor read at the next. -/
def out2_A_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 hc0 hc1 x0 x1 x2 x3 x4).2.1)

/-- Case A stores nothing into output 7 (the window is idle at its points and not written back there): no pieces — a
    placeholder nothing consults, the window being neither written back at these points nor read at the next. -/
def out2_A_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 hc1 x0 x1 x2 x3 x4).2.2.1)

/-- Case A's stores into scratch 0, which carries a running sum between points, are each of the whole 1x128 row: they cover it. -/
theorem scover2_A_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.1 S1x128.size (by sl_kernel_rfl) y

/-- What case A leaves in scratch 0: its pieces read back. -/
def sout2_A_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.2.2.1)

/-- Case A's stores into scratch 1, which carries a running sum between points, are each of the whole 1x128 row: they cover it. -/
theorem scover2_A_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.2.2.1 S1x128.size (by sl_kernel_rfl) y

/-- What case A leaves in scratch 1: its pieces read back. -/
def sout2_A_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S4096x128 .f32) (x1 : Vec F S4096x128 .f32) (x2 : Vec F S4096x128 .f32) (x3 : Vec F S128x128 .f32) (x4 : Vec F S128x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.2.2.1)

/-! ## Case B: a middle point (no reset, the two row outputs not stored) -/

/-- In case B the two stores into output 5's buffer (rows `[:, 0, :]` and `[:, 1, :]`, each of extent 4096x1x128) tile it, so they
    cover it. -/
theorem cover2_B_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S4096x2x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S4096x1x128.size (by sl_kernel_rfl) y

/-- What case B leaves in output 5's staging buffer: its pieces read back (over contents that do not matter, the pieces
    covering the buffer). -/
def out2_B_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S4096x2x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)

/-- Case B stores nothing into output 6 (the window is idle at its points and not written back there): no pieces — a
    placeholder nothing consults, the window being neither written back at these points nor read at the next. -/
def out2_B_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)

/-- Case B stores nothing into output 7 (the window is idle at its points and not written back there): no pieces — a
    placeholder nothing consults, the window being neither written back at these points nor read at the next. -/
def out2_B_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case B's stores into scratch 0, which carries a running sum between points, are each of the whole 1x128 row: they cover it. -/
theorem scover2_B_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case B leaves in scratch 0: its pieces read back. -/
def sout2_B_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case B's stores into scratch 1, which carries a running sum between points, are each of the whole 1x128 row: they cover it. -/
theorem scover2_B_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case B leaves in scratch 1: its pieces read back. -/
def sout2_B_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## Case C: the last point (no reset, the two row outputs stored) -/

/-- In case C the two stores into output 5's buffer (rows `[:, 0, :]` and `[:, 1, :]`, each of extent 4096x1x128) tile it, so they
    cover it. -/
theorem cover2_C_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S4096x2x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S4096x1x128.size (by sl_kernel_rfl) y

/-- What case C leaves in output 5's staging buffer: its pieces read back (over contents that do not matter, the pieces
    covering the buffer). -/
def out2_C_5 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S4096x2x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)

/-- In case C the one store into output 6's buffer is of the whole 1x128 row, so it covers it. -/
theorem cover2_C_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y

/-- What case C leaves in output 6's staging buffer: its piece read back. -/
def out2_C_6 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)

/-- In case C the one store into output 7's buffer is of the whole 1x128 row, so it covers it. -/
theorem cover2_C_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y

/-- What case C leaves in output 7's staging buffer: its piece read back. -/
def out2_C_7 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)

/-- Case C's stores into scratch 0, which carries a running sum between points, are each of the whole 1x128 row: they cover it. -/
theorem scover2_C_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y

/-- What case C leaves in scratch 0: its pieces read back. -/
def sout2_C_0 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)

/-- Case C's stores into scratch 1, which carries a running sum between points, are each of the whole 1x128 row: they cover it. -/
theorem scover2_C_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y

/-- What case C leaves in scratch 1: its pieces read back. -/
def sout2_C_1 (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S4096x128 .f32) (x1 : Vec F S4096x128 .f32) (x2 : Vec F S4096x128 .f32) (x3 : Vec F S128x128 .f32) (x4 : Vec F S128x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## What the outputs and the two running sums hold after each point -/

/-- THE ACCUMULATION. What the three outputs' staging buffers and the two scratch rows hold after the body at position `n` (a tuple:
    outputs 5, 6, 7, then scratch 0, 1): the case the closed forms select at `n`, run at the point's memrefs and input blocks, the
    two scratch rows entering at what this leaves at `n - 1`. An assignment of the conditions no point meets is no case. -/
def outsAt2 (c : Dev nD) : (n : ℕ) → n < cfg2.N → Vec F S4096x2x128 .f32 × Vec F S1x128 .f32 × Vec F S1x128 .f32 × Vec F S1x128 .f32 × Vec F S1x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 128 = 0 then
      if h1 : (n + 1) % 128 = 127 then
        False.elim (by have hN : n + 1 < 128 := lt_of_lt_of_eq hn (show cfg2.N = 128 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 128 = 127 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2.2.2.1 (outsAt2 c n (Nat.lt_of_succ_lt hn)).2.2.2.2)

/-- `outsAt2` at a point of case A: that case's contents. -/
theorem outsAt2_A (c : Dev nD) (t : Fin cfg2.N) (h0 : t.val % 128 = 0) (h1 : ¬t.val % 128 = 127) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

/-- `outsAt2` at a point of case B: that case's contents, the scratch rows entering at what the point before left. -/
theorem outsAt2_B (c : Dev nD) (t : Fin cfg2.N) (h0 : ¬t.val % 128 = 0) (h1 : ¬t.val % 128 = 127) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, the scratch rows entering at what the point before left. -/
theorem outsAt2_C (c : Dev nD) (t : Fin cfg2.N) (h0 : ¬t.val % 128 = 0) (h1 : t.val % 128 = 127) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the scoped rest, the two scratch rows
    among it at anything, and the generator register); afterwards the same with each scratch row at what the point before left
    in it (`outsAt2`'s last two components), the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.2.1) ∗ owns (c : Thread nD τ) scM2_1 fullShare ((outsAt2 V c n hn).2.2.2.2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two scratch rows at that point's contents. -/
theorem PhiS2_succ (c : Dev nD) (n : ℕ) (hn : n < cfg2.N) :
    PhiS2 V c (n + 1) hn = iprop(iprop(owns (c : Thread nD τ) scM2_0 fullShare ((outsAt2 V c n hn).2.2.2.1) ∗ owns (c : Thread nD τ) scM2_1 fullShare ((outsAt2 V c n hn).2.2.2.2) ∗ rest2 (F := F) c) ∗ (∃ r, prngReg c r)) := rfl

/-- Before a point that is not the first: the two scratch rows at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2.1) ∗ owns (c : Thread nD τ) scM2_1 fullShare ((outsAt2 V c (n - 1) (by omega)).2.2.2.2) ∗ rest2 (F := F) c) ∗ (∃ r, prngReg c r)) := by
  cases n with
  | zero => exact absurd rfl hz
  | succ n => rfl

/-! ## The pipeline's proof data -/

/-- The proof data of this pipeline on core `c`: the arrays as the region finds them (`V`); after the body at point `t` each
    input's buffer at its block and the outputs' at `outsAt2`'s first three components; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

/-- The proof data's arrays are the region-entry contents (the definition projected, never unfolded further). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns: each window's buffer at what the body leaves — for an output at a point idle for it and not written back,
    what it held. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
/-- The body at any point. The inputs' memrefs hold their blocks; the closed forms say which case the point is in; the invariant
    hands the body the two scratch rows at what the point before left (at anything at the first point), the other scoped buffers
    and the generator register at some state, and takes the scratch rows back at this point's contents (their stores cover them);
    output 5's two stores cover its buffer; outputs 6 and 7 are handed back untouched where the case does not store them, and
    hold their one covering store at the last point; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 128 = 0
  · by_cases h1 : t.val % 128 = 127
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [outsAt2_A V c t h0 h1]
      unfold out2_A_5 sout2_A_0 sout2_A_1; (try dsimp only)
      by_cases hz : t.val = 0
      · rw [PhiS2_castSucc V c t, PhiS2_zero V c _ _ hz, PhiA2_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_A_5 c _ _ _ _ _ _ _ _ _ _ _ _ _ _ _ _ _ _ _ _ _ _ _ _ _ _ _ _)
        isplitl [H6]; · iexists _; iexact H6
        iexists _; iexact H7
      · exfalso; omega
  · by_cases h1 : t.val % 128 = 127
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [show (dat2 V c).leavesExact 7 t = owns (c : Thread nD τ) (ms2_7 t) fullShare ((dat2 V c).after 7 t) from by
        unfold Dat.leavesExact; rw [liveAt2_7_C t (fun h => h0 ((hcond2_0 t).mp h)) ((hcond2_1 t).mpr h1)], after2_7]
      rw [outsAt2_C V c t h0 h1]
      unfold out2_C_5 out2_C_6 out2_C_7 sout2_C_0 sout2_C_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [outsAt2_B V c t h0 h1]
      unfold out2_B_5 sout2_B_0 sout2_B_1; (try dsimp only)
      by_cases hz : t.val = 0
      · exfalso; omega
      · rw [PhiS2_castSucc V c t, PhiS2_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover2_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the region's own back: what the two scratch rows hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Regions

end Cert.KernelIdeal.Gen

end
-- ==== Proof.KI.Reg3.lean ====
/- REGION 3 of @main, the class-A half: custom_call 3, the kernel cc3__bn_relu_kernel under the pipeline cfg3 / spec3
   (a grid of 128 points). At a PARAMETER V — the TensorCore's buffer contents when the region is entered —:
   each window's block at a point, what the body leaves in the output window's buffer as a closed function of the
   three input blocks, the body's triple, the proof data, and the body obligation at every point. -/
import proofs.«150802_j73332271612005_1_alg».proof.Proof.KI.Launch
import proofs.«150802_j73332271612005_1_alg».proof.Proof.Gen.KernelIdeal.Skeleton
import proofs.«150802_j73332271612005_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: custom_call 3, the scale-shift-clamp kernel (pipeline 3), at the entry contents V -/

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (a row block of 8192 rows, fetched at every point): its current staging buffer holds its block at
    every point, for ANY proof data whose array is V's and whose body leaves the block in place; the window is
    uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the whole 1x128 scale row, fetched at the first point only): where it is not fetched its block
    index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the whole 1x128 shift row, fetched at the first point only): as window 1. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 8192x128 buffer as a rectangle. -/
abbrev r3_0 : Rect S8192x128 := Rect.unit (s := S8192x128) ![0, 0] S8192x128.size inb_S8192x128_S8192x128_0_0
/-- The whole 1x128 buffer as a rectangle. -/
abbrev r3_1 : Rect S1x128 := Rect.unit (s := S1x128) ![0, 0] S1x128.size inb_S1x128_S1x128_0_0

/-! ## What the body leaves in the output window's buffer -/

/-- Window 3's staging buffer after the body, from the three input windows' blocks: its one store, of the payload
    max(x0 * x1 + x2, 0) with the two rows broadcast along the long axis, over the whole buffer. -/
def out3_3 (x0 : Vec F S8192x128 .f32) (x1 : Vec F S1x128 .f32) (x2 : Vec F S1x128 .f32) : Vec F S8192x128 .f32 :=
  View.canon [⟨r3_0, k3_pay1 (View.ld x0 r3_0) (View.ld x1 r3_1) (View.ld x2 r3_1)⟩]

/-- The one store is over the whole buffer, so it covers it. -/
theorem cover3_3 (p0 : Vec F S8192x128 .f32) (y : S8192x128.Idx) :
    ∃ pc ∈ ([⟨r3_0, p0⟩] : List (View.Piece (Elt F) S8192x128 .f32)), y ∈ pc.1.set :=
  View.cover_of_tiled [⟨r3_0, p0⟩] S8192x128.size (by rfl) y

/-! ## The body's triple -/

set_option maxHeartbeats 1000000 in
/-- The kernel body at any grid coordinate, on whole staging memrefs, the inputs' at read contents x0 x1 x2 and the
    output's at anything, runs to the continuation holding the inputs' as they were and the output's at out3_3 of
    the inputs': the printed function is its skeleton of four loads and one store. -/
theorem sound_kernel3 (c : Dev nD) (E : Set ℕ) (i : grid3.Coords) (arg1 : Memref sig .tc .vmem S8192x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S8192x128 .f32) (harg4 : arg4.IsWhole)
    (x0 : Vec F S8192x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core c: the arrays as the region finds them (V); after the body at point t each
    input's buffer at its block and the output's at out3_3 of the input blocks; the invariant the class's (the
    scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the kernel's triple applies; the invariant and
    the core's owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Gen

end
-- ==== Proof.KI.Run.lean ====
/- THE RUN of @main, a program of four kernel regions among four stretches of host operations: the buffer contents at
   every segment boundary as a fold from the launch memory (a stretch's result; a region's arrays at what its
   write-backs leave, every other buffer as entered), each argument array read back through the fold to its launch
   contents, every pipeline's proof data at its region's entry contents, a host segment per stretch and a region
   segment per pallas_call over the thread state "every unscoped buffer at the boundary's contents, the generator
   register at some state, nothing owed", and the frame claim at any F. -/
import proofs.«150802_j73332271612005_1_alg».proof.Proof.KI.Reg0
import proofs.«150802_j73332271612005_1_alg».proof.Proof.KI.Reg1
import proofs.«150802_j73332271612005_1_alg».proof.Proof.KI.Reg2
import proofs.«150802_j73332271612005_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's eight segments from the launch to the return — four host stretches, each followed by a region

## What each host stretch writes -/

/-- The references the operations of host stretch 0 write (each operation's destination, in order). -/
abbrev hostWr0 : List (Ref sig .tc) := [main_cst, main_v0, main_v1, main_v2, main_c, main_v3, main_v4, main_c_0, main_v5, main_v6, main_v7, main_v8, main_v9, main_cst_1, main_v10, main_v11, main_v12, main_v13]
/-- Every operation of host stretch 0 writes inside that list. -/
theorem hostOps0_writes : (hostOps0 : List (HloOp τ sig (Elt F))).Forall fun op => op.writes ⊆ (hostWr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 1 write (each operation's destination, in order). -/
abbrev hostWr1 : List (Ref sig .tc) := [main_v15]
/-- Every operation of host stretch 1 writes inside that list. -/
theorem hostOps1_writes : (hostOps1 : List (HloOp τ sig (Elt F))).Forall fun op => op.writes ⊆ (hostWr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 2 write (each operation's destination, in order). -/
abbrev hostWr2 : List (Ref sig .tc) := [main_c_2, main_v17, main_v18, main_c_3, main_v19, main_v20, main_v21, main_v22, main_v23, main_c_4, main_v24, main_v25, main_c_5, main_v26, main_v27, main_v28, main_v29, main_v30, main_v31, main_v32, main_v33, main_v34]
/-- Every operation of host stretch 2 writes inside that list. -/
theorem hostOps2_writes : (hostOps2 : List (HloOp τ sig (Elt F))).Forall fun op => op.writes ⊆ (hostWr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The references the operations of host stretch 3 write (each operation's destination, in order). -/
abbrev hostWr3 : List (Ref sig .tc) := [main_v36, main_v37, main_cst_6, main_v38, main_v39, main_v40, main_cst_7, main_v41, main_v42, main_v43, main_v44, main_cst_8, main_v45, main_v46, main_v47, main_v48, main_v49, main_v50, main_v51, main_v52]
/-- Every operation of host stretch 3 writes inside that list. -/
theorem hostOps3_writes : (hostOps3 : List (HloOp τ sig (Elt F))).Forall fun op => op.writes ⊆ (hostWr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## The buffer contents at each segment boundary: a fold through @main -/

/-- Core c's buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
/-- A reference host stretch 0 does not write holds after it what it held before. -/
theorem W1_of (c : Dev nD) (r : Ref sig .tc) (h : r ∉ (hostWr0 : List (Ref sig .tc))) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (hF0) and every other buffer what it
    held at entry (hrest0). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry). -/
abbrev W3 : Dev nD → Valuation τ sig (Elt F) := fun c => StableHlo.after hostOps1 (W2 m ρ c)
/-- A reference host stretch 1 does not write holds after it what it held before. -/
theorem W3_of (c : Dev nD) (r : Ref sig .tc) (h : r ∉ (hostWr1 : List (Ref sig .tc))) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (hF1) and every other buffer what it
    held at entry (hrest1). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry). -/
abbrev W5 : Dev nD → Valuation τ sig (Elt F) := fun c => StableHlo.after hostOps2 (W4 m ρ c)
/-- A reference host stretch 2 does not write holds after it what it held before. -/
theorem W5_of (c : Dev nD) (r : Ref sig .tc) (h : r ∉ (hostWr2 : List (Ref sig .tc))) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (hF2) and every other buffer what it
    held at entry (hrest2). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3 (region 3's entry). -/
abbrev W7 : Dev nD → Valuation τ sig (Elt F) := fun c => StableHlo.after hostOps3 (W6 m ρ c)
/-- A reference host stretch 3 does not write holds after it what it held before. -/
theorem W7_of (c : Dev nD) (r : Ref sig .tc) (h : r ∉ (hostWr3 : List (Ref sig .tc))) :
    W7 m ρ c (Proc.devRef .tc r) = W6 m ρ c (Proc.devRef .tc r) :=
  StableHlo.after_of_writes_sub hostOps3 _ hostOps3_writes h
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (hF3) and every other buffer what it
    held at entry (hrest3). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region stages one, so the fold at an
    argument's buffer walks back to the launch memory -/

/-- A reference no host stretch writes and no region stages ends at its launch contents. -/
theorem W8_of_untouched (c : Dev nD) (r : Ref sig .tc)
    (h0 : r ∉ (hostWr0 : List (Ref sig .tc))) (h1 : r ∉ (hostWr1 : List (Ref sig .tc)))
    (h2 : r ∉ (hostWr2 : List (Ref sig .tc))) (h3 : r ∉ (hostWr3 : List (Ref sig .tc)))
    (a0 : ∀ w, Pipeline.arrRef spec0 w ≠ r) (a1 : ∀ w, Pipeline.arrRef spec1 w ≠ r)
    (a2 : ∀ w, Pipeline.arrRef spec2 w ≠ r) (a3 : ∀ w, Pipeline.arrRef spec3 w ≠ r) :
    W8 m ρ c (Proc.devRef .tc r) = m ((c : Thread nD τ).loc r) :=
  calc W8 m ρ c (Proc.devRef .tc r)
    _ = W7 m ρ c (Proc.devRef .tc r) := W8_of_ne m ρ c r a3
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

theorem W8_main_arg0 (c : Dev nD) : W8 m ρ c (Proc.devRef .tc main_arg0) = m ((c : Thread nD τ).loc main_arg0) :=
  W8_of_untouched m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_untouched m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_untouched m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_untouched m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_untouched m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_untouched m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_untouched m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_untouched m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_untouched m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_untouched m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_untouched m ρ c main_arg10 (by decide) (by decide) (by decide) (by decide) (by decide) (by decide) (by decide) (by decide)

/-- The result array ends at what region 3's write-backs leave in it. -/
theorem W8_main_v53 (c : Dev nD) : W8 m ρ c (Proc.devRef .tc main_v53) = (dat3 (V7 m ρ) c).arrAt 3 cfg3.N :=
  W8_arr m ρ c 3

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal match, so that the configuration
    pinned at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owes,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along (its post is then
    those references at the stretch's result: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of host stretch 0 allocates a buffer. -/
theorem hostOps0_fresh : (hostOps0 : List (HloOp τ sig (Elt F))).Forall fun op => op.fresh = ∅ := by
  simp only [List.Forall]; repeat' constructor
/-- No operation of host stretch 1 allocates a buffer. -/
theorem hostOps1_fresh : (hostOps1 : List (HloOp τ sig (Elt F))).Forall fun op => op.fresh = ∅ := by
  simp only [List.Forall]; repeat' constructor
/-- No operation of host stretch 2 allocates a buffer. -/
theorem hostOps2_fresh : (hostOps2 : List (HloOp τ sig (Elt F))).Forall fun op => op.fresh = ∅ := by
  simp only [List.Forall]; repeat' constructor
/-- No operation of host stretch 3 allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents W8, the generator
    register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- REGION 0 (custom_call 0) over the thread state: entered from every unscoped buffer at W1, left at W2. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 (custom_call 1) over the thread state: entered from every unscoped buffer at W3, left at W4. Its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 (custom_call 2) over the thread state: entered from every unscoped buffer at W5, left at W6. Its arrays
    split out of the unscoped buffers and put back at the exit contents; the generator register into the invariant
    and out (through the region's own first and last invariants); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 (custom_call 3) over the thread state: entered from every unscoped buffer at W7, left at W8. Its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents W8. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME at any F: every weakly fair execution of @main terminates, nothing faulting, and every final state has
    the eleven argument arrays as launched — each an unscoped buffer, read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c)⟩) (run_all m ρ)

/-- info: 'Cert.KernelIdeal.Gen.frame' depends on axioms: [propext, Classical.choice, Quot.sound] -/
#guard_msgs in #print axioms frame

end Cert.KernelIdeal.Gen

end
-- ==== Proof.KI.Val0.lean ====
/- REGION 0 of @main, the linear layer, read as values at the ideal instance: what the region leaves in its output
   array, as a function of the two arrays it reads. Each of the 8 grid points multiplies its block of 8192 rows of the
   65536x128 array (main_v2) by the whole 128x128 array (main_v13) into a zero accumulator and writes the 8192x128
   product to the same rows of the output array (main_v14). Here: the contraction's operand indices axis by axis; the payload at a row and a column
   (linpay0_apply); what a point writes back is its block of the product array lin0 (flushed0_eq), at a symbolic point;
   the blocks cover the output array (cover0); so the array ends holding the product (final0_arr, final0). -/
import proofs.«150802_j73332271612005_1_alg».proof.Proof.KI.Reg0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem
open Idealize.ShloMosaic.Pipeline (Dat)

/-! ## The contraction's operand indices, axis by axis -/

theorem lhs_lin0_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_lin0_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_lin0_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_lin0_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## The body's payload at an index -/

/-- The product of a block of rows by the square matrix, at row p and column q: the row's entries times the column's,
    summed over the 128 contraction coordinates (the casts are of a shape to itself, the narrowing is exact, and the
    accumulator starts at zero). -/
theorem linpay0_apply (x0 : Vec Ideal S8192x128 .f32) (x1 : Vec Ideal S128x128 .f32) (p : Fin 8192) (q : Fin 128) :
    (k0_pay1 x0 x1 : S8192x128.Idx → EReal) (ix2 p q)
      = ∑ k : Fin 128, (x0 : S8192x128.Idx → EReal) (ix2 p k) * (x1 : S128x128.Idx → EReal) (ix2 k q) := by
  unfold k0_pay1
  rw [shapeCast_self, shapeCast_self]
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_lin0_0 _ _
    | ⟨1, _⟩ => exact (lhs_lin0_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_lin0_0 _ _).trans hk
    | ⟨1, _⟩ => exact rhs_lin0_1 _ _)
  rw [el, er]
  rfl

/-! ## From blocks to the array -/

section Region
-- the TensorCore's buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- The product array: at row i 0 and column i 1, the row of a times the column of b. -/
def lin0 (a : S65536x128.Idx → EReal) (b : S128x128.Idx → EReal) : S65536x128.Idx → EReal :=
  fun i => ∑ k : Fin 128, a (ix2 (⟨(i 0).val, idx2_lt0 i⟩ : Fin 65536) k) * b (ix2 k (⟨(i 1).val, idx2_lt1 i⟩ : Fin 128))

/-- The printed index maps, decided over the grid: the first input's row block moves with the output's, which is the
    point's own number; every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT t WRITES BACK is block t of the product of the two arrays as the region finds them. -/
theorem flushed0_eq (c : Dev nD) (t : Fin cfg0.N) :
    (dat0 V c).flushed 2 t = ((cfg0.win 2).blk t).view.read (Elt Ideal) (lin0 (V c main_v2) (V c main_v13)) := by
  show (cfg0.win 2).cut (grid0.coords t) ((dat0 V c).after 2 t) = _
  rw [after0_2]
  unfold out0_2
  rw [View.canon_unit_zero hz0]
  simp only [View.ld_unit_zero (S := S8192x128) hz0, View.ld_unit_zero (S := S128x128) hz0]
  obtain ⟨e0, e1, e2, e3, e4, e5⟩ := idx_facts0 t
  refine funext fun (j : S8192x128.Idx) => ?_
  obtain ⟨p, q, rfl⟩ : ∃ (p : Fin 8192) (q : Fin 128), j = ix2 p q := ⟨j 0, j 1, eq_ix2 j⟩
  show (k0_pay1 (iblk0 V c 0 t) (iblk0 V c 1 t) : S8192x128.Idx → EReal) (ix2 p q)
    = lin0 (V c main_v2) (V c main_v13) (((cfg0.win 2).blk t).view.emb (ix2 p q))
  rw [linpay0_apply]
  unfold lin0
  refine Finset.sum_congr rfl fun k _ => ?_
  have h0 : (iblk0 V c 0 t : S8192x128.Idx → EReal) (ix2 p k)
      = (V c main_v2 : S65536x128.Idx → EReal) (ix2 (⟨((((cfg0.win 2).blk t).view.emb (ix2 p q) : S65536x128.Idx) 0).val, idx2_lt0 _⟩ : Fin 65536) k) := by
    show (V c main_v2 : S65536x128.Idx → EReal) (((cfg0.win 0).blk t).view.emb (ix2 p k)) = _
    refine congrArg _ (funext fun a => Fin.ext ?_)
    match a with
    | ⟨0, _⟩ => show win0_0.index t (0 : Fin 2) * 8192 + 1 * p.val = win0_2.index t (0 : Fin 2) * 8192 + 1 * p.val; omega
    | ⟨1, _⟩ => show win0_0.index t (1 : Fin 2) * 128 + 1 * k.val = k.val; omega
  have h1 : (iblk0 V c 1 t : S128x128.Idx → EReal) (ix2 k q)
      = (V c main_v13 : S128x128.Idx → EReal) (ix2 k (⟨((((cfg0.win 2).blk t).view.emb (ix2 p q) : S65536x128.Idx) 1).val, idx2_lt1 _⟩ : Fin 128)) := by
    show (V c main_v13 : S128x128.Idx → EReal) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the array is in point t's block iff each coordinate is in the block's range on its axis. -/
theorem mem_blk0 (t : Fin cfg0.N) (i : S65536x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v14).slice (win0_2.rect t)).set ↔ _
  rw [View.set_slice_whole, Rect.mem_set_unit]
  exact Iff.rfl

/-- Every index of the output array is in some point's block: row r is in the block of point r / 8192. -/
theorem cover0 (i : S65536x128.Idx) :
    ∃ t : Fin cfg0.N, (cfg0.win 2).flush t = true ∧ i ∈ ((cfg0.win 2).blk t).view.set := by
  have hi0 : (i 0).val < 65536 := idx2_lt0 i
  have hi1 : (i 1).val < 128 := idx2_lt1 i
  have ht : (i 0).val / 8192 < cfg0.N := by rw [show cfg0.N = 8 from N_0]; omega
  obtain ⟨-, -, -, -, e1, e0⟩ := idx_facts0 ⟨(i 0).val / 8192, ht⟩
  have e0' : win0_2.index ⟨(i 0).val / 8192, ht⟩ (0 : Fin 2) = (i 0).val / 8192 := e0
  refine ⟨⟨(i 0).val / 8192, ht⟩, flush0_2 _, ?_⟩
  rw [mem_blk0]
  intro a
  match a with
  | ⟨0, _⟩ =>
    show win0_2.index ⟨(i 0).val / 8192, ht⟩ (0 : Fin 2) * 8192 ≤ (i 0).val ∧ (i 0).val < win0_2.index ⟨(i 0).val / 8192, ht⟩ (0 : Fin 2) * 8192 + 8192
    rw [e0']; omega
  | ⟨1, _⟩ =>
    show win0_2.index ⟨(i 0).val / 8192, ht⟩ (1 : Fin 2) * 128 ≤ (i 1).val ∧ (i 1).val < win0_2.index ⟨(i 0).val / 8192, ht⟩ (1 : Fin 2) * 128 + 128
    rw [e1]; omega

/-- THE ARRAY after the region: the product of the two arrays the region reads, as it finds them. -/
theorem final0_arr (c : Dev nD) : (dat0 V c).arrAt 2 cfg0.N = lin0 (V c main_v2) (V c main_v13) :=
  (dat0 V c).arrAt_eq_of_cover 2 (lin0 (V c main_v2) (V c main_v13)) (fun t _ => flushed0_eq V c t) cover0

/-- … read at row p and column q: row p of the first array times column q of the second. -/
theorem final0 (c : Dev nD) (p : Fin 65536) (q : Fin 128) :
    @Eq EReal (((dat0 V c).arrAt 2 cfg0.N : S65536x128.Idx → EReal) (ix2 p q))
      (∑ k : Fin 128, @HMul.hMul EReal EReal EReal instHMul ((V c main_v2 : S65536x128.Idx → EReal) (ix2 p k))
        ((V c main_v13 : S128x128.Idx → EReal) (ix2 k q))) :=
  congrFun (final0_arr V c) (ix2 p q)

end Region

end Cert.KernelIdeal.Val

end
-- ==== Proof.KI.Val1.lean ====
/- REGION 1 of @main, the linear layer, read as values at the ideal instance: what the region leaves in its output
   array, as a function of the two arrays it reads. Each of the 64 grid points multiplies its block of 8192 rows of the
   524288x128 array (main_v12) by the whole 128x128 array (main_v15) into a zero accumulator and writes the 8192x128
   product to the same rows of the output array (main_v16). Here: the contraction's operand indices axis by axis; the payload at a row and a column
   (linpay1_apply); what a point writes back is its block of the product array lin1 (flushed1_eq), at a symbolic point;
   the blocks cover the output array (cover1); so the array ends holding the product (final1_arr, final1). -/
import proofs.«150802_j73332271612005_1_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open Idealize.ShloMosaic.TcCoe Idealize.SL.Sem
open Idealize.ShloMosaic.Pipeline (Dat)

/-! ## The contraction's operand indices, axis by axis -/

theorem lhs_lin1_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_lin1_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_lin1_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_lin1_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## The body's payload at an index -/

/-- The product of a block of rows by the square matrix, at row p and column q: the row's entries times the column's,
    summed over the 128 contraction coordinates (the casts are of a shape to itself, the narrowing is exact, and the
    accumulator starts at zero). -/
theorem linpay1_apply (x0 : Vec Ideal S8192x128 .f32) (x1 : Vec Ideal S128x128 .f32) (p : Fin 8192) (q : Fin 128) :
    (k1_pay1 x0 x1 : S8192x128.Idx → EReal) (ix2 p q)
      = ∑ k : Fin 128, (x0 : S8192x128.Idx → EReal) (ix2 p k) * (x1 : S128x128.Idx → EReal) (ix2 k q) := by
  unfold k1_pay1
  rw [shapeCast_self, shapeCast_self]
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_lin1_0 _ _
    | ⟨1, _⟩ => exact (lhs_lin1_1 _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_lin1_0 _ _).trans hk
    | ⟨1, _⟩ => exact rhs_lin1_1 _ _)
  rw [el, er]
  rfl

/-! ## From blocks to the array -/

section Region
-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The product array: at row i 0 and column i 1, the row of a times the column of b. -/
def lin1 (a : S524288x128.Idx → EReal) (b : S128x128.Idx → EReal) : S524288x128.Idx → EReal :=
  fun i => ∑ k : Fin 128, a (ix2 (⟨(i 0).val, idx2_lt0 i⟩ : Fin 524288) k) * b (ix2 k (⟨(i 1).val, idx2_lt1 i⟩ : Fin 128))

/-- The printed index maps, decided over the grid: the first input's row block moves with the output's, which is the
    point's own number; every other block index is 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- WHAT POINT t WRITES BACK is block t of the product of the two arrays as the region finds them. -/
theorem flushed1_eq (c : Dev nD) (t : Fin cfg1.N) :
    (dat1 V c).flushed 2 t = ((cfg1.win 2).blk t).view.read (Elt Ideal) (lin1 (V c main_v12) (V c main_v15)) := by
  show (cfg1.win 2).cut (grid1.coords t) ((dat1 V c).after 2 t) = _
  rw [after1_2]
  unfold out1_2
  rw [View.canon_unit_zero hz1]
  simp only [View.ld_unit_zero (S := S8192x128) hz1, View.ld_unit_zero (S := S128x128) hz1]
  obtain ⟨e0, e1, e2, e3, e4, e5⟩ := idx_facts1 t
  refine funext fun (j : S8192x128.Idx) => ?_
  obtain ⟨p, q, rfl⟩ : ∃ (p : Fin 8192) (q : Fin 128), j = ix2 p q := ⟨j 0, j 1, eq_ix2 j⟩
  show (k1_pay1 (iblk1 V c 0 t) (iblk1 V c 1 t) : S8192x128.Idx → EReal) (ix2 p q)
    = lin1 (V c main_v12) (V c main_v15) (((cfg1.win 2).blk t).view.emb (ix2 p q))
  rw [linpay1_apply]
  unfold lin1
  refine Finset.sum_congr rfl fun k _ => ?_
  have h0 : (iblk1 V c 0 t : S8192x128.Idx → EReal) (ix2 p k)
      = (V c main_v12 : S524288x128.Idx → EReal) (ix2 (⟨((((cfg1.win 2).blk t).view.emb (ix2 p q) : S524288x128.Idx) 0).val, idx2_lt0 _⟩ : Fin 524288) k) := by
    show (V c main_v12 : S524288x128.Idx → EReal) (((cfg1.win 0).blk t).view.emb (ix2 p k)) = _
    refine congrArg _ (funext fun a => Fin.ext ?_)
    match a with
    | ⟨0, _⟩ => show win1_0.index t (0 : Fin 2) * 8192 + 1 * p.val = win1_2.index t (0 : Fin 2) * 8192 + 1 * p.val; omega
    | ⟨1, _⟩ => show win1_0.index t (1 : Fin 2) * 128 + 1 * k.val = k.val; omega
  have h1 : (iblk1 V c 1 t : S128x128.Idx → EReal) (ix2 k q)
      = (V c main_v15 : S128x128.Idx → EReal) (ix2 k (⟨((((cfg1.win 2).blk t).view.emb (ix2 p q) : S524288x128.Idx) 1).val, idx2_lt1 _⟩ : Fin 128)) := by
    show (V c main_v15 : S128x128.Idx → EReal) (((cfg1.win 1).blk t).view.emb (ix2 k q)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  rw [h0, h1]

/-- An index of the array is in point t's block iff each coordinate is in the block's range on its axis. -/
theorem mem_blk1 (t : Fin cfg1.N) (i : S524288x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v16).slice (win1_2.rect t)).set ↔ _
  rw [View.set_slice_whole, Rect.mem_set_unit]
  exact Iff.rfl

/-- Every index of the output array is in some point's block: row r is in the block of point r / 8192. -/
theorem cover1 (i : S524288x128.Idx) :
    ∃ t : Fin cfg1.N, (cfg1.win 2).flush t = true ∧ i ∈ ((cfg1.win 2).blk t).view.set := by
  have hi0 : (i 0).val < 524288 := idx2_lt0 i
  have hi1 : (i 1).val < 128 := idx2_lt1 i
  have ht : (i 0).val / 8192 < cfg1.N := by rw [show cfg1.N = 64 from N_1]; omega
  obtain ⟨-, -, -, -, e1, e0⟩ := idx_facts1 ⟨(i 0).val / 8192, ht⟩
  have e0' : win1_2.index ⟨(i 0).val / 8192, ht⟩ (0 : Fin 2) = (i 0).val / 8192 := e0
  refine ⟨⟨(i 0).val / 8192, ht⟩, flush1_2 _, ?_⟩
  rw [mem_blk1]
  intro a
  match a with
  | ⟨0, _⟩ =>
    show win1_2.index ⟨(i 0).val / 8192, ht⟩ (0 : Fin 2) * 8192 ≤ (i 0).val ∧ (i 0).val < win1_2.index ⟨(i 0).val / 8192, ht⟩ (0 : Fin 2) * 8192 + 8192
    rw [e0']; omega
  | ⟨1, _⟩ =>
    show win1_2.index ⟨(i 0).val / 8192, ht⟩ (1 : Fin 2) * 128 ≤ (i 1).val ∧ (i 1).val < win1_2.index ⟨(i 0).val / 8192, ht⟩ (1 : Fin 2) * 128 + 128
    rw [e1]; omega

/-- THE ARRAY after the region: the product of the two arrays the region reads, as it finds them. -/
theorem final1_arr (c : Dev nD) : (dat1 V c).arrAt 2 cfg1.N = lin1 (V c main_v12) (V c main_v15) :=
  (dat1 V c).arrAt_eq_of_cover 2 (lin1 (V c main_v12) (V c main_v15)) (fun t _ => flushed1_eq V c t) cover1

/-- … read at row p and column q: row p of the first array times column q of the second. -/
theorem final1 (c : Dev nD) (p : Fin 524288) (q : Fin 128) :
    @Eq EReal (((dat1 V c).arrAt 2 cfg1.N : S524288x128.Idx → EReal) (ix2 p q))
      (∑ k : Fin 128, @HMul.hMul EReal EReal EReal instHMul ((V c main_v12 : S524288x128.Idx → EReal) (ix2 p k))
        ((V c main_v15 : S128x128.Idx → EReal) (ix2 k q))) :=
  congrFun (final1_arr V c) (ix2 p q)

end Region

end Cert.KernelIdeal.Val

end
-- ==== Proof.KI.Val2Math.lean ====
import Mathlib.Logic.Equiv.Fin.Basic
import Mathlib.Algebra.BigOperators.Fin
import Mathlib.Tactic.NormNum
import Idealize.ShloMosaic.Lib.ValueIdx
import Idealize.ShloMosaic.Lib.ValueLayout
import Idealize.ShloMosaic.Lib.Pipeline.Value
import Idealize.ShloMosaic.PureOps.Ideal.Laws
import proofs.«150802_j73332271612005_1_alg».proof.Proof.Gen.KernelIdeal.Skeleton

/-!
# The combine step's arithmetic, read index by index at the ideal values

Per tile of 4096 rows the combine step forms, for the two weight matrices w0 and w1,
M r j h = (a (r,h) + b (r,h)) + ∑ k, x (r,k) * wj (k,h), lays the two results side by side on a
middle axis of extent 2, and adds to two running rows the tile's lane sums of M and of M * M.
Here each of those values is read at explicit coordinates, and the sum over all 524288 rows is
re-indexed as a sum over 128 tiles of 4096 rows.
-/

noncomputable section

namespace Cert.KernelIdeal.Val

open Cert.KernelIdeal Cert.KernelIdeal.Gen Idealize.ShloMosaic Idealize.ShloMosaic.ValueIdx
open scoped BigOperators

/-! ## Layout: a unit axis inserted in the middle -/

/-- An [a, b] array cast to [a, 1, b] reads, at (i, u, j), the operand at (i, j), whatever the
unit coordinate u: the two indices have the same row-major position. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! ## The block product at an index -/

theorem lhs_tile_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_tile_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_tile_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_tile_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A tile's product with a 128 × 128 matrix, accumulated into zero, is at (r, h) the sum over the
contracted coordinate k of lhs (r, k) * rhs (k, h). -/
theorem matmul_tile_apply {φ₁ φ₂ : FTy} (lhs : FVec Ideal S4096x128 φ₁) (rhs : FVec Ideal S128x128 φ₂)
    (r : Fin 4096) (h : Fin 128) :
    matmul dot_S4096x128_S128x128_S4096x128_1_0_0_1_n_n none lhs rhs (constant (F := Ideal) S4096x128 .f32 0x00000000#32) (ix2 r h)
      = ∑ k : Fin 128, lhs (ix2 r k) * rhs (ix2 k h) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r h) ((contrEquiv1 dot_S4096x128_S128x128_S4096x128_1_0_0_1_n_n 128 rfl rfl).symm k) = ix2 r k := funext fun a => Fin.ext (by
    match a with
    | ⟨0, _⟩ => exact lhs_tile_0 _ _
    | ⟨1, _⟩ => exact (lhs_tile_1 _ _).trans hk)
  have er : dot_S4096x128_S128x128_S4096x128_1_0_0_1_n_n.rhsIdx (ix2 r h) ((contrEquiv1 dot_S4096x128_S128x128_S4096x128_1_0_0_1_n_n 128 rfl rfl).symm k) = ix2 k h := funext fun a => Fin.ext (by
    match a with
    | ⟨0, _⟩ => exact (rhs_tile_0 _ _).trans hk
    | ⟨1, _⟩ => exact rhs_tile_1 _ _)
  rw [el, er]

/-! ## A tile's lane sum at an index -/

/-- The sum of a tile over its 4096 rows, kept as a row [1, 128], is at (0, h) the sum over r of
the tile at (r, h). -/
theorem laneSum_apply (src : FVec Ideal S4096x128 .f32) (hφ : FKind.Formats .f32)
    (hacc : (0x00000000#32 : BitVec 32) = 0x00000000#32) (u : Fin 1) (h : Fin 128) :
    shapeCast S1x128 (multiReduction (F := Ideal) .add [0] S128 src 0x00000000#32 reduces_S4096x128_S128 hφ hacc) shapeCasts_S128_S1x128 (ix2 u h)
      = ∑ r : Fin 4096, src (ix2 r h) := by
  refine (shapeCast_a_1a_apply _ shapeCasts_S128_S1x128 u h).trans ?_
  refine (Ideal.multiReduction_add_single src 0x00000000#32 reduces_S4096x128_S128 hφ hacc (ix1 h)).trans ?_
  refine Finset.sum_congr rfl fun r _ => congrArg src ?_
  funext a
  match a with
  | ⟨0, _⟩ => rfl
  | ⟨1, _⟩ => rfl

/-! ## The payloads at an index

Every sum below keeps the order of operands the program has: the running row first, the tile's part second; the
lane sum of the first product's squares first, of the second's second. -/

/-- a + b at (r, h). -/
theorem pay5_apply (v3 v5 : Vec Ideal S4096x128 .f32) (r : Fin 4096) (h : Fin 128) :
    k2_pay5 (F := Ideal) v3 v5 (ix2 r h)
      = (v3 : S4096x128.Idx → EReal) (ix2 r h) + (v5 : S4096x128.Idx → EReal) (ix2 r h) := by
  unfold k2_pay5
  rw [shapeCast_self, shapeCast_self]
  rfl

/-- The change of format of x is the identity on the ideal values. -/
theorem pay6_apply (v8 : Vec Ideal S4096x128 .f32) (r : Fin 4096) (k : Fin 128) :
    k2_pay6 (F := Ideal) v8 (ix2 r k) = (v8 : S4096x128.Idx → EReal) (ix2 r k) := by
  unfold k2_pay6
  rw [shapeCast_self]
  rfl

/-- The first result of the tile at (r, h): (a + b) + ∑ k, x (r, k) * w0 (k, h). -/
theorem pay7_apply (v3 v5 v8 : Vec Ideal S4096x128 .f32) (v11 : Vec Ideal S128x128 .f32) (r : Fin 4096) (h : Fin 128) :
    k2_pay7 (F := Ideal) v3 v5 v8 v11 (ix2 r h)
      = ((v3 : S4096x128.Idx → EReal) (ix2 r h) + (v5 : S4096x128.Idx → EReal) (ix2 r h))
        + ∑ k : Fin 128, (v8 : S4096x128.Idx → EReal) (ix2 r k) * (v11 : S128x128.Idx → EReal) (ix2 k h) := by
  unfold k2_pay7
  refine (congrArg₂ (· + ·) (pay5_apply v3 v5 r h) (matmul_tile_apply _ _ r h)).trans ?_
  refine congrArg _ (Finset.sum_congr rfl fun k _ => ?_)
  rw [pay6_apply, shapeCast_self]
  rfl

/-- The second result of the tile at (r, h): (a + b) + ∑ k, x (r, k) * w1 (k, h). -/
theorem pay8_apply (v3 v5 v8 : Vec Ideal S4096x128 .f32) (v14 : Vec Ideal S128x128 .f32) (r : Fin 4096) (h : Fin 128) :
    k2_pay8 (F := Ideal) v3 v5 v8 v14 (ix2 r h)
      = ((v3 : S4096x128.Idx → EReal) (ix2 r h) + (v5 : S4096x128.Idx → EReal) (ix2 r h))
        + ∑ k : Fin 128, (v8 : S4096x128.Idx → EReal) (ix2 r k) * (v14 : S128x128.Idx → EReal) (ix2 k h) := by
  unfold k2_pay8
  refine (congrArg₂ (· + ·) (pay5_apply v3 v5 r h) (matmul_tile_apply _ _ r h)).trans ?_
  refine congrArg _ (Finset.sum_congr rfl fun k _ => ?_)
  rw [pay6_apply, shapeCast_self]
  rfl

/-- The first result laid on the middle axis: at (r, u, h) it is the first result at (r, h). -/
theorem pay9_apply (v3 v5 v8 : Vec Ideal S4096x128 .f32) (v11 : Vec Ideal S128x128 .f32) (r : Fin 4096) (u : Fin 1) (h : Fin 128) :
    k2_pay9 (F := Ideal) v3 v5 v8 v11 (ix3 r u h) = k2_pay7 (F := Ideal) v3 v5 v8 v11 (ix2 r h) := by
  unfold k2_pay9
  exact shapeCast_ab_a1b_apply _ _ r u h

/-- The second result laid on the middle axis. -/
theorem pay10_apply (v3 v5 v8 : Vec Ideal S4096x128 .f32) (v14 : Vec Ideal S128x128 .f32) (r : Fin 4096) (u : Fin 1) (h : Fin 128) :
    k2_pay10 (F := Ideal) v3 v5 v8 v14 (ix3 r u h) = k2_pay8 (F := Ideal) v3 v5 v8 v14 (ix2 r h) := by
  unfold k2_pay10
  exact shapeCast_ab_a1b_apply _ _ r u h

/-- The tile's part of the running sum at lane h: the first result's lane sum plus the second's. -/
theorem pay11_apply (v3 v5 v8 : Vec Ideal S4096x128 .f32) (v11 v14 : Vec Ideal S128x128 .f32) (u : Fin 1) (h : Fin 128) :
    k2_pay11 (F := Ideal) v3 v5 v8 v11 v14 (ix2 u h)
      = (∑ r : Fin 4096, k2_pay7 (F := Ideal) v3 v5 v8 v11 (ix2 r h))
        + ∑ r : Fin 4096, k2_pay8 (F := Ideal) v3 v5 v8 v14 (ix2 r h) := by
  unfold k2_pay11
  exact congrArg₂ (· + ·) (laneSum_apply _ _ _ u h) (laneSum_apply _ _ _ u h)

/-- The square of the first result, entry by entry. -/
theorem pay12_apply (v3 v5 v8 : Vec Ideal S4096x128 .f32) (v11 : Vec Ideal S128x128 .f32) (r : Fin 4096) (h : Fin 128) :
    k2_pay12 (F := Ideal) v3 v5 v8 v11 (ix2 r h)
      = k2_pay7 (F := Ideal) v3 v5 v8 v11 (ix2 r h) * k2_pay7 (F := Ideal) v3 v5 v8 v11 (ix2 r h) := rfl

/-- The running sum after a point: what it held, plus the point's part. -/
theorem pay1_apply (v31 : FVec Ideal S1x128 .f32) (v39 : Vec Ideal S1x128 .f32) (u : Fin 1) (h : Fin 128) :
    k2_pay1 (F := Ideal) v31 v39 (ix2 u h) = (v39 : S1x128.Idx → EReal) (ix2 u h) + v31 (ix2 u h) := by
  unfold k2_pay1
  rw [shapeCast_self]
  rfl

/-- The running sum of squares after a point: what it held, plus the lane sum of the given squares
(the first result's) plus the lane sum of the second result's squares. -/
theorem pay2_apply (v20 v32 : FVec Ideal S4096x128 .f32) (v44 : Vec Ideal S1x128 .f32) (u : Fin 1) (h : Fin 128) :
    k2_pay2 (F := Ideal) v20 v32 v44 (ix2 u h)
      = (v44 : S1x128.Idx → EReal) (ix2 u h)
        + ((∑ r : Fin 4096, v32 (ix2 r h)) + ∑ r : Fin 4096, v20 (ix2 r h) * v20 (ix2 r h)) := by
  unfold k2_pay2
  rw [shapeCast_self]
  refine congrArg (_ + ·) ?_
  exact congrArg₂ (· + ·) (laneSum_apply _ _ _ u h) (laneSum_apply _ _ _ u h)

/-- The running sum is reset to zero. -/
theorem pay3_apply (u : Fin 1) (h : Fin 128) : k2_pay3 (F := Ideal) (ix2 u h) = 0 := by
  unfold k2_pay3
  rw [shapeCast_self]
  exact Ideal.ofBits_zero_f32

/-- The running sum of squares is reset to zero. -/
theorem pay4_apply (u : Fin 1) (h : Fin 128) : k2_pay4 (F := Ideal) (ix2 u h) = 0 := by
  unfold k2_pay4
  rw [shapeCast_self]
  exact Ideal.ofBits_zero_f32

/-! ## All rows as tiles of rows -/

/-- Row 4096 * t + r of the whole array is row r of tile t. -/
abbrev rowOf (t : Fin 128) (r : Fin 4096) : Fin 524288 := ⟨4096 * t.val + r.val, by omega⟩

/-- A sum over all 524288 rows is the sum, over the 128 tiles, of the sum over the tile's 4096 rows. -/
theorem sum_rows_eq_sum_tiles {M : Type*} [AddCommMonoid M] (f : Fin 524288 → M) :
    ∑ e : Fin 524288, f e = ∑ t : Fin 128, ∑ r : Fin 4096, f (rowOf t r) := by
  rw [← Equiv.sum_comp ((finProdFinEquiv (m := 128) (n := 4096)).trans (finCongr (by norm_num : 128 * 4096 = 524288))) f,
    Fintype.sum_prod_type]
  refine Finset.sum_congr rfl fun t _ => Finset.sum_congr rfl fun r _ => congrArg f (Fin.ext ?_)
  show r.val + 4096 * t.val = 4096 * t.val + r.val
  omega

/-- The same sum cut after the first n tiles: what the running rows hold after n grid points. -/
theorem sum_tiles_succ {M : Type*} [AddCommMonoid M] (g : Fin 128 → M) (n : ℕ) (hn : n < 128) :
    (∑ t ∈ Finset.univ.filter (fun t : Fin 128 => t.val < n + 1), g t)
      = (∑ t ∈ Finset.univ.filter (fun t : Fin 128 => t.val < n), g t) + g ⟨n, hn⟩ := by
  have hs : Finset.univ.filter (fun t : Fin 128 => t.val < n + 1)
      = insert (⟨n, hn⟩ : Fin 128) (Finset.univ.filter (fun t : Fin 128 => t.val < n)) := by
    ext t
    simp only [Finset.mem_filter, Finset.mem_univ, true_and, Finset.mem_insert, Fin.ext_iff]
    omega
  rw [hs, Finset.sum_insert (by simp), add_comm]

theorem sum_tiles_zero {M : Type*} [AddCommMonoid M] (g : Fin 128 → M) :
    (∑ t ∈ Finset.univ.filter (fun t : Fin 128 => t.val < 0), g t) = 0 := by
  rw [Finset.filter_false_of_mem (by intro t _; omega), Finset.sum_empty]

theorem sum_tiles_all {M : Type*} [AddCommMonoid M] (g : Fin 128 → M) :
    (∑ t ∈ Finset.univ.filter (fun t : Fin 128 => t.val < 128), g t) = ∑ t : Fin 128, g t := by
  rw [Finset.filter_true_of_mem (by intro t _; exact t.isLt)]

end Cert.KernelIdeal.Val
-- ==== Proof.KI.Val2.lean ====
import proofs.«150802_j73332271612005_1_alg».proof.Proof.KI.Reg2
import proofs.«150802_j73332271612005_1_alg».proof.Proof.KI.Val2Math
import Idealize.ShloMosaic.Lib.Pipeline.FrameBody
import Idealize.ShloMosaic.Lib.Pipeline.Value
import Idealize.ShloMosaic.Lib.Tactic

/-!
# The combine step's three results, as functions of the arrays it finds

What each grid point's stores leave in the staging buffers and in the two running rows, read back as the
payloads' values; then, by induction on the point, the two running rows as partial sums over the tiles already
visited; then each written-back block as a block of one function of the whole arrays, and the three result
arrays as those functions.
-/

set_option maxRecDepth 16384

noncomputable section

namespace Cert.KernelIdeal.Val

open Cert.KernelIdeal Cert.KernelIdeal.Gen Idealize.ShloMosaic Idealize.ShloMosaic.ValueIdx
open Idealize.ShloMosaic.TcCoe Idealize.ShloMosaic.Tactic Idealize.SL.Sem
open Idealize.ShloMosaic.Pipeline (Dat)
open scoped BigOperators

section Pieces

variable {F : FTy → Type} [FloatOps F]

theorem zeros2 : (![0, 0] : Fin 2 → Nat) = fun _ => 0 := funext fun a => by fin_cases a <;> rfl

/-! ## Two stores that tile a buffer by its middle coordinate -/

/-- Two stores, each of extent [a, 1, b], at middle offsets 0 and 1 of an [a, 2, b] buffer leave at (r, j, h)
the payload of the store at middle offset j, read at (r, 0, h) — whichever was stored last. -/
theorem canon_two_rows {Val : EltTy → Type} [∀ e, Nonempty (Val e)] {e : EltTy} {a b : ℕ}
    (inb0 : ∀ d, (![0, 0, 0] : Fin 3 → Nat) d + (![a, 1, b] : Fin 3 → Nat) d ≤ (⟨3, ![a, 2, b]⟩ : Shape).size d)
    (inb1 : ∀ d, (![0, 1, 0] : Fin 3 → Nat) d + (![a, 1, b] : Fin 3 → Nat) d ≤ (⟨3, ![a, 2, b]⟩ : Shape).size d)
    (P Q : (⟨3, ![a, 1, b]⟩ : Shape).Idx → Val e) (r : Fin a) (j : Fin 2) (h : Fin b) :
    View.canon [(⟨Rect.unit ![0, 1, 0] ![a, 1, b] inb1, Q⟩ : View.Piece Val ⟨3, ![a, 2, b]⟩ e),
        ⟨Rect.unit ![0, 0, 0] ![a, 1, b] inb0, P⟩] (ix3 r j h)
      = if j = 0 then P (ix3 r 0 h) else Q (ix3 r 0 h) := by
  by_cases hj : j = 0
  · subst hj
    have e0 : (ix3 r (0 : Fin 2) h : (⟨3, ![a, 2, b]⟩ : Shape).Idx)
        = (Rect.unit (s := ⟨3, ![a, 2, b]⟩) ![0, 0, 0] ![a, 1, b] inb0).emb (ix3 r (0 : Fin 1) h) := by
      funext d; apply Fin.ext
      match d with
      | ⟨0, _⟩ => show r.val = 0 + 1 * r.val; omega
      | ⟨1, _⟩ => show 0 = 0 + 1 * 0; rfl
      | ⟨2, _⟩ => show h.val = 0 + 1 * h.val; omega
    have hnot : (ix3 r (0 : Fin 2) h : (⟨3, ![a, 2, b]⟩ : Shape).Idx)
        ∉ (Rect.unit (s := ⟨3, ![a, 2, b]⟩) ![0, 1, 0] ![a, 1, b] inb1).set := by
      rw [Rect.mem_set_unit]
      intro hh
      have h1 : (1 : ℕ) ≤ 0 := (hh 1).1
      omega
    rw [if_pos rfl]
    refine (View.canon_cons_of_not_mem (⟨Rect.unit ![0, 1, 0] ![a, 1, b] inb1, Q⟩ : View.Piece Val ⟨3, ![a, 2, b]⟩ e) _ hnot).trans ?_
    refine (congrArg (View.canon [(⟨Rect.unit ![0, 0, 0] ![a, 1, b] inb0, P⟩ : View.Piece Val ⟨3, ![a, 2, b]⟩ e)]) e0).trans ?_
    exact View.canon_cons_emb (Rect.unit (s := ⟨3, ![a, 2, b]⟩) ![0, 0, 0] ![a, 1, b] inb0) P [] (ix3 r 0 h)
  · have hj1 : j = 1 := Fin.ext (by
      have h2 := j.isLt
      have h0 : j.val ≠ 0 := fun hv => hj (Fin.ext hv)
      show j.val = 1
      omega)
    subst hj1
    have e1 : (ix3 r (1 : Fin 2) h : (⟨3, ![a, 2, b]⟩ : Shape).Idx)
        = (Rect.unit (s := ⟨3, ![a, 2, b]⟩) ![0, 1, 0] ![a, 1, b] inb1).emb (ix3 r (0 : Fin 1) h) := by
      funext d; apply Fin.ext
      match d with
      | ⟨0, _⟩ => show r.val = 0 + 1 * r.val; omega
      | ⟨1, _⟩ => show 1 = 1 + 1 * 0; rfl
      | ⟨2, _⟩ => show h.val = 0 + 1 * h.val; omega
    rw [if_neg (by decide)]
    refine (congrArg (View.canon [(⟨Rect.unit ![0, 1, 0] ![a, 1, b] inb1, Q⟩ : View.Piece Val ⟨3, ![a, 2, b]⟩ e),
        ⟨Rect.unit ![0, 0, 0] ![a, 1, b] inb0, P⟩]) e1).trans ?_
    exact View.canon_cons_emb (Rect.unit (s := ⟨3, ![a, 2, b]⟩) ![0, 1, 0] ![a, 1, b] inb1) Q _ (ix3 r 0 h)

/-! ## What the first point leaves: the pieces the run found, read back -/

/-- The first point resets the running sum, reads it back and adds the tile's part. -/
theorem sout2_A_0_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 x1 x2 : Vec F S4096x128 .f32) (x3 x4 : Vec F S128x128 .f32) :
    sout2_A_0 c i arg1 harg1 arg2 harg2 arg3 harg3 arg4 harg4 arg5 harg5 arg6 harg6 arg7 harg7 arg8 harg8 arg9 harg9 arg10 harg10 hc0 hc1 x0 x1 x2 x3 x4 = k2_pay1 (k2_pay11 x0 x1 x2 x3 x4) (k2_pay3 (F := F)) := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x128) zeros2, View.readCov_unit_zero (S := S1x128) _ zeros2]
  simp only [View.readAt_eq_ld, harg1.read_unread, harg2.read_unread, harg3.read_unread, harg4.read_unread, harg5.read_unread, View.ld_unit_zero (S := S4096x128) zeros2, View.ld_unit_zero (S := S128x128) zeros2, View.ld_unit_zero (S := S1x128) zeros2, View.readCov_unit_zero (S := S1x128) _ zeros2]

/-- Likewise the running sum of squares. -/
theorem sout2_A_1_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 x1 x2 : Vec F S4096x128 .f32) (x3 x4 : Vec F S128x128 .f32) :
    sout2_A_1 c i arg1 harg1 arg2 harg2 arg3 harg3 arg4 harg4 arg5 harg5 arg6 harg6 arg7 harg7 arg8 harg8 arg9 harg9 arg10 harg10 hc0 hc1 x0 x1 x2 x3 x4 = k2_pay2 (k2_pay8 x0 x1 x2 x4) (k2_pay12 x0 x1 x2 x3) (k2_pay4 (F := F)) := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  rw [View.canon_cons_unit_zero (S := S1x128) zeros2, View.readCov_unit_zero (S := S1x128) _ zeros2]
  simp only [View.readAt_eq_ld, harg1.read_unread, harg2.read_unread, harg3.read_unread, harg4.read_unread, harg5.read_unread, View.ld_unit_zero (S := S4096x128) zeros2, View.ld_unit_zero (S := S128x128) zeros2, View.ld_unit_zero (S := S1x128) zeros2, View.readCov_unit_zero (S := S1x128) _ zeros2]

/-- The two results side by side in the big output's block. -/
theorem out2_A_5_apply (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 x1 x2 : Vec F S4096x128 .f32) (x3 x4 : Vec F S128x128 .f32)
    (r : Fin 4096) (j : Fin 2) (h : Fin 128) :
    out2_A_5 c i arg1 harg1 arg2 harg2 arg3 harg3 arg4 harg4 arg5 harg5 arg6 harg6 arg7 harg7 arg8 harg8 arg9 harg9 arg10 harg10 hc0 hc1 x0 x1 x2 x3 x4 (ix3 r j h)
      = if j = 0 then k2_pay9 x0 x1 x2 x3 (ix3 r 0 h) else k2_pay10 x0 x1 x2 x4 (ix3 r 0 h) := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  simp only [View.readAt_eq_ld, harg1.read_unread, harg2.read_unread, harg3.read_unread, harg4.read_unread, harg5.read_unread, View.ld_unit_zero (S := S4096x128) zeros2, View.ld_unit_zero (S := S128x128) zeros2, View.ld_unit_zero (S := S1x128) zeros2, View.readCov_unit_zero (S := S1x128) _ zeros2]
  exact canon_two_rows _ _ _ _ r j h

/-- A middle point leaves in the running sum: what it held, plus the tile's part. -/
theorem sout2_B_0_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 x1 x2 : Vec F S4096x128 .f32) (x3 x4 : Vec F S128x128 .f32) (xs0 xs1 : Vec F S1x128 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay11 x0 x1 x2 x3 x4) xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

/-- A middle point leaves in the running sum of squares. -/
theorem sout2_B_1_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 x1 x2 : Vec F S4096x128 .f32) (x3 x4 : Vec F S128x128 .f32) (xs0 xs1 : Vec F S1x128 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay8 x0 x1 x2 x4) (k2_pay12 x0 x1 x2 x3) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

/-- A middle point leaves in the big output's block: the two results side by side. -/
theorem out2_B_5_apply (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 x1 x2 : Vec F S4096x128 .f32) (x3 x4 : Vec F S128x128 .f32) (xs0 xs1 : Vec F S1x128 .f32)
    (r : Fin 4096) (j : Fin 2) (h : Fin 128) :
    out2_B_5 c i arg1 harg1 arg2 harg2 arg3 harg3 arg4 harg4 arg5 harg5 arg6 harg6 arg7 harg7 arg8 harg8 arg9 harg9 arg10 harg10 hc0 hc1 x0 x1 x2 x3 x4 xs0 xs1 (ix3 r j h)
      = if j = 0 then k2_pay9 x0 x1 x2 x3 (ix3 r 0 h) else k2_pay10 x0 x1 x2 x4 (ix3 r 0 h) := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]
  exact canon_two_rows _ _ _ _ r j h

/-- The last point leaves in the running sum: what it held, plus the tile's part. -/
theorem sout2_C_0_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 x1 x2 : Vec F S4096x128 .f32) (x3 x4 : Vec F S128x128 .f32) (xs0 xs1 : Vec F S1x128 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay11 x0 x1 x2 x3 x4) xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

/-- The last point leaves in the running sum of squares. -/
theorem sout2_C_1_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 x1 x2 : Vec F S4096x128 .f32) (x3 x4 : Vec F S128x128 .f32) (xs0 xs1 : Vec F S1x128 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay8 x0 x1 x2 x4) (k2_pay12 x0 x1 x2 x3) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

/-- The last point leaves in the big output's block: the two results side by side. -/
theorem out2_C_5_apply (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 x1 x2 : Vec F S4096x128 .f32) (x3 x4 : Vec F S128x128 .f32) (xs0 xs1 : Vec F S1x128 .f32)
    (r : Fin 4096) (j : Fin 2) (h : Fin 128) :
    out2_C_5 c i arg1 harg1 arg2 harg2 arg3 harg3 arg4 harg4 arg5 harg5 arg6 harg6 arg7 harg7 arg8 harg8 arg9 harg9 arg10 harg10 hc0 hc1 x0 x1 x2 x3 x4 xs0 xs1 (ix3 r j h)
      = if j = 0 then k2_pay9 x0 x1 x2 x3 (ix3 r 0 h) else k2_pay10 x0 x1 x2 x4 (ix3 r 0 h) := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]
  exact canon_two_rows _ _ _ _ r j h

/-- At the last point the first row output is stored with the running sum just updated. -/
theorem out2_C_6_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 x1 x2 : Vec F S4096x128 .f32) (x3 x4 : Vec F S128x128 .f32) (xs0 xs1 : Vec F S1x128 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay11 x0 x1 x2 x3 x4) xs0 := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

/-- At the last point the second row output is stored with the running sum of squares just updated. -/
theorem out2_C_7_eq (c : Dev nD) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4096x2x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 x1 x2 : Vec F S4096x128 .f32) (x3 x4 : Vec F S128x128 .f32) (xs0 xs1 : Vec F S1x128 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay8 x0 x1 x2 x4) (k2_pay12 x0 x1 x2 x3) xs1 := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  rw [View.canon_unit_zero zeros2]
  simp only [View.readAt_eq_ld, harg1.read_unread, harg2.read_unread, harg3.read_unread, harg4.read_unread, harg5.read_unread, harg9.read_unread, harg10.read_unread, View.ld_unit_zero (S := S4096x128) zeros2, View.ld_unit_zero (S := S128x128) zeros2, View.ld_unit_zero (S := S1x128) zeros2, View.readCov_unit_zero (S := S1x128) _ zeros2]

end Pieces

section Values

variable (V : (c : Dev nD) → (b : Ref sig .tc) → Buf (Elt Ideal) ((c : Thread nD τ).loc b))

/-! ## The value the step computes, and the blocks it reads -/

/-- The five arrays the step reads, as the region finds them, each at its literal type: the two addends a and b,
the matrix x, and the two weight matrices. -/
abbrev aArr (c : Dev nD) : S524288x128.Idx → EReal := V c main_v23
abbrev bArr (c : Dev nD) : S524288x128.Idx → EReal := V c main_v16
abbrev xArr (c : Dev nD) : S524288x128.Idx → EReal := V c main_v30
abbrev w0Arr (c : Dev nD) : S128x128.Idx → EReal := V c main_v32
abbrev w1Arr (c : Dev nD) : S128x128.Idx → EReal := V c main_v34

/-- Row e of the combined result for weight matrix j at lane h: (a + b) + x · wj. -/
def M2 (c : Dev nD) (e : Fin 524288) (j : Fin 2) (h : Fin 128) : EReal :=
  (aArr V c (ix2 e h) + bArr V c (ix2 e h))
    + ∑ k : Fin 128, xArr V c (ix2 e k) * ((if j = 0 then w0Arr V c else w1Arr V c) (ix2 k h))

/-- The printed index maps, decided once over the grid: the three row inputs and the big output move one tile per
point; the two weight matrices and the two row outputs stay. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row r of tile t, as a row of the whole array. -/
abbrev rowAt (t : Fin cfg2.N) (r : Fin 4096) : Fin 524288 :=
  ⟨4096 * t.val + r.val, by have h1 := t.isLt; have hN : cfg2.N = 128 := N_2; have h2 := r.isLt; omega⟩

/-- Tile t of a, read at (r, h), is a at row 4096 t + r. -/
theorem blk0_apply (c : Dev nD) (t : Fin cfg2.N) (r : Fin 4096) (h : Fin 128) :
    (iblk2 V c 0 t : S4096x128.Idx → EReal) (ix2 r h) = aArr V c (ix2 (rowAt t r) h) := by
  obtain ⟨e0, e1, -⟩ := idx2_facts t
  unfold iblk2
  rw [View.read_apply]
  show V c main_v23 _ = V c main_v23 _
  congr 1
  funext a; apply Fin.ext
  match a with
  | ⟨0, _⟩ => show win2_0.index t (0 : Fin 2) * 4096 + 1 * r.val = 4096 * t.val + r.val; rw [e0]; omega
  | ⟨1, _⟩ => show win2_0.index t (1 : Fin 2) * 128 + 1 * h.val = h.val; rw [e1]; omega

/-- Tile t of b likewise. -/
theorem blk1_apply (c : Dev nD) (t : Fin cfg2.N) (r : Fin 4096) (h : Fin 128) :
    (iblk2 V c 1 t : S4096x128.Idx → EReal) (ix2 r h) = bArr V c (ix2 (rowAt t r) h) := by
  obtain ⟨-, -, ea, eb, -⟩ := idx2_facts t
  unfold iblk2
  rw [View.read_apply]
  show V c main_v16 _ = V c main_v16 _
  congr 1
  funext a; apply Fin.ext
  match a with
  | ⟨0, _⟩ => show win2_1.index t (0 : Fin 2) * 4096 + 1 * r.val = 4096 * t.val + r.val; rw [ea]; omega
  | ⟨1, _⟩ => show win2_1.index t (1 : Fin 2) * 128 + 1 * h.val = h.val; rw [eb]; omega

/-- Tile t of x likewise. -/
theorem blk2_apply (c : Dev nD) (t : Fin cfg2.N) (r : Fin 4096) (h : Fin 128) :
    (iblk2 V c 2 t : S4096x128.Idx → EReal) (ix2 r h) = xArr V c (ix2 (rowAt t r) h) := by
  obtain ⟨-, -, -, -, ea, eb, -⟩ := idx2_facts t
  unfold iblk2
  rw [View.read_apply]
  show V c main_v30 _ = V c main_v30 _
  congr 1
  funext a; apply Fin.ext
  match a with
  | ⟨0, _⟩ => show win2_2.index t (0 : Fin 2) * 4096 + 1 * r.val = 4096 * t.val + r.val; rw [ea]; omega
  | ⟨1, _⟩ => show win2_2.index t (1 : Fin 2) * 128 + 1 * h.val = h.val; rw [eb]; omega

/-- The first weight matrix is read whole at every point. -/
theorem blk3_apply (c : Dev nD) (t : Fin cfg2.N) (k : Fin 128) (h : Fin 128) :
    (iblk2 V c 3 t : S128x128.Idx → EReal) (ix2 k h) = w0Arr V c (ix2 k h) := by
  obtain ⟨-, -, -, -, -, -, ea, eb, -⟩ := idx2_facts t
  unfold iblk2
  rw [View.read_apply]
  show V c main_v32 _ = V c main_v32 _
  congr 1
  funext a; apply Fin.ext
  match a with
  | ⟨0, _⟩ => show win2_3.index t (0 : Fin 2) * 128 + 1 * k.val = k.val; rw [ea]; omega
  | ⟨1, _⟩ => show win2_3.index t (1 : Fin 2) * 128 + 1 * h.val = h.val; rw [eb]; omega

/-- The second weight matrix likewise. -/
theorem blk4_apply (c : Dev nD) (t : Fin cfg2.N) (k : Fin 128) (h : Fin 128) :
    (iblk2 V c 4 t : S128x128.Idx → EReal) (ix2 k h) = w1Arr V c (ix2 k h) := by
  obtain ⟨-, -, -, -, -, -, -, -, ea, eb, -⟩ := idx2_facts t
  unfold iblk2
  rw [View.read_apply]
  show V c main_v34 _ = V c main_v34 _
  congr 1
  funext a; apply Fin.ext
  match a with
  | ⟨0, _⟩ => show win2_4.index t (0 : Fin 2) * 128 + 1 * k.val = k.val; rw [ea]; omega
  | ⟨1, _⟩ => show win2_4.index t (1 : Fin 2) * 128 + 1 * h.val = h.val; rw [eb]; omega

/-! ## One tile's two results, and one point's update of the two running rows -/

/-- The first result of tile t at (r, h) is the combined value of row 4096 t + r for the first weight matrix. -/
theorem tile7 (c : Dev nD) (t : Fin cfg2.N) (r : Fin 4096) (h : Fin 128) :
    k2_pay7 (F := Ideal) (iblk2 V c 0 t) (iblk2 V c 1 t) (iblk2 V c 2 t) (iblk2 V c 3 t) (ix2 r h) = M2 V c (rowAt t r) 0 h := by
  refine (pay7_apply (iblk2 V c 0 t) (iblk2 V c 1 t) (iblk2 V c 2 t) (iblk2 V c 3 t) r h).trans ?_
  unfold M2
  refine congrArg₂ (· + ·) (congrArg₂ (· + ·) (blk0_apply V c t r h) (blk1_apply V c t r h))
    (Finset.sum_congr rfl fun k _ => congrArg₂ (· * ·) (blk2_apply V c t r k) ?_)
  exact (blk3_apply V c t k h).trans (congrFun (if_pos rfl).symm _)

/-- The second result of tile t likewise, for the second weight matrix. -/
theorem tile8 (c : Dev nD) (t : Fin cfg2.N) (r : Fin 4096) (h : Fin 128) :
    k2_pay8 (F := Ideal) (iblk2 V c 0 t) (iblk2 V c 1 t) (iblk2 V c 2 t) (iblk2 V c 4 t) (ix2 r h) = M2 V c (rowAt t r) 1 h := by
  refine (pay8_apply (iblk2 V c 0 t) (iblk2 V c 1 t) (iblk2 V c 2 t) (iblk2 V c 4 t) r h).trans ?_
  unfold M2
  refine congrArg₂ (· + ·) (congrArg₂ (· + ·) (blk0_apply V c t r h) (blk1_apply V c t r h))
    (Finset.sum_congr rfl fun k _ => congrArg₂ (· * ·) (blk2_apply V c t r k) ?_)
  exact (blk4_apply V c t k h).trans (congrFun (if_neg (by decide)).symm _)

/-- Tile t's part of the sum at lane h: its rows' two results added up. -/
def part (c : Dev nD) (h : Fin 128) (t : Fin cfg2.N) : EReal :=
  (∑ r : Fin 4096, M2 V c (rowAt t r) 0 h) + ∑ r : Fin 4096, M2 V c (rowAt t r) 1 h

/-- Tile t's part of the sum of squares at lane h. -/
def partSq (c : Dev nD) (h : Fin 128) (t : Fin cfg2.N) : EReal :=
  (∑ r : Fin 4096, M2 V c (rowAt t r) 0 h * M2 V c (rowAt t r) 0 h)
    + ∑ r : Fin 4096, M2 V c (rowAt t r) 1 h * M2 V c (rowAt t r) 1 h

/-- A point's update of the running sum: what the row held, plus the tile's part. -/
theorem step0 (c : Dev nD) (t : Fin cfg2.N) (xs0 : Vec Ideal S1x128 .f32) (u : Fin 1) (h : Fin 128) :
    k2_pay1 (F := Ideal) (k2_pay11 (iblk2 V c 0 t) (iblk2 V c 1 t) (iblk2 V c 2 t) (iblk2 V c 3 t) (iblk2 V c 4 t)) xs0 (ix2 u h)
      = (xs0 : S1x128.Idx → EReal) (ix2 u h) + part V c h t := by
  refine (pay1_apply _ xs0 u h).trans (congrArg (_ + ·) ?_)
  refine (pay11_apply (iblk2 V c 0 t) (iblk2 V c 1 t) (iblk2 V c 2 t) (iblk2 V c 3 t) (iblk2 V c 4 t) u h).trans ?_
  exact congrArg₂ (· + ·) (Finset.sum_congr rfl fun r _ => tile7 V c t r h) (Finset.sum_congr rfl fun r _ => tile8 V c t r h)

/-- A point's update of the running sum of squares. -/
theorem step1 (c : Dev nD) (t : Fin cfg2.N) (xs1 : Vec Ideal S1x128 .f32) (u : Fin 1) (h : Fin 128) :
    k2_pay2 (F := Ideal) (k2_pay8 (iblk2 V c 0 t) (iblk2 V c 1 t) (iblk2 V c 2 t) (iblk2 V c 4 t))
        (k2_pay12 (iblk2 V c 0 t) (iblk2 V c 1 t) (iblk2 V c 2 t) (iblk2 V c 3 t)) xs1 (ix2 u h)
      = (xs1 : S1x128.Idx → EReal) (ix2 u h) + partSq V c h t := by
  refine (pay2_apply _ _ xs1 u h).trans (congrArg (_ + ·) ?_)
  refine congrArg₂ (· + ·) (Finset.sum_congr rfl fun r _ => ?_) (Finset.sum_congr rfl fun r _ => ?_)
  · exact (pay12_apply (iblk2 V c 0 t) (iblk2 V c 1 t) (iblk2 V c 2 t) (iblk2 V c 3 t) r h).trans
      (congrArg₂ (· * ·) (tile7 V c t r h) (tile7 V c t r h))
  · exact congrArg₂ (· * ·) (tile8 V c t r h) (tile8 V c t r h)

/-! ## Sums over the points visited so far -/

theorem sum_le_zero {N : ℕ} {M : Type*} [AddCommMonoid M] (g : Fin N → M) (h0 : 0 < N) :
    (∑ t ∈ Finset.univ.filter (fun t : Fin N => t.val ≤ 0), g t) = g ⟨0, h0⟩ := by
  have hs : Finset.univ.filter (fun t : Fin N => t.val ≤ 0) = {(⟨0, h0⟩ : Fin N)} := by
    ext t
    simp only [Finset.mem_filter, Finset.mem_univ, true_and, Finset.mem_singleton, Fin.ext_iff]
    omega
  rw [hs, Finset.sum_singleton]

theorem sum_le_succ {N : ℕ} {M : Type*} [AddCommMonoid M] (g : Fin N → M) (n : ℕ) (hn : n + 1 < N) :
    (∑ t ∈ Finset.univ.filter (fun t : Fin N => t.val ≤ n + 1), g t)
      = (∑ t ∈ Finset.univ.filter (fun t : Fin N => t.val ≤ n), g t) + g ⟨n + 1, hn⟩ := by
  have hs : Finset.univ.filter (fun t : Fin N => t.val ≤ n + 1)
      = insert (⟨n + 1, hn⟩ : Fin N) (Finset.univ.filter (fun t : Fin N => t.val ≤ n)) := by
    ext t
    simp only [Finset.mem_filter, Finset.mem_univ, true_and, Finset.mem_insert, Fin.ext_iff]
    omega
  rw [hs, Finset.sum_insert (by simp), add_comm]

theorem sum_le_last {N : ℕ} {M : Type*} [AddCommMonoid M] (g : Fin N → M) (n : ℕ) (hn : n + 1 = N) :
    (∑ t ∈ Finset.univ.filter (fun t : Fin N => t.val ≤ n), g t) = ∑ t : Fin N, g t := by
  rw [Finset.filter_true_of_mem (by intro t _; have := t.isLt; omega)]

/-! ## The two running rows after each point -/

/-- After point n the first running row holds, at lane h, the parts of the tiles 0 … n added up, and the second the
parts of their squares: by induction on the point, the first point starting from zero. -/
theorem rows_eq (c : Dev nD) : ∀ (n : ℕ) (hn : n < cfg2.N) (u : Fin 1) (h : Fin 128),
    ((outsAt2 V c n hn).2.2.2.1 : S1x128.Idx → EReal) (ix2 u h)
        = ∑ t ∈ Finset.univ.filter (fun t : Fin cfg2.N => t.val ≤ n), part V c h t
    ∧ ((outsAt2 V c n hn).2.2.2.2 : S1x128.Idx → EReal) (ix2 u h)
        = ∑ t ∈ Finset.univ.filter (fun t : Fin cfg2.N => t.val ≤ n), partSq V c h t
  | 0, hn, u, h => by
    have h0 : (⟨0, hn⟩ : Fin cfg2.N).val % 128 = 0 := rfl
    have h1 : ¬(⟨0, hn⟩ : Fin cfg2.N).val % 128 = 127 := by dsimp only; omega
    rw [outsAt2_A V c (⟨0, hn⟩ : Fin cfg2.N) h0 h1]
    dsimp only
    rw [sum_le_zero (part V c h) hn, sum_le_zero (partSq V c h) hn]
    constructor
    · refine (congrFun (sout2_A_0_eq (F := Ideal) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) scM2_0 (Memref.isWhole_whole _) scM2_1 (Memref.isWhole_whole _) ((hcond2_0 (⟨0, hn⟩ : Fin cfg2.N)).mpr h0) (fun hh => h1 ((hcond2_1 (⟨0, hn⟩ : Fin cfg2.N)).mp hh)) (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N))) (ix2 u h)).trans ?_
      refine (step0 V c (⟨0, hn⟩ : Fin cfg2.N) (k2_pay3 (F := Ideal)) u h).trans ?_
      rw [pay3_apply, zero_add]
    · refine (congrFun (sout2_A_1_eq (F := Ideal) c (grid2.coords (⟨0, hn⟩ : Fin cfg2.N)) (ms2_0 (⟨0, hn⟩ : Fin cfg2.N)) (hs2_0 (⟨0, hn⟩ : Fin cfg2.N)) (ms2_1 (⟨0, hn⟩ : Fin cfg2.N)) (hs2_1 (⟨0, hn⟩ : Fin cfg2.N)) (ms2_2 (⟨0, hn⟩ : Fin cfg2.N)) (hs2_2 (⟨0, hn⟩ : Fin cfg2.N)) (ms2_3 (⟨0, hn⟩ : Fin cfg2.N)) (hs2_3 (⟨0, hn⟩ : Fin cfg2.N)) (ms2_4 (⟨0, hn⟩ : Fin cfg2.N)) (hs2_4 (⟨0, hn⟩ : Fin cfg2.N)) (ms2_5 (⟨0, hn⟩ : Fin cfg2.N)) (hs2_5 (⟨0, hn⟩ : Fin cfg2.N)) (ms2_6 (⟨0, hn⟩ : Fin cfg2.N)) (hs2_6 (⟨0, hn⟩ : Fin cfg2.N)) (ms2_7 (⟨0, hn⟩ : Fin cfg2.N)) (hs2_7 (⟨0, hn⟩ : Fin cfg2.N)) scM2_0 (Memref.isWhole_whole _) scM2_1 (Memref.isWhole_whole _) ((hcond2_0 (⟨0, hn⟩ : Fin cfg2.N)).mpr h0) (fun hh => h1 ((hcond2_1 (⟨0, hn⟩ : Fin cfg2.N)).mp hh)) (iblk2 V c 0 (⟨0, hn⟩ : Fin cfg2.N)) (iblk2 V c 1 (⟨0, hn⟩ : Fin cfg2.N)) (iblk2 V c 2 (⟨0, hn⟩ : Fin cfg2.N)) (iblk2 V c 3 (⟨0, hn⟩ : Fin cfg2.N)) (iblk2 V c 4 (⟨0, hn⟩ : Fin cfg2.N))) (ix2 u h)).trans ?_
      refine (step1 V c (⟨0, hn⟩ : Fin cfg2.N) (k2_pay4 (F := Ideal)) u h).trans ?_
      rw [pay4_apply, zero_add]
  | n + 1, hn, u, h => by
    have hN : cfg2.N = 128 := N_2
    have h0 : ¬(⟨n + 1, hn⟩ : Fin cfg2.N).val % 128 = 0 := by dsimp only; omega
    have ih := rows_eq c n (Nat.lt_of_succ_lt hn) u h
    rw [sum_le_succ (part V c h) n hn, sum_le_succ (partSq V c h) n hn]
    by_cases h1 : (⟨n + 1, hn⟩ : Fin cfg2.N).val % 128 = 127
    · rw [outsAt2_C V c (⟨n + 1, hn⟩ : Fin cfg2.N) h0 h1]
      dsimp only
      constructor
      · refine (congrFun (sout2_C_0_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun hh => h0 ((hcond2_0 (⟨n + 1, hn⟩ : Fin cfg2.N)).mp hh)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2) (ix2 u h)).trans ?_
        refine (step0 V c (⟨n + 1, hn⟩ : Fin cfg2.N) _ u h).trans ?_
        exact congrArg (· + part V c h (⟨n + 1, hn⟩ : Fin cfg2.N)) ih.1
      · refine (congrFun (sout2_C_1_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun hh => h0 ((hcond2_0 (⟨n + 1, hn⟩ : Fin cfg2.N)).mp hh)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2) (ix2 u h)).trans ?_
        refine (step1 V c (⟨n + 1, hn⟩ : Fin cfg2.N) _ u h).trans ?_
        exact congrArg (· + partSq V c h (⟨n + 1, hn⟩ : Fin cfg2.N)) ih.2
    · rw [outsAt2_B V c (⟨n + 1, hn⟩ : Fin cfg2.N) h0 h1]
      dsimp only
      constructor
      · refine (congrFun (sout2_B_0_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun hh => h0 ((hcond2_0 (⟨n + 1, hn⟩ : Fin cfg2.N)).mp hh)) (fun hh => h1 ((hcond2_1 (⟨n + 1, hn⟩ : Fin cfg2.N)).mp hh)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2) (ix2 u h)).trans ?_
        refine (step0 V c (⟨n + 1, hn⟩ : Fin cfg2.N) _ u h).trans ?_
        exact congrArg (· + part V c h (⟨n + 1, hn⟩ : Fin cfg2.N)) ih.1
      · refine (congrFun (sout2_B_1_eq (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) scM2_0 (Memref.isWhole_whole _) scM2_1 (Memref.isWhole_whole _) (fun hh => h0 ((hcond2_0 (⟨n + 1, hn⟩ : Fin cfg2.N)).mp hh)) (fun hh => h1 ((hcond2_1 (⟨n + 1, hn⟩ : Fin cfg2.N)).mp hh)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2) (ix2 u h)).trans ?_
        refine (step1 V c (⟨n + 1, hn⟩ : Fin cfg2.N) _ u h).trans ?_
        exact congrArg (· + partSq V c h (⟨n + 1, hn⟩ : Fin cfg2.N)) ih.2

/-! ## The big output: every point's block, and the array -/

/-- The two results side by side at (r, j, h) are the combined value of row 4096 t + r for weight matrix j. -/
theorem side_eq (c : Dev nD) (t : Fin cfg2.N) (r : Fin 4096) (j : Fin 2) (h : Fin 128) :
    (if j = 0 then k2_pay9 (F := Ideal) (iblk2 V c 0 t) (iblk2 V c 1 t) (iblk2 V c 2 t) (iblk2 V c 3 t) (ix3 r 0 h)
      else k2_pay10 (F := Ideal) (iblk2 V c 0 t) (iblk2 V c 1 t) (iblk2 V c 2 t) (iblk2 V c 4 t) (ix3 r 0 h))
      = M2 V c (rowAt t r) j h := by
  by_cases hj : j = 0
  · subst hj
    rw [if_pos rfl]
    exact (pay9_apply (iblk2 V c 0 t) (iblk2 V c 1 t) (iblk2 V c 2 t) (iblk2 V c 3 t) r 0 h).trans (tile7 V c t r h)
  · have hj1 : j = 1 := Fin.ext (by
      have h2 := j.isLt
      have h0 : j.val ≠ 0 := fun hv => hj (Fin.ext hv)
      show j.val = 1
      omega)
    subst hj1
    rw [if_neg (by decide)]
    exact (pay10_apply (iblk2 V c 0 t) (iblk2 V c 1 t) (iblk2 V c 2 t) (iblk2 V c 4 t) r 0 h).trans (tile8 V c t r h)

/-- Whatever the case, what point t leaves in the big output's buffer is, at (r, j, h), that value. -/
theorem big_eq (c : Dev nD) (t : Fin cfg2.N) (r : Fin 4096) (j : Fin 2) (h : Fin 128) :
    ((outsAt2 V c t.val t.isLt).1 : S4096x2x128.Idx → EReal) (ix3 r j h) = M2 V c (rowAt t r) j h := by
  by_cases h0 : t.val % 128 = 0
  · have h1 : ¬t.val % 128 = 127 := by omega
    rw [outsAt2_A V c t h0 h1]
    dsimp only
    exact (out2_A_5_apply (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun hh => h1 ((hcond2_1 t).mp hh)) (iblk2 V c 0 t) (iblk2 V c 1 t) (iblk2 V c 2 t) (iblk2 V c 3 t) (iblk2 V c 4 t) r j h).trans (side_eq V c t r j h)
  · by_cases h1 : t.val % 128 = 127
    · rw [outsAt2_C V c t h0 h1]
      dsimp only
      exact (out2_C_5_apply (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 r j h).trans (side_eq V c t r j h)
    · rw [outsAt2_B V c t h0 h1]
      dsimp only
      exact (out2_B_5_apply (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2 r j h).trans (side_eq V c t r j h)

/-- What the big result array ends as: at (e, j, h) the combined value of row e for weight matrix j. -/
def G5 (c : Dev nD) : S524288x2x128.Idx → EReal := fun y =>
  M2 V c ⟨(y 0).val, (y 0).isLt⟩ ⟨(y 1).val, (y 1).isLt⟩ ⟨(y 2).val, (y 2).isLt⟩

/-- What point t writes back of the big output is block t of that function. -/
theorem flushed5_eq (c : Dev nD) (t : Fin cfg2.N) :
    (dat2 V c).flushed 5 t = ((cfg2.win 5).blk t).view.read (Elt Ideal) (G5 V c) := by
  obtain ⟨-, -, -, -, -, -, -, -, -, -, e0, e1, e2, -⟩ := idx2_facts t
  show (cfg2.win 5).cut (grid2.coords t) ((dat2 V c).after 5 t) = _
  rw [after2_5]
  funext y
  obtain ⟨r, j, h, rfl⟩ : ∃ (r : Fin 4096) (j : Fin 2) (h : Fin 128), y = ix3 r j h := ⟨y 0, y 1, y 2, eq_ix3 y⟩
  rw [View.read_apply]
  refine (big_eq V c t r j h).trans ?_
  unfold G5
  congr 1 <;> apply Fin.ext
  · show 4096 * t.val + r.val = win2_5.index t (0 : Fin 3) * 4096 + 1 * r.val; rw [e0]; omega
  · show j.val = win2_5.index t (1 : Fin 3) * 2 + 1 * j.val; rw [e1]; omega
  · show h.val = win2_5.index t (2 : Fin 3) * 128 + 1 * h.val; rw [e2]; omega

/-- An index of the big array is in point t's block iff each coordinate is in the block's range on its axis. -/
theorem mem_blk5 (t : Fin cfg2.N) (i : S524288x2x128.Idx) :
    i ∈ ((cfg2.win 5).blk t).view.set ↔ ∀ a : Fin 3, win2_5.index t a * S4096x2x128.size a ≤ (i a).val ∧ (i a).val < win2_5.index t a * S4096x2x128.size a + S4096x2x128.size a := by
  show i ∈ ((View.whole main_v35_0).slice (win2_5.rect t)).set ↔ _
  rw [View.set_slice_whole, Rect.mem_set_unit]
  exact Iff.rfl

/-- Row e of the big array is written back by the point of its tile, e / 4096: the blocks cover the array, so it
ends as that function. -/
theorem arr5_eq (c : Dev nD) : (dat2 V c).arrAt 5 cfg2.N = G5 V c :=
  (dat2 V c).arrAt_eq_of_cover 5 (G5 V c) (fun t _ => flushed5_eq V c t) fun i => by
    have hN : cfg2.N = 128 := N_2
    have hi0 : (i 0).val < 524288 := (i 0).isLt
    have hi1 : (i 1).val < 2 := (i 1).isLt
    have hi2 : (i 2).val < 128 := (i 2).isLt
    obtain ⟨-, -, -, -, -, -, -, -, -, -, e0, e1, e2, -⟩ := idx2_facts (⟨(i 0).val / 4096, by omega⟩ : Fin cfg2.N)
    refine ⟨(⟨(i 0).val / 4096, by omega⟩ : Fin cfg2.N), flush2_5 _, ?_⟩
    rw [mem_blk5]
    intro a
    match a with
    | ⟨0, _⟩ => show win2_5.index _ (0 : Fin 3) * 4096 ≤ (i 0).val ∧ (i 0).val < win2_5.index _ (0 : Fin 3) * 4096 + 4096; rw [e0]; dsimp only; omega
    | ⟨1, _⟩ => show win2_5.index _ (1 : Fin 3) * 2 ≤ (i 1).val ∧ (i 1).val < win2_5.index _ (1 : Fin 3) * 2 + 2; rw [e1]; omega
    | ⟨2, _⟩ => show win2_5.index _ (2 : Fin 3) * 128 ≤ (i 2).val ∧ (i 2).val < win2_5.index _ (2 : Fin 3) * 128 + 128; rw [e2]; omega

/-- THE BIG RESULT: at (e, j, h) the combined value of row e for weight matrix j. -/
theorem final2_5 (c : Dev nD) (e : Fin 524288) (j : Fin 2) (h : Fin 128) :
    ((dat2 V c).arrAt 5 cfg2.N : S524288x2x128.Idx → EReal) (ix3 e j h) = M2 V c e j h :=
  (congrFun (arr5_eq V c) (ix3 e j h)).trans rfl

/-! ## The two row outputs: the sums over all rows -/

/-- At lane h, the sum over all rows and both weight matrices of the combined value. -/
def total (c : Dev nD) (h : Fin 128) : EReal := ∑ e : Fin 524288, ∑ j : Fin 2, M2 V c e j h

/-- At lane h, the same sum of the squares. -/
def totalSq (c : Dev nD) (h : Fin 128) : EReal := ∑ e : Fin 524288, ∑ j : Fin 2, M2 V c e j h * M2 V c e j h

/-- What the first row output ends as: at lane h that sum. -/
def G6 (c : Dev nD) : S1x128.Idx → EReal := fun y => total V c ⟨(y 1).val, (y 1).isLt⟩

/-- What the second row output ends as: at lane h the sum of the squares. -/
def G7 (c : Dev nD) : S1x128.Idx → EReal := fun y => totalSq V c ⟨(y 1).val, (y 1).isLt⟩

/-- The parts of all the tiles make the sum over all rows. -/
theorem sum_part (c : Dev nD) (h : Fin 128) :
    ∑ t : Fin cfg2.N, part V c h t = total V c h := by
  unfold total
  rw [sum_rows_eq_sum_tiles (fun e => ∑ j : Fin 2, M2 V c e j h)]
  refine Finset.sum_congr rfl fun t _ => ?_
  unfold part
  rw [← Finset.sum_add_distrib]
  refine Finset.sum_congr rfl fun r _ => ?_
  rw [Fin.sum_univ_two]

/-- Likewise for the squares. -/
theorem sum_partSq (c : Dev nD) (h : Fin 128) :
    ∑ t : Fin cfg2.N, partSq V c h t = totalSq V c h := by
  unfold totalSq
  rw [sum_rows_eq_sum_tiles (fun e => ∑ j : Fin 2, M2 V c e j h * M2 V c e j h)]
  refine Finset.sum_congr rfl fun t _ => ?_
  unfold partSq
  rw [← Finset.sum_add_distrib]
  refine Finset.sum_congr rfl fun r _ => ?_
  rw [Fin.sum_univ_two]

/-- At the last point what is stored into this row output is the running row just updated. -/
theorem row6_eq (c : Dev nD) (t : Fin cfg2.N) (h1 : t.val % 128 = 127) :
    (outsAt2 V c t.val t.isLt).2.1 = (outsAt2 V c t.val t.isLt).2.2.2.1 := by
  have h0 : ¬t.val % 128 = 0 := by omega
  rw [outsAt2_C V c t h0 h1]
  dsimp only
  exact (out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

/-- The one write-back of this row output, at the last point, writes the whole of that function. -/
theorem flushed6_eq (c : Dev nD) (t : Fin cfg2.N) (hf : (cfg2.win 6).flush t = true) :
    (dat2 V c).flushed 6 t = ((cfg2.win 6).blk t).view.read (Elt Ideal) (G6 V c) := by
  have hN : cfg2.N = 128 := N_2
  have h1 : t.val % 128 = 127 := (flush2_6 t).mp hf
  obtain ⟨-, -, -, -, -, -, -, -, -, -, -, -, -, ea, eb, -, -⟩ := idx2_facts t
  show (cfg2.win 6).cut (grid2.coords t) ((dat2 V c).after 6 t) = _
  rw [after2_6]
  funext y
  obtain ⟨u, h, rfl⟩ : ∃ (u : Fin 1) (h : Fin 128), y = ix2 u h := ⟨y 0, y 1, eq_ix2 y⟩
  rw [View.read_apply]
  refine (congrFun (row6_eq V c t h1) (ix2 u h)).trans ?_
  refine ((rows_eq V c t.val t.isLt u h).1).trans ?_
  rw [sum_le_last (part V c h) t.val (by have := t.isLt; omega), sum_part]
  unfold G6
  congr 1
  apply Fin.ext
  show h.val = win2_6.index t (1 : Fin 2) * 128 + 1 * h.val
  rw [eb]; omega

/-- An index of this row output is in point t's block iff each coordinate is in the block's range on its axis. -/
theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v35_1).slice (win2_6.rect t)).set ↔ _
  rw [View.set_slice_whole, Rect.mem_set_unit]
  exact Iff.rfl

/-- So this row output ends as that function: the last point's block is the whole row. -/
theorem arr6_eq (c : Dev nD) : (dat2 V c).arrAt 6 cfg2.N = G6 V c :=
  (dat2 V c).arrAt_eq_of_cover 6 (G6 V c) (flushed6_eq V c) fun i => by
    have hN : cfg2.N = 128 := N_2
    have hi0 : (i 0).val < 1 := (i 0).isLt
    have hi1 : (i 1).val < 128 := (i 1).isLt
    obtain ⟨-, -, -, -, -, -, -, -, -, -, -, -, -, ea, eb, -, -⟩ := idx2_facts (⟨127, by omega⟩ : Fin cfg2.N)
    refine ⟨(⟨127, by omega⟩ : Fin cfg2.N), (flush2_6 _).mpr rfl, ?_⟩
    rw [mem_blk6]
    intro a
    match a with
    | ⟨0, _⟩ => show win2_6.index _ (0 : Fin 2) * 1 ≤ (i 0).val ∧ (i 0).val < win2_6.index _ (0 : Fin 2) * 1 + 1; rw [ea]; omega
    | ⟨1, _⟩ => show win2_6.index _ (1 : Fin 2) * 128 ≤ (i 1).val ∧ (i 1).val < win2_6.index _ (1 : Fin 2) * 128 + 128; rw [eb]; omega

/-- At the last point what is stored into this row output is the running row just updated. -/
theorem row7_eq (c : Dev nD) (t : Fin cfg2.N) (h1 : t.val % 128 = 127) :
    (outsAt2 V c t.val t.isLt).2.2.1 = (outsAt2 V c t.val t.isLt).2.2.2.2 := by
  have h0 : ¬t.val % 128 = 0 := by omega
  rw [outsAt2_C V c t h0 h1]
  dsimp only
  exact (out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm

/-- The one write-back of this row output, at the last point, writes the whole of that function. -/
theorem flushed7_eq (c : Dev nD) (t : Fin cfg2.N) (hf : (cfg2.win 7).flush t = true) :
    (dat2 V c).flushed 7 t = ((cfg2.win 7).blk t).view.read (Elt Ideal) (G7 V c) := by
  have hN : cfg2.N = 128 := N_2
  have h1 : t.val % 128 = 127 := (flush2_7 t).mp hf
  obtain ⟨-, -, -, -, -, -, -, -, -, -, -, -, -, -, -, ea, eb⟩ := idx2_facts t
  show (cfg2.win 7).cut (grid2.coords t) ((dat2 V c).after 7 t) = _
  rw [after2_7]
  funext y
  obtain ⟨u, h, rfl⟩ : ∃ (u : Fin 1) (h : Fin 128), y = ix2 u h := ⟨y 0, y 1, eq_ix2 y⟩
  rw [View.read_apply]
  refine (congrFun (row7_eq V c t h1) (ix2 u h)).trans ?_
  refine ((rows_eq V c t.val t.isLt u h).2).trans ?_
  rw [sum_le_last (partSq V c h) t.val (by have := t.isLt; omega), sum_partSq]
  unfold G7
  congr 1
  apply Fin.ext
  show h.val = win2_7.index t (1 : Fin 2) * 128 + 1 * h.val
  rw [eb]; omega

/-- An index of this row output is in point t's block iff each coordinate is in the block's range on its axis. -/
theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v35_2).slice (win2_7.rect t)).set ↔ _
  rw [View.set_slice_whole, Rect.mem_set_unit]
  exact Iff.rfl

/-- So this row output ends as that function: the last point's block is the whole row. -/
theorem arr7_eq (c : Dev nD) : (dat2 V c).arrAt 7 cfg2.N = G7 V c :=
  (dat2 V c).arrAt_eq_of_cover 7 (G7 V c) (flushed7_eq V c) fun i => by
    have hN : cfg2.N = 128 := N_2
    have hi0 : (i 0).val < 1 := (i 0).isLt
    have hi1 : (i 1).val < 128 := (i 1).isLt
    obtain ⟨-, -, -, -, -, -, -, -, -, -, -, -, -, -, -, ea, eb⟩ := idx2_facts (⟨127, by omega⟩ : Fin cfg2.N)
    refine ⟨(⟨127, by omega⟩ : Fin cfg2.N), (flush2_7 _).mpr rfl, ?_⟩
    rw [mem_blk7]
    intro a
    match a with
    | ⟨0, _⟩ => show win2_7.index _ (0 : Fin 2) * 1 ≤ (i 0).val ∧ (i 0).val < win2_7.index _ (0 : Fin 2) * 1 + 1; rw [ea]; omega
    | ⟨1, _⟩ => show win2_7.index _ (1 : Fin 2) * 128 ≤ (i 1).val ∧ (i 1).val < win2_7.index _ (1 : Fin 2) * 128 + 128; rw [eb]; omega

/-- THE FIRST ROW RESULT: at lane h the sum over all rows and both weight matrices of the combined value. -/
theorem final2_6 (c : Dev nD) (h : Fin 128) :
    ((dat2 V c).arrAt 6 cfg2.N : S1x128.Idx → EReal) (ix2 0 h) = ∑ e : Fin 524288, ∑ j : Fin 2, M2 V c e j h :=
  (congrFun (arr6_eq V c) (ix2 0 h)).trans (by unfold G6 total; rfl)

/-- THE SECOND ROW RESULT: the same sum of the squares. -/
theorem final2_7 (c : Dev nD) (h : Fin 128) :
    ((dat2 V c).arrAt 7 cfg2.N : S1x128.Idx → EReal) (ix2 0 h) = ∑ e : Fin 524288, ∑ j : Fin 2, M2 V c e j h * M2 V c e j h :=
  (congrFun (arr7_eq V c) (ix2 0 h)).trans (by unfold G7 totalSq; rfl)

end Values

end Cert.KernelIdeal.Val

end
-- ==== Proof.KI.KHost.lean ====
/- What the host stretches of the idealized kernel program compute, read off the buffer contents at the boundaries of its
   run: the two scatter-adds and the gathers as such, the transposed and sliced weight matrices at an index, region 2's
   big output re-read as rows, and the batch-norm scale and shift at a channel. -/
import proofs.«150802_j73332271612005_1_alg».proof.Proof.KI.Run
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## An argument's buffer at each boundary: no host operation writes one and no region stages one -/

/-- A reference host stretch 0 does not write holds at region 0's entry its launch contents. -/
theorem W1_keep (r : Ref sig .tc) (h0 : r ∉ (hostWr0 : List (Ref sig .tc))) :
    W1 m ρ c (Proc.devRef .tc r) = m ((c : Thread nD τ).loc r) := W1_of m ρ c r h0

/-- The same at region 1's entry, for a reference region 0 does not stage either. -/
theorem W3_keep (r : Ref sig .tc) (h0 : r ∉ (hostWr0 : List (Ref sig .tc))) (h1 : r ∉ (hostWr1 : List (Ref sig .tc)))
    (hs0 : ∀ w, Pipeline.arrRef spec0 w ≠ r) : W3 m ρ c (Proc.devRef .tc r) = m ((c : Thread nD τ).loc r) :=
  (W3_of m ρ c r h1).trans ((W2_of_ne m ρ c r hs0).trans (W1_keep m ρ c r h0))

/-- The same at region 2's entry. -/
theorem W5_keep (r : Ref sig .tc) (h0 : r ∉ (hostWr0 : List (Ref sig .tc))) (h1 : r ∉ (hostWr1 : List (Ref sig .tc)))
    (h2 : r ∉ (hostWr2 : List (Ref sig .tc))) (hs0 : ∀ w, Pipeline.arrRef spec0 w ≠ r) (hs1 : ∀ w, Pipeline.arrRef spec1 w ≠ r) :
    W5 m ρ c (Proc.devRef .tc r) = m ((c : Thread nD τ).loc r) :=
  (W5_of m ρ c r h2).trans ((W4_of_ne m ρ c r hs1).trans (W3_keep m ρ c r h0 h1 hs0))

/-- The same at region 3's entry. -/
theorem W7_keep (r : Ref sig .tc) (h0 : r ∉ (hostWr0 : List (Ref sig .tc))) (h1 : r ∉ (hostWr1 : List (Ref sig .tc)))
    (h2 : r ∉ (hostWr2 : List (Ref sig .tc))) (h3 : r ∉ (hostWr3 : List (Ref sig .tc)))
    (hs0 : ∀ w, Pipeline.arrRef spec0 w ≠ r) (hs1 : ∀ w, Pipeline.arrRef spec1 w ≠ r) (hs2 : ∀ w, Pipeline.arrRef spec2 w ≠ r) :
    W7 m ρ c (Proc.devRef .tc r) = m ((c : Thread nD τ).loc r) :=
  (W7_of m ρ c r h3).trans ((W6_of_ne m ρ c r hs2).trans (W5_keep m ρ c r h0 h1 h2 hs0 hs1))

/-! ## Host stretch 0 -/

/-- The first scatter-add: the rows of argument 0 summed into 65536 rows at the indices of argument 6. -/
theorem V1_v2 : (V1 m ρ c main_v2 : FVec Ideal S65536x128 .f32) = Host.scatterAdd (F := Ideal) scatter_S65536x128_S262144x1_S262144x128_1_0_0_1 (broadcastInDim S65536x128 ![] bcast_S_S65536x128 (constant (F := Ideal) S_ .f32 0x00000000#32)) (broadcastInDim S262144x1 ![0] bcast_S262144_S262144x1_0 (m ((c : Thread nD τ).loc main_arg6))) (m ((c : Thread nD τ).loc main_arg0)) := by
  show StableHlo.after hostOps0 (W0 m ρ c) (Proc.devRef .tc main_v2) = _
  after_results
  try rfl

/-- The first weight matrix transposed. -/
theorem V1_v13 : (V1 m ρ c main_v13 : FVec Ideal S128x128 .f32) = transpose S128x128 [1, 0] (m ((c : Thread nD τ).loc main_arg1)) transposes_S128x128_S128x128_1_0 := by
  show StableHlo.after hostOps0 (W0 m ρ c) (Proc.devRef .tc main_v13) = _
  after_results
  try rfl

theorem V1_v13_apply (k h : Fin 128) : (V1 m ρ c main_v13 : S128x128.Idx → EReal) (ix2 k h) = (m ((c : Thread nD τ).loc main_arg1) : S128x128.Idx → EReal) (ix2 h k) :=
  (congrFun (V1_v13 m ρ c) (ix2 k h)).trans
    (transpose_apply [1, 0] _ transposes_S128x128_S128x128_1_0 (ix2 k h) (ix2 h k) (fun b => match b with
      | ⟨0, _⟩ => rfl
      | ⟨1, _⟩ => rfl))

/-- The second scatter-add, of the rows gathered from argument 0 at the (wrapped) indices of argument 7, summed at the
    indices of argument 8; written by host stretch 0 and untouched through region 0 and host stretch 1. -/
theorem V3_v12 : (V3 m ρ c main_v12 : FVec Ideal S524288x128 .f32) = Host.scatterAdd (F := Ideal) scatter_S524288x128_S1048576x1_S1048576x128_1_0_0_1 (broadcastInDim S524288x128 ![] bcast_S_S524288x128 (constant (F := Ideal) S_ .f32 0x00000000#32)) (broadcastInDim S1048576x1 ![0] bcast_S1048576_S1048576x1_0 (m ((c : Thread nD τ).loc main_arg8))) (Host.gather gather_S262144x128_S1048576x1_S1048576x128_1_0_n_n_0_1_1128 (m ((c : Thread nD τ).loc main_arg0)) (broadcastInDim S1048576x1 ![0] bcast_S1048576_S1048576x1_0 (select (cmpi .slt (m ((c : Thread nD τ).loc main_arg7)) (broadcastInDim S1048576 ![] bcast_S_S1048576 (constantI S_ 32 0#32))) (addi (m ((c : Thread nD τ).loc main_arg7)) (broadcastInDim S1048576 ![] bcast_S_S1048576 (constantI S_ 32 262144#32))) (m ((c : Thread nD τ).loc main_arg7))))) := by
  show W3 m ρ c (Proc.devRef .tc main_v12) = _
  rw [W3_of m ρ c main_v12 (by decide), W2_of_ne m ρ c main_v12 (by decide)]
  show StableHlo.after hostOps0 (W0 m ρ c) (Proc.devRef .tc main_v12) = _
  after_results
  try rfl

/-! ## Host stretch 1 -/

/-- The second weight matrix transposed. -/
theorem V3_v15 : (V3 m ρ c main_v15 : FVec Ideal S128x128 .f32) = transpose S128x128 [1, 0] (m ((c : Thread nD τ).loc main_arg2)) transposes_S128x128_S128x128_1_0 := by
  show StableHlo.after hostOps1 (W2 m ρ c) (Proc.devRef .tc main_v15) = _
  after_results
  rw [W2_of_ne m ρ c main_arg2 (by decide), W1_keep m ρ c main_arg2 (by decide)]

theorem V3_v15_apply (k h : Fin 128) : (V3 m ρ c main_v15 : S128x128.Idx → EReal) (ix2 k h) = (m ((c : Thread nD τ).loc main_arg2) : S128x128.Idx → EReal) (ix2 h k) :=
  (congrFun (V3_v15 m ρ c) (ix2 k h)).trans
    (transpose_apply [1, 0] _ transposes_S128x128_S128x128_1_0 (ix2 k h) (ix2 h k) (fun b => match b with
      | ⟨0, _⟩ => rfl
      | ⟨1, _⟩ => rfl))

/-! ## Host stretch 2 -/

/-- Region 0's output at region 2's entry: what its pipeline left, untouched since. -/
theorem W4_v14 : W4 m ρ c (Proc.devRef .tc main_v14) = (dat0 (V1 m ρ) c).arrAt 2 cfg0.N := by
  rw [W4_of_ne m ρ c main_v14 (by decide), W3_of m ρ c main_v14 (by decide)]
  exact W2_arr m ρ c 2

set_option maxHeartbeats 1000000 in
/-- The rows of region 0's output gathered at the (wrapped) indices of argument 10. -/
theorem V5_v23 : (V5 m ρ c main_v23 : FVec Ideal S524288x128 .f32) = Host.gather gather_S65536x128_S524288x1_S524288x128_1_0_n_n_0_1_1128 ((dat0 (V1 m ρ) c).arrAt 2 cfg0.N) (broadcastInDim S524288x1 ![0] bcast_S524288_S524288x1_0 (select (cmpi .slt (m ((c : Thread nD τ).loc main_arg10)) (broadcastInDim S524288 ![] bcast_S_S524288 (constantI S_ 32 0#32))) (addi (m ((c : Thread nD τ).loc main_arg10)) (broadcastInDim S524288 ![] bcast_S_S524288 (constantI S_ 32 65536#32))) (m ((c : Thread nD τ).loc main_arg10)))) := by
  show StableHlo.after hostOps2 (W4 m ρ c) (Proc.devRef .tc main_v23) = _
  after_results
  rw [W4_v14 m ρ c, W4_of_ne m ρ c main_arg10 (by decide), W3_keep m ρ c main_arg10 (by decide) (by decide) (by decide)]

/-- Region 1's output at region 2's entry: what its pipeline left. -/
theorem V5_v16 : V5 m ρ c main_v16 = (dat1 (V3 m ρ) c).arrAt 2 cfg1.N := by
  show W5 m ρ c (Proc.devRef .tc main_v16) = _
  rw [W5_of m ρ c main_v16 (by decide)]
  exact W4_arr m ρ c 2

/-- The rows of argument 0 gathered at the (wrapped) indices of argument 9. -/
theorem V5_v30 : (V5 m ρ c main_v30 : FVec Ideal S524288x128 .f32) = Host.gather gather_S262144x128_S524288x1_S524288x128_1_0_n_n_0_1_1128 (m ((c : Thread nD τ).loc main_arg0)) (broadcastInDim S524288x1 ![0] bcast_S524288_S524288x1_0 (select (cmpi .slt (m ((c : Thread nD τ).loc main_arg9)) (broadcastInDim S524288 ![] bcast_S_S524288 (constantI S_ 32 0#32))) (addi (m ((c : Thread nD τ).loc main_arg9)) (broadcastInDim S524288 ![] bcast_S_S524288 (constantI S_ 32 262144#32))) (m ((c : Thread nD τ).loc main_arg9)))) := by
  show StableHlo.after hostOps2 (W4 m ρ c) (Proc.devRef .tc main_v30) = _
  after_results
  rw [W4_of_ne m ρ c main_arg0 (by decide), W3_keep m ρ c main_arg0 (by decide) (by decide) (by decide),
    W4_of_ne m ρ c main_arg9 (by decide), W3_keep m ρ c main_arg9 (by decide) (by decide) (by decide)]

/-- The upper half of the third weight matrix, transposed. -/
theorem V5_v32 : (V5 m ρ c main_v32 : FVec Ideal S128x128 .f32) = transpose S128x128 [1, 0] (extractStridedSlice S128x128 ![0, 0] (m ((c : Thread nD τ).loc main_arg3)) slices_S256x128_S128x128_0_0) transposes_S128x128_S128x128_1_0 := by
  show StableHlo.after hostOps2 (W4 m ρ c) (Proc.devRef .tc main_v32) = _
  after_results
  rw [W4_of_ne m ρ c main_arg3 (by decide), W3_keep m ρ c main_arg3 (by decide) (by decide) (by decide)]

theorem V5_v32_apply (k h : Fin 128) : (V5 m ρ c main_v32 : S128x128.Idx → EReal) (ix2 k h) = (m ((c : Thread nD τ).loc main_arg3) : S256x128.Idx → EReal) (ix2 ⟨h.val, by omega⟩ k) :=
  (congrFun (V5_v32 m ρ c) (ix2 k h)).trans
    ((transpose_apply [1, 0] _ transposes_S128x128_S128x128_1_0 (ix2 k h) (ix2 h k) (fun b => match b with
      | ⟨0, _⟩ => rfl
      | ⟨1, _⟩ => rfl)).trans
    (extractStridedSlice_apply ![0, 0] _ slices_S256x128_S128x128_0_0 (ix2 h k) (ix2 ⟨h.val, by omega⟩ k) (fun a => match a with
      | ⟨0, _⟩ => (Nat.zero_add _).symm
      | ⟨1, _⟩ => (Nat.zero_add _).symm)))

/-- The lower half of the third weight matrix, transposed. -/
theorem V5_v34 : (V5 m ρ c main_v34 : FVec Ideal S128x128 .f32) = transpose S128x128 [1, 0] (extractStridedSlice S128x128 ![128, 0] (m ((c : Thread nD τ).loc main_arg3)) slices_S256x128_S128x128_128_0) transposes_S128x128_S128x128_1_0 := by
  show StableHlo.after hostOps2 (W4 m ρ c) (Proc.devRef .tc main_v34) = _
  after_results
  rw [W4_of_ne m ρ c main_arg3 (by decide), W3_keep m ρ c main_arg3 (by decide) (by decide) (by decide)]

theorem V5_v34_apply (k h : Fin 128) : (V5 m ρ c main_v34 : S128x128.Idx → EReal) (ix2 k h) = (m ((c : Thread nD τ).loc main_arg3) : S256x128.Idx → EReal) (ix2 ⟨128 + h.val, by omega⟩ k) :=
  (congrFun (V5_v34 m ρ c) (ix2 k h)).trans
    ((transpose_apply [1, 0] _ transposes_S128x128_S128x128_1_0 (ix2 k h) (ix2 h k) (fun b => match b with
      | ⟨0, _⟩ => rfl
      | ⟨1, _⟩ => rfl)).trans
    (extractStridedSlice_apply ![128, 0] _ slices_S256x128_S128x128_128_0 (ix2 h k) (ix2 ⟨128 + h.val, by omega⟩ k) (fun a => match a with
      | ⟨0, _⟩ => rfl
      | ⟨1, _⟩ => (Nat.zero_add _).symm)))

/-! ## Host stretch 3 -/

/-- A row vector read as a one-row matrix, at an index. -/
theorem cast_S128_S1x128_apply {α : Type} (x : S128.Idx → α) (q : Fin 128) :
    shapeCast S1x128 x shapeCasts_S128_S1x128 (ix2 0 q) = x (ix1 q) :=
  shapeCast_apply x shapeCasts_S128_S1x128 (ix2 0 q) (ix1 q)
    (by rewrite [Shape.rowMajor_val_two, Shape.rowMajor_val_one]; show q.val = 0 * 128 + q.val; omega)

/-- A one-row matrix read as a row vector, at an index. -/
theorem cast_S1x128_S128_apply {α : Type} (x : S1x128.Idx → α) (q : Fin 128) :
    shapeCast S128 x shapeCasts_S1x128_S128 (ix1 q) = x (ix2 0 q) :=
  shapeCast_apply x shapeCasts_S1x128_S128 (ix1 q) (ix2 0 q)
    (by rewrite [Shape.rowMajor_val_two, Shape.rowMajor_val_one]; show 0 * 128 + q.val = q.val; omega)

/-- A scalar broadcast along a row, at an index. -/
theorem bcast_S_S128_apply {α : Type} (x : S_.Idx → α) (q : Fin 128) :
    broadcastInDim S128 ![] bcast_S_S128 x (ix1 q) = x ix0 :=
  broadcastInDim_apply _ bcast_S_S128 x (ix1 q) ix0 (fun a => a.elim0)

/-- Region 2's big output, read as 1048576 rows: row `2 e + j` is pair `e`'s row `j`. -/
theorem V7_v36_apply (e : Fin 524288) (j : Fin 2) (h : Fin 128) : (V7 m ρ c main_v36 : S1048576x128.Idx → EReal) (ix2 ⟨2 * e.val + j.val, by omega⟩ h) = ((dat2 (V5 m ρ) c).arrAt 5 cfg2.N : S524288x2x128.Idx → EReal) (ix3 e j h) := by
  have e5 : W6 m ρ c (Proc.devRef .tc main_v35_0) = (dat2 (V5 m ρ) c).arrAt 5 cfg2.N := W6_arr m ρ c 5
  show StableHlo.after hostOps3 (W6 m ρ c) (Proc.devRef .tc main_v36) (ix2 ⟨2 * e.val + j.val, by omega⟩ h) = _
  after_results
  rw [e5]
  exact shapeCast_apply _ shapeCasts_S524288x2x128_S1048576x128 (ix2 ⟨2 * e.val + j.val, by omega⟩ h) (ix3 e j h)
    (by rewrite [Shape.rowMajor_val_three, Shape.rowMajor_val_two]; show (e.val * 2 + j.val) * 128 + h.val = (2 * e.val + j.val) * 128 + h.val; omega)

/-- The batch-norm scale at a channel, over VARIABLES: the gain times the reciprocal root of the variance (mean of squares
    minus squared mean, plus ε), the two sums read off one-row matrices and divided by the row count. -/
theorem scale_apply (g : FVec Ideal S128 .f32) (s1 s2 : FVec Ideal S1x128 .f32) (q : Fin 128) :
    shapeCast S1x128 (mulf g (Host.rsqrt (addf (subf (Host.divf (shapeCast S128 s2 shapeCasts_S1x128_S128) (broadcastInDim S128 ![] bcast_S_S128 (constant (F := Ideal) S_ .f32 0x49800000#32))) (mulf (Host.divf (shapeCast S128 s1 shapeCasts_S1x128_S128) (broadcastInDim S128 ![] bcast_S_S128 (constant (F := Ideal) S_ .f32 0x49800000#32))) (Host.divf (shapeCast S128 s1 shapeCasts_S1x128_S128) (broadcastInDim S128 ![] bcast_S_S128 (constant (F := Ideal) S_ .f32 0x49800000#32))))) (broadcastInDim S128 ![] bcast_S_S128 (constant (F := Ideal) S_ .f32 0x3727C5AC#32))))) shapeCasts_S128_S1x128 (ix2 0 q) = g (ix1 q) * Ideal.rsqrt ((Ideal.div (s2 (ix2 0 q)) (Ideal.ofBits .f32 0x49800000#32) - Ideal.div (s1 (ix2 0 q)) (Ideal.ofBits .f32 0x49800000#32) * Ideal.div (s1 (ix2 0 q)) (Ideal.ofBits .f32 0x49800000#32)) + Ideal.ofBits .f32 0x3727C5AC#32) := by
  refine (cast_S128_S1x128_apply _ q).trans ?_
  show g (ix1 q) * Ideal.rsqrt ((Ideal.div (shapeCast S128 s2 shapeCasts_S1x128_S128 (ix1 q)) (broadcastInDim S128 ![] bcast_S_S128 (constant (F := Ideal) S_ .f32 0x49800000#32) (ix1 q)) - Ideal.div (shapeCast S128 s1 shapeCasts_S1x128_S128 (ix1 q)) (broadcastInDim S128 ![] bcast_S_S128 (constant (F := Ideal) S_ .f32 0x49800000#32) (ix1 q)) * Ideal.div (shapeCast S128 s1 shapeCasts_S1x128_S128 (ix1 q)) (broadcastInDim S128 ![] bcast_S_S128 (constant (F := Ideal) S_ .f32 0x49800000#32) (ix1 q))) + (broadcastInDim S128 ![] bcast_S_S128 (constant (F := Ideal) S_ .f32 0x3727C5AC#32) (ix1 q))) = _
  rw [cast_S1x128_S128_apply, cast_S1x128_S128_apply, bcast_S_S128_apply, bcast_S_S128_apply]
  rfl

/-- The batch-norm shift at a channel, over VARIABLES: the bias minus the mean times the scale. -/
theorem shift_apply (g b : FVec Ideal S128 .f32) (s1 s2 : FVec Ideal S1x128 .f32) (q : Fin 128) :
    shapeCast S1x128 (subf b (mulf (Host.divf (shapeCast S128 s1 shapeCasts_S1x128_S128) (broadcastInDim S128 ![] bcast_S_S128 (constant (F := Ideal) S_ .f32 0x49800000#32))) (mulf g (Host.rsqrt (addf (subf (Host.divf (shapeCast S128 s2 shapeCasts_S1x128_S128) (broadcastInDim S128 ![] bcast_S_S128 (constant (F := Ideal) S_ .f32 0x49800000#32))) (mulf (Host.divf (shapeCast S128 s1 shapeCasts_S1x128_S128) (broadcastInDim S128 ![] bcast_S_S128 (constant (F := Ideal) S_ .f32 0x49800000#32))) (Host.divf (shapeCast S128 s1 shapeCasts_S1x128_S128) (broadcastInDim S128 ![] bcast_S_S128 (constant (F := Ideal) S_ .f32 0x49800000#32))))) (broadcastInDim S128 ![] bcast_S_S128 (constant (F := Ideal) S_ .f32 0x3727C5AC#32))))))) shapeCasts_S128_S1x128 (ix2 0 q) = b (ix1 q) - Ideal.div (s1 (ix2 0 q)) (Ideal.ofBits .f32 0x49800000#32) * (g (ix1 q) * Ideal.rsqrt ((Ideal.div (s2 (ix2 0 q)) (Ideal.ofBits .f32 0x49800000#32) - Ideal.div (s1 (ix2 0 q)) (Ideal.ofBits .f32 0x49800000#32) * Ideal.div (s1 (ix2 0 q)) (Ideal.ofBits .f32 0x49800000#32)) + Ideal.ofBits .f32 0x3727C5AC#32)) := by
  refine (cast_S128_S1x128_apply _ q).trans ?_
  show b (ix1 q) - Ideal.div (shapeCast S128 s1 shapeCasts_S1x128_S128 (ix1 q)) (broadcastInDim S128 ![] bcast_S_S128 (constant (F := Ideal) S_ .f32 0x49800000#32) (ix1 q)) * (g (ix1 q) * Ideal.rsqrt ((Ideal.div (shapeCast S128 s2 shapeCasts_S1x128_S128 (ix1 q)) (broadcastInDim S128 ![] bcast_S_S128 (constant (F := Ideal) S_ .f32 0x49800000#32) (ix1 q)) - Ideal.div (shapeCast S128 s1 shapeCasts_S1x128_S128 (ix1 q)) (broadcastInDim S128 ![] bcast_S_S128 (constant (F := Ideal) S_ .f32 0x49800000#32) (ix1 q)) * Ideal.div (shapeCast S128 s1 shapeCasts_S1x128_S128 (ix1 q)) (broadcastInDim S128 ![] bcast_S_S128 (constant (F := Ideal) S_ .f32 0x49800000#32) (ix1 q))) + (broadcastInDim S128 ![] bcast_S_S128 (constant (F := Ideal) S_ .f32 0x3727C5AC#32) (ix1 q)))) = _
  rw [cast_S1x128_S128_apply, cast_S1x128_S128_apply, bcast_S_S128_apply, bcast_S_S128_apply]
  rfl

set_option maxHeartbeats 2000000 in
/-- The scale region 3 multiplies by, at a channel. -/
theorem V7_v51_apply (q : Fin 128) : (V7 m ρ c main_v51 : S1x128.Idx → EReal) (ix2 0 q) = @HMul.hMul EReal EReal EReal instHMul ((m ((c : Thread nD τ).loc main_arg4) : S128.Idx → EReal) (ix1 q)) (Ideal.rsqrt ((Ideal.div (((dat2 (V5 m ρ) c).arrAt 7 cfg2.N : S1x128.Idx → EReal) (ix2 0 q)) (Ideal.ofBits .f32 0x49800000#32) - Ideal.div (((dat2 (V5 m ρ) c).arrAt 6 cfg2.N : S1x128.Idx → EReal) (ix2 0 q)) (Ideal.ofBits .f32 0x49800000#32) * Ideal.div (((dat2 (V5 m ρ) c).arrAt 6 cfg2.N : S1x128.Idx → EReal) (ix2 0 q)) (Ideal.ofBits .f32 0x49800000#32)) + Ideal.ofBits .f32 0x3727C5AC#32)) := by
  have e6 : W6 m ρ c (Proc.devRef .tc main_v35_1) = (dat2 (V5 m ρ) c).arrAt 6 cfg2.N := W6_arr m ρ c 6
  have e7 : W6 m ρ c (Proc.devRef .tc main_v35_2) = (dat2 (V5 m ρ) c).arrAt 7 cfg2.N := W6_arr m ρ c 7
  have e4 : W6 m ρ c (Proc.devRef .tc main_arg4) = m ((c : Thread nD τ).loc main_arg4) :=
    (W6_of_ne m ρ c main_arg4 (by decide)).trans (W5_keep m ρ c main_arg4 (by decide) (by decide) (by decide) (by decide) (by decide))
  show StableHlo.after hostOps3 (W6 m ρ c) (Proc.devRef .tc main_v51) (ix2 0 q) = _
  after_results
  rw [e4, e6, e7]
  exact scale_apply (m ((c : Thread nD τ).loc main_arg4)) ((dat2 (V5 m ρ) c).arrAt 6 cfg2.N) ((dat2 (V5 m ρ) c).arrAt 7 cfg2.N) q

set_option maxHeartbeats 2000000 in
/-- The shift region 3 adds, at a channel. -/
theorem V7_v52_apply (q : Fin 128) : (V7 m ρ c main_v52 : S1x128.Idx → EReal) (ix2 0 q) = @HSub.hSub EReal EReal EReal instHSub ((m ((c : Thread nD τ).loc main_arg5) : S128.Idx → EReal) (ix1 q)) (Ideal.div (((dat2 (V5 m ρ) c).arrAt 6 cfg2.N : S1x128.Idx → EReal) (ix2 0 q)) (Ideal.ofBits .f32 0x49800000#32) * (@HMul.hMul EReal EReal EReal instHMul ((m ((c : Thread nD τ).loc main_arg4) : S128.Idx → EReal) (ix1 q)) (Ideal.rsqrt ((Ideal.div (((dat2 (V5 m ρ) c).arrAt 7 cfg2.N : S1x128.Idx → EReal) (ix2 0 q)) (Ideal.ofBits .f32 0x49800000#32) - Ideal.div (((dat2 (V5 m ρ) c).arrAt 6 cfg2.N : S1x128.Idx → EReal) (ix2 0 q)) (Ideal.ofBits .f32 0x49800000#32) * Ideal.div (((dat2 (V5 m ρ) c).arrAt 6 cfg2.N : S1x128.Idx → EReal) (ix2 0 q)) (Ideal.ofBits .f32 0x49800000#32)) + Ideal.ofBits .f32 0x3727C5AC#32)))) := by
  have e6 : W6 m ρ c (Proc.devRef .tc main_v35_1) = (dat2 (V5 m ρ) c).arrAt 6 cfg2.N := W6_arr m ρ c 6
  have e7 : W6 m ρ c (Proc.devRef .tc main_v35_2) = (dat2 (V5 m ρ) c).arrAt 7 cfg2.N := W6_arr m ρ c 7
  have e4 : W6 m ρ c (Proc.devRef .tc main_arg4) = m ((c : Thread nD τ).loc main_arg4) :=
    (W6_of_ne m ρ c main_arg4 (by decide)).trans (W5_keep m ρ c main_arg4 (by decide) (by decide) (by decide) (by decide) (by decide))
  have e5 : W6 m ρ c (Proc.devRef .tc main_arg5) = m ((c : Thread nD τ).loc main_arg5) :=
    (W6_of_ne m ρ c main_arg5 (by decide)).trans (W5_keep m ρ c main_arg5 (by decide) (by decide) (by decide) (by decide) (by decide))
  show StableHlo.after hostOps3 (W6 m ρ c) (Proc.devRef .tc main_v52) (ix2 0 q) = _
  after_results
  rw [e4, e5, e6, e7]
  exact shift_apply (m ((c : Thread nD τ).loc main_arg4)) (m ((c : Thread nD τ).loc main_arg5)) ((dat2 (V5 m ρ) c).arrAt 6 cfg2.N) ((dat2 (V5 m ρ) c).arrAt 7 cfg2.N) q

end Cert.KernelIdeal.Val

end
-- ==== Proof.KI.Val3.lean ====
/- REGION 3 of @main, the value side at the ideal instance (floats are extended reals, every operation exact).
   Each of the 128 grid points takes rows 8192·t … 8192·t + 8191 of the 1048576x128 input array and the two whole
   1x128 rows (scale, offset) and writes max(x · scale + offset, 0), the rows broadcast along the long axis, to the
   same rows of the output array. Proved here, at the buffers' contents V when the region is entered: the body's
   payload at an index; what a symbolic point writes back as a block of ONE function of the three arrays; the
   output's blocks cover its array (row r lies in the block of point r / 8192); hence the output array after the
   run, index by index. -/
import proofs.«150802_j73332271612005_1_alg».proof.Proof.KI.Reg3
import Idealize.ShloMosaic.Lib.Pipeline.Value
import Idealize.ShloMosaic.Lib.ValueIdx
import Idealize.ShloMosaic.PureOps.Ideal.Laws

-- membership in a rectangle of long extents: the structural look recurses once per coordinate of the long axes
set_option maxRecDepth 16384

noncomputable section

namespace Cert.KernelIdeal.Val

open Cert.KernelIdeal Cert.KernelIdeal.Gen Idealize.ShloMosaic Idealize.ShloMosaic.ValueIdx
open Idealize.ShloMosaic.TcCoe
open Idealize.ShloMosaic.Pipeline (Dat)

/-! # Region 3, the value side: the output array is max(x · scale + offset, 0), index by index -/

/-- The zero offsets of a whole-buffer rectangle, as the constant function. -/
theorem hz3 : (![0, 0] : Fin 2 → Nat) = fun _ => 0 := funext fun a => by fin_cases a <;> rfl

/-! ## The payload at an index -/

/-- A 1x128 row broadcast along 8192 rows reads, at row p and lane q, the row's lane q. -/
theorem row_bcast_apply (x : S1x128.Idx → EReal) (p : Fin 8192) (q : Fin 128) :
    broadcastTo S8192x128 x broadcasts_S1x128_S8192x128 (ix2 p q) = x (ix2 0 q) := by
  refine broadcastTo_apply x _ (ix2 p q) (ix2 0 q) fun a => ?_
  match a with
  | ⟨0, _⟩ => rfl
  | ⟨1, _⟩ => rfl

/-- The body's payload at row p, lane q: the element times the scale's lane plus the offset's lane, clamped below at 0. -/
theorem bnpay3_apply (x0 : S8192x128.Idx → EReal) (x1 x2 : S1x128.Idx → EReal) (p : Fin 8192) (q : Fin 128) :
    (k3_pay1 (F := Ideal) x0 x1 x2 : S8192x128.Idx → EReal) (ix2 p q)
      = max (x0 (ix2 p q) * x1 (ix2 0 q) + x2 (ix2 0 q)) 0 := by
  unfold k3_pay1
  rw [maximumf_apply, addf_apply, mulf_apply, broadcast_apply, shapeCast_self, shapeCast_self, shapeCast_self,
    row_bcast_apply, row_bcast_apply]
  show max _ (Ideal.ofBits .f32 0x00000000#32) = _
  rw [Ideal.ofBits_zero_f32]

/-! ## The closed form -/

/-- What the output array ends holding: each element of the input times its lane's scale plus its lane's offset,
    clamped below at 0. -/
def G3 (a : S1048576x128.Idx → EReal) (s o : S1x128.Idx → EReal) : S1048576x128.Idx → EReal :=
  fun i => max (a i * s (ix2 0 (i 1)) + o (ix2 0 (i 1))) 0

/-- The closed form at row p, lane q. -/
theorem G3_apply (a : S1048576x128.Idx → EReal) (s o : S1x128.Idx → EReal) (p : Fin 1048576) (q : Fin 128) :
    G3 a s o (ix2 p q) = max (a (ix2 p q) * s (ix2 0 q) + o (ix2 0 q)) 0 := rfl

/-- Equal elements, scales and offsets give equal clamped affine values. -/
theorem affine_congr {x x' s s' o o' : EReal} (hx : x = x') (hs : s = s') (ho : o = o') :
    max (x * s + o) 0 = max (x' * s' + o') 0 := by rw [hx, hs, ho]

section
variable (V : (c : Dev nD) → (b : Ref sig .tc) → Buf (Elt Ideal) ((c : Thread nD τ).loc b))

/-! ## From blocks to the array -/

/-- The windows' block indices over the grid: point t's input and output row blocks are block t, lanes whole; the
    two rows are always block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the closed form of the arrays as the region finds them. -/
theorem flushed3_eq (c : Dev nD) (t : Fin cfg3.N) :
    (dat3 V c).flushed 3 t = ((cfg3.win 3).blk t).view.read (Elt Ideal)
      (G3 (V c main_v36) (V c main_v51) (V c main_v52)) := by
  show (cfg3.win 3).cut (grid3.coords t) ((dat3 V c).after 3 t) = _
  rw [after3_3]
  unfold out3_3
  rw [View.canon_unit_zero hz3]
  simp only [View.ld_unit_zero (S := S8192x128) hz3, View.ld_unit_zero (S := S1x128) hz3]
  obtain ⟨e00, e01, e10, e11, e20, e21, e30, e31⟩ := idx_facts3 t
  funext j
  obtain ⟨p, q, rfl⟩ : ∃ (p : Fin 8192) (q : Fin 128), j = ix2 p q := ⟨j 0, j 1, eq_ix2 j⟩
  show k3_pay1 (F := Ideal) (iblk3 V c 0 t) (iblk3 V c 1 t) (iblk3 V c 2 t) (ix2 p q)
    = G3 (V c main_v36) (V c main_v51) (V c main_v52) (((cfg3.win 3).blk t).view.emb (ix2 p q))
  rw [bnpay3_apply]
  unfold G3
  have h0 : ((cfg3.win 0).blk t).view.emb (ix2 p q) = ((cfg3.win 3).blk t).view.emb (ix2 p q) := by
    funext a; apply Fin.ext
    match a with
    | ⟨0, _⟩ => show win3_0.index t (0 : Fin 2) * 8192 + 1 * p.val = win3_3.index t (0 : Fin 2) * 8192 + 1 * p.val; omega
    | ⟨1, _⟩ => show win3_0.index t (1 : Fin 2) * 128 + 1 * q.val = win3_3.index t (1 : Fin 2) * 128 + 1 * q.val; omega
  have h1 : ((cfg3.win 1).blk t).view.emb (ix2 0 q) = ix2 0 ((((cfg3.win 3).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  have h2 : ((cfg3.win 2).blk t).view.emb (ix2 0 q) = ix2 0 ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact affine_congr (congrArg (V c main_v36) h0) (congrArg (V c main_v51) h1) (congrArg (V c main_v52) h2)

/-- An index of the output array is in point t's block iff each coordinate is in the block's range on its axis. -/
theorem mem_blk3 (t : Fin cfg3.N) (i : S1048576x128.Idx) :
    i ∈ ((cfg3.win 3).blk t).view.set ↔ ∀ a : Fin 2, win3_3.index t a * S8192x128.size a ≤ (i a).val ∧ (i a).val < win3_3.index t a * S8192x128.size a + S8192x128.size a := by
  show i ∈ ((View.whole main_v53).slice (win3_3.rect t)).set ↔ _
  rw [View.set_slice_whole, Rect.mem_set_unit]
  exact Iff.rfl

/-- Every index of the output array is in some point's block: row r is in the block of point r / 8192. -/
theorem cover3 (i : S1048576x128.Idx) :
    ∃ t : Fin cfg3.N, (cfg3.win 3).flush t = true ∧ i ∈ ((cfg3.win 3).blk t).view.set := by
  have hi0 : (i 0).val < 1048576 := (i 0).isLt
  have hi1 : (i 1).val < 128 := (i 1).isLt
  have hN : cfg3.N = 128 := N_3
  obtain ⟨t, ht⟩ : ∃ t : Fin cfg3.N, t.val = (i 0).val / 8192 := ⟨⟨(i 0).val / 8192, by rw [hN]; omega⟩, rfl⟩
  refine ⟨t, flush3_3 t, ?_⟩
  rw [mem_blk3]
  obtain ⟨e00, e01, e10, e11, e20, e21, e30, e31⟩ := idx_facts3 t
  intro a
  match a with
  | ⟨0, _⟩ => show win3_3.index t (0 : Fin 2) * 8192 ≤ (i 0).val ∧ (i 0).val < win3_3.index t (0 : Fin 2) * 8192 + 8192; omega
  | ⟨1, _⟩ => show win3_3.index t (1 : Fin 2) * 128 ≤ (i 1).val ∧ (i 1).val < win3_3.index t (1 : Fin 2) * 128 + 128; omega

/-- The output array after the region's run: the closed form of the arrays as the region finds them. -/
theorem arr3_eq (c : Dev nD) :
    (dat3 V c).arrAt 3 cfg3.N = G3 (V c main_v36) (V c main_v51) (V c main_v52) :=
  (dat3 V c).arrAt_eq_of_cover 3 (G3 (V c main_v36) (V c main_v51) (V c main_v52))
    (fun t _ => flushed3_eq V c t) cover3

/-- The output array at row p, lane q, over any names for the three arrays the region finds. -/
theorem final3_of (c : Dev nD) (a : S1048576x128.Idx → EReal) (s o : S1x128.Idx → EReal)
    (ha : V c main_v36 = a) (hs : V c main_v51 = s) (ho : V c main_v52 = o) (p : Fin 1048576) (q : Fin 128) :
    ((dat3 V c).arrAt 3 cfg3.N : S1048576x128.Idx → EReal) (ix2 p q)
      = max (a (ix2 p q) * s (ix2 0 q) + o (ix2 0 q)) 0 := by
  subst ha hs ho
  rw [arr3_eq V c]
  rfl

/-- The output array at row p, lane q: the input's element times the scale's lane plus the offset's lane, clamped
    below at 0. -/
theorem final3 (c : Dev nD) (p : Fin 1048576) (q : Fin 128) :
    ((dat3 V c).arrAt 3 cfg3.N : S1048576x128.Idx → EReal) (ix2 p q)
      = max (α := EReal) (HAdd.hAdd (α := EReal) (β := EReal) (γ := EReal)
          (HMul.hMul (α := EReal) (β := EReal) (γ := EReal) ((V c main_v36 : S1048576x128.Idx → EReal) (ix2 p q)) ((V c main_v51 : S1x128.Idx → EReal) (ix2 0 q)))
          ((V c main_v52 : S1x128.Idx → EReal) (ix2 0 q))) 0 :=
  final3_of V c _ _ _ rfl rfl rfl p q

end

end Cert.KernelIdeal.Val

end
-- ==== Proof.RefValue.lean ====
/- The reference program's value at the ideal instance, index by index.
   The message array msg = val_main_v38 (1048576 x 128): row 2e+j, column h is the sum of the two edge terms at
   (e, h) and of the dot product of the gathered source row e with row 128j+h of the 256 x 128 weight. The result:
   per column q the mean and the variance of msg over all rows, then
   max(((msg(p,q) - mean) * rsqrt(var + eps)) * scale(q) + shift(q), 0). -/
import proofs.«150802_j73332271612005_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The stages whose element depends on an operand's values, each as its one host operation -/

section Generic
variable {F : FTy → Type} [FloatOps F]
variable (x0 : (⟨S262144x128, .f32⟩ : BufTy).Contents (Elt F))
  (x1 x2 : (⟨S128x128, .f32⟩ : BufTy).Contents (Elt F))
  (x6 : (⟨S262144, .i32⟩ : BufTy).Contents (Elt F))
  (x7 x8 : (⟨S1048576, .i32⟩ : BufTy).Contents (Elt F))
  (x9 x10 : (⟨S524288, .i32⟩ : BufTy).Contents (Elt F))

/-- The scatter-add of the node rows into the 65536 segments. -/
theorem v2_def : val_main_v2 (F := F) x0 x6
    = Host.scatterAdd scatter_S65536x128_S262144x1_S262144x128_1_0_0_1 (val_main_v0 (F := F)) (val_main_v1 (F := F) x6) x0 := rfl

/-- The gather of the node rows at the 1048576 source indices. -/
theorem v11_def : val_main_v11 (F := F) x0 x7
    = Host.gather gather_S262144x128_S1048576x1_S1048576x128_1_0_n_n_0_1_1128 x0 (val_main_v10 (F := F) x7) := rfl

/-- The scatter-add of the gathered rows into the 524288 edges. -/
theorem v14_def : val_main_v14 (F := F) x0 x7 x8
    = Host.scatterAdd scatter_S524288x128_S1048576x1_S1048576x128_1_0_0_1 (val_main_v12 (F := F)) (val_main_v13 (F := F) x8)
        (val_main_v11 (F := F) x0 x7) := rfl

/-- The gather of the projected segment rows at the 524288 edge indices. -/
theorem v23_def : val_main_v23 (F := F) x0 x1 x6 x10
    = Host.gather gather_S65536x128_S524288x1_S524288x128_1_0_n_n_0_1_1128 (val_main_v4 (F := F) x0 x1 x6) (val_main_v22 (F := F) x10) := rfl

/-- The gather of the node rows at the 524288 edge indices. -/
theorem v31_def : val_main_v31 (F := F) x0 x9
    = Host.gather gather_S262144x128_S524288x1_S524288x128_1_0_n_n_0_1_1128 x0 (val_main_v30 (F := F) x9) := rfl

end Generic

/-! ## At the ideal instance -/

variable (x0 : (⟨S262144x128, .f32⟩ : BufTy).Contents (Elt Ideal))
  (x1 x2 : (⟨S128x128, .f32⟩ : BufTy).Contents (Elt Ideal))
  (x3 : (⟨S256x128, .f32⟩ : BufTy).Contents (Elt Ideal))
  (x4 x5 : (⟨S128, .f32⟩ : BufTy).Contents (Elt Ideal))
  (x6 : (⟨S262144, .i32⟩ : BufTy).Contents (Elt Ideal))
  (x7 x8 : (⟨S1048576, .i32⟩ : BufTy).Contents (Elt Ideal))
  (x9 x10 : (⟨S524288, .i32⟩ : BufTy).Contents (Elt Ideal))

/-! ### The two 128 x 128 products -/

theorem lidx4 (d : Fin 65536) (h k : Fin 128) : lidx_main_v4 (ix2 d h) k = ix2 d k :=
  funext fun a => Fin.ext (by match a with | ⟨0, _⟩ => rfl | ⟨1, _⟩ => rfl)
theorem ridx4 (d : Fin 65536) (h k : Fin 128) : idx_main_v3 (ridx_main_v4 (ix2 d h) k) = ix2 h k :=
  funext fun a => Fin.ext (by match a with | ⟨0, _⟩ => rfl | ⟨1, _⟩ => rfl)

/-- The projected segment sums: row d of the segment sums against row h of the first weight. -/
theorem ref_v4 (d : Fin 65536) (h : Fin 128) :
    val_main_v4 (F := Ideal) x0 x1 x6 (ix2 d h) = ∑ k : Fin 128, val_main_v2 (F := Ideal) x0 x6 (ix2 d k) * x1 (ix2 h k) := by
  rw [val_main_v4_apply]
  simp only [val_main_v3_apply, lidx4, ridx4]

theorem lidx16 (e : Fin 524288) (h k : Fin 128) : lidx_main_v16 (ix2 e h) k = ix2 e k :=
  funext fun a => Fin.ext (by match a with | ⟨0, _⟩ => rfl | ⟨1, _⟩ => rfl)
theorem ridx16 (e : Fin 524288) (h k : Fin 128) : idx_main_v15 (ridx_main_v16 (ix2 e h) k) = ix2 h k :=
  funext fun a => Fin.ext (by match a with | ⟨0, _⟩ => rfl | ⟨1, _⟩ => rfl)

/-- The projected edge sums: row e of the edge sums against row h of the second weight. -/
theorem ref_v16 (e : Fin 524288) (h : Fin 128) :
    val_main_v16 (F := Ideal) x0 x2 x7 x8 (ix2 e h) = ∑ k : Fin 128, val_main_v14 (F := Ideal) x0 x7 x8 (ix2 e k) * x2 (ix2 h k) := by
  rw [val_main_v16_apply]
  simp only [val_main_v15_apply, lidx16, ridx16]

/-! ### The message array -/

theorem idx38 (e : Fin 524288) (j : Fin 2) (h : Fin 128) (hlt : 2 * e.val + j.val < 1048576) :
    idx_main_v38 (ix2 (⟨2 * e.val + j.val, hlt⟩ : Fin 1048576) h) = ix3 e j h :=
  funext fun a => Fin.ext (by
    have he := e.isLt; have hj := j.isLt; have hh := h.isLt
    match a with
    | ⟨0, _⟩ => show ((2 * e.val + j.val) * 128 + h.val) / 256 = e.val; omega
    | ⟨1, _⟩ => show ((2 * e.val + j.val) * 128 + h.val) / 128 % 2 = j.val; omega
    | ⟨2, _⟩ => show ((2 * e.val + j.val) * 128 + h.val) % 128 = h.val; omega)

theorem idx3635 (e : Fin 524288) (j : Fin 2) (h : Fin 128) : idx_main_v35 (idx_main_v36 (ix3 e j h)) = ix2 e h :=
  funext fun a => Fin.ext (by match a with | ⟨0, _⟩ => rfl | ⟨1, _⟩ => rfl)

theorem idx34 (e : Fin 524288) (j : Fin 2) (h : Fin 128) (hlt : 128 * j.val + h.val < 256) :
    idx_main_v34 (ix3 e j h) = ix2 e (⟨128 * j.val + h.val, hlt⟩ : Fin 256) :=
  funext fun a => Fin.ext (by
    have he := e.isLt; have hj := j.isLt; have hh := h.isLt
    match a with
    | ⟨0, _⟩ => show ((e.val * 2 + j.val) * 128 + h.val) / 256 = e.val; omega
    | ⟨1, _⟩ => show ((e.val * 2 + j.val) * 128 + h.val) % 256 = 128 * j.val + h.val; omega)

theorem lidx33 (e : Fin 524288) (c : Fin 256) (k : Fin 128) : lidx_main_v33 (ix2 e c) k = ix2 e k :=
  funext fun a => Fin.ext (by match a with | ⟨0, _⟩ => rfl | ⟨1, _⟩ => rfl)
theorem ridx33 (e : Fin 524288) (c : Fin 256) (k : Fin 128) : idx_main_v32 (ridx_main_v33 (ix2 e c) k) = ix2 c k :=
  funext fun a => Fin.ext (by match a with | ⟨0, _⟩ => rfl | ⟨1, _⟩ => rfl)

/-- The message array: row 2e+j, column h is the two edge terms at (e, h) plus the gathered row e against row 128j+h of
    the 256 x 128 weight (the reshape of [e, 2, 128] to [2e, 128] is row-major, and so is that of [e, 256] to
    [e, 2, 128]). -/
theorem ref_msg (e : Fin 524288) (j : Fin 2) (h : Fin 128) :
    val_main_v38 (F := Ideal) x0 x1 x2 x3 x6 x7 x8 x9 x10 (ix2 (⟨2 * e.val + j.val, by omega⟩ : Fin 1048576) h)
      = (val_main_v23 (F := Ideal) x0 x1 x6 x10 (ix2 e h) + val_main_v16 (F := Ideal) x0 x2 x7 x8 (ix2 e h))
        + ∑ k : Fin 128, val_main_v31 (F := Ideal) x0 x9 (ix2 e k) * x3 (ix2 (⟨128 * j.val + h.val, by omega⟩ : Fin 256) k) := by
  rw [val_main_v38_apply, idx38, val_main_v37_apply, val_main_v36_apply, val_main_v35_apply, idx3635, val_main_v24_apply,
    val_main_v34_apply, idx34 e j h (by omega), val_main_v33_apply]
  simp only [val_main_v32_apply, lidx33, ridx33, Ideal.addf_def]

/-! ### The normalisation -/

theorem idx39 (q : Fin 128) (k : Fin 1048576) : idx_main_v39 (ix1 q) k = ix2 k q :=
  funext fun a => Fin.ext (by match a with | ⟨0, _⟩ => rfl | ⟨1, _⟩ => rfl)
theorem idx46 (q : Fin 128) (k : Fin 1048576) : idx_main_v46 (ix1 q) k = ix2 k q :=
  funext fun a => Fin.ext (by match a with | ⟨0, _⟩ => rfl | ⟨1, _⟩ => rfl)
theorem idx4342 (p : Fin 1048576) (q : Fin 128) : idx_main_v42 (idx_main_v43 (ix2 p q)) = ix1 q :=
  funext fun a => Fin.ext (by match a with | ⟨0, _⟩ => rfl)
theorem idx5049 (p : Fin 1048576) (q : Fin 128) : idx_main_v49 (idx_main_v50 (ix2 p q)) = ix1 q :=
  funext fun a => Fin.ext (by match a with | ⟨0, _⟩ => rfl)
theorem idx5655 (p : Fin 1048576) (q : Fin 128) : idx_main_v55 (idx_main_v56 (ix2 p q)) = ix1 q :=
  funext fun a => Fin.ext (by match a with | ⟨0, _⟩ => rfl)
theorem idx5958 (p : Fin 1048576) (q : Fin 128) : idx_main_v58 (idx_main_v59 (ix2 p q)) = ix1 q :=
  funext fun a => Fin.ext (by match a with | ⟨0, _⟩ => rfl)
theorem idx6261 (p : Fin 1048576) (q : Fin 128) : idx_main_v61 (idx_main_v62 (ix2 p q)) = ix1 q :=
  funext fun a => Fin.ext (by match a with | ⟨0, _⟩ => rfl)

/-- The column mean of the message array. -/
theorem ref_mean (q : Fin 128) :
    val_main_v41 (F := Ideal) x0 x1 x2 x3 x6 x7 x8 x9 x10 (ix1 q)
      = Ideal.div (Ideal.ofBits .f32 0x00000000#32 + ∑ k : Fin 1048576, val_main_v38 (F := Ideal) x0 x1 x2 x3 x6 x7 x8 x9 x10 (ix2 k q)) (Ideal.ofBits .f32 0x49800000#32) := by
  rw [val_main_v41_apply, val_main_v39_apply, val_main_v40_apply, val_main_cst_6_apply, val_main_cst_7_apply]
  simp only [idx39, Ideal.hostDivf_def, Ideal.ofBits_def]

/-- The column variance of the message array. -/
theorem ref_var (q : Fin 128) :
    val_main_v48 (F := Ideal) x0 x1 x2 x3 x6 x7 x8 x9 x10 (ix1 q)
      = Ideal.div (Ideal.ofBits .f32 0x00000000#32 + ∑ k : Fin 1048576, (val_main_v38 (F := Ideal) x0 x1 x2 x3 x6 x7 x8 x9 x10 (ix2 k q) - Ideal.div (Ideal.ofBits .f32 0x00000000#32 + ∑ k : Fin 1048576, val_main_v38 (F := Ideal) x0 x1 x2 x3 x6 x7 x8 x9 x10 (ix2 k q)) (Ideal.ofBits .f32 0x49800000#32)) * (val_main_v38 (F := Ideal) x0 x1 x2 x3 x6 x7 x8 x9 x10 (ix2 k q) - Ideal.div (Ideal.ofBits .f32 0x00000000#32 + ∑ k : Fin 1048576, val_main_v38 (F := Ideal) x0 x1 x2 x3 x6 x7 x8 x9 x10 (ix2 k q)) (Ideal.ofBits .f32 0x49800000#32))) (Ideal.ofBits .f32 0x49800000#32) := by
  rw [val_main_v48_apply, val_main_v46_apply, val_main_v47_apply, val_main_cst_8_apply, val_main_cst_9_apply]
  simp only [idx46, val_main_v45_apply, val_main_v44_apply, val_main_v43_apply, val_main_v42_apply, idx4342, ref_mean,
    Ideal.hostDivf_def, Ideal.ofBits_def, Ideal.mulf_def, Ideal.subf_def]

/-- The result: the message array normalised per column, scaled, shifted and clamped at zero. -/
theorem ref_out (p : Fin 1048576) (q : Fin 128) :
    val_main_v64 (F := Ideal) x0 x1 x2 x3 x4 x5 x6 x7 x8 x9 x10 (ix2 p q)
      = max (((val_main_v38 (F := Ideal) x0 x1 x2 x3 x6 x7 x8 x9 x10 (ix2 p q) - Ideal.div (Ideal.ofBits .f32 0x00000000#32 + ∑ k : Fin 1048576, val_main_v38 (F := Ideal) x0 x1 x2 x3 x6 x7 x8 x9 x10 (ix2 k q)) (Ideal.ofBits .f32 0x49800000#32))
          * Ideal.rsqrt (Ideal.div (Ideal.ofBits .f32 0x00000000#32 + ∑ k : Fin 1048576, (val_main_v38 (F := Ideal) x0 x1 x2 x3 x6 x7 x8 x9 x10 (ix2 k q) - Ideal.div (Ideal.ofBits .f32 0x00000000#32 + ∑ k : Fin 1048576, val_main_v38 (F := Ideal) x0 x1 x2 x3 x6 x7 x8 x9 x10 (ix2 k q)) (Ideal.ofBits .f32 0x49800000#32)) * (val_main_v38 (F := Ideal) x0 x1 x2 x3 x6 x7 x8 x9 x10 (ix2 k q) - Ideal.div (Ideal.ofBits .f32 0x00000000#32 + ∑ k : Fin 1048576, val_main_v38 (F := Ideal) x0 x1 x2 x3 x6 x7 x8 x9 x10 (ix2 k q)) (Ideal.ofBits .f32 0x49800000#32))) (Ideal.ofBits .f32 0x49800000#32) + Ideal.ofBits .f32 0x3727C5AC#32)) * x4 (ix1 q) + x5 (ix1 q)) (Ideal.ofBits .f32 0x00000000#32) := by
  rw [val_main_v64_apply, val_main_v63_apply, val_main_v60_apply, val_main_v57_apply, val_main_v51_apply,
    val_main_v50_apply, val_main_v49_apply, idx5049, ref_mean,
    val_main_v56_apply, val_main_v55_apply, idx5655, val_main_v54_apply, val_main_v53_apply, ref_var,
    val_main_v52_apply, val_main_cst_10_apply,
    val_main_v59_apply, val_main_v58_apply, idx5958, val_main_v62_apply, val_main_v61_apply, idx6261,
    val_main_call0_v0_apply, val_main_call0_cst_apply]
  simp only [Ideal.maximumf_def, Ideal.addf_def, Ideal.mulf_def, Ideal.subf_def, Ideal.hostUnary_rsqrt_def, Ideal.ofBits_def]

end Cert.ReferenceIdeal.RefValue

end
-- ==== Proof.BnAlgebra.lean ====
/- The algebra of a training-mode batch normalisation followed by a rectifier, on the extended reals.
   Over N = 2^20 rows a column's mean is s / N and its variance is either q / N - mean * mean (from the sum s and
   the sum of squares q) or (sum of (x - mean)^2) / N; the two agree over the REAL numbers, and so do the two ways
   of applying the scale and the offset. With an infinity among the inputs they need not, so real-valuedness is a
   hypothesis throughout. -/
import Idealize.ShloMosaic.PureOps.Ideal
import Idealize.ShloMosaic.Lib.ValueIdx
import Mathlib.Data.EReal.Basic
import Mathlib.Algebra.BigOperators.Ring.Finset
import Mathlib.Algebra.Order.BigOperators.Group.Finset
import Mathlib.Tactic.Ring
import Mathlib.Tactic.Linarith
import Mathlib.Tactic.NormNum
import Mathlib.Tactic.Positivity

noncomputable section

namespace Cert.Spec

open Idealize.ShloMosaic
open scoped BigOperators

/-- every entry is a real number -/
def IsReal {α : Type*} (f : α → EReal) : Prop := ∀ i, ∃ r : ℝ, f i = (r : EReal)

/-- a family of real numbers, read in the extended reals, is real-valued -/
theorem isReal_coe {α : Type*} (y : α → ℝ) : IsReal (fun a => (y a : EReal)) := fun a => ⟨y a, rfl⟩

/-- a real constant is real-valued -/
theorem isReal_const {α : Type*} (c : ℝ) : IsReal (fun _ : α => (c : EReal)) := fun _ => ⟨c, rfl⟩

/-- zero is real-valued -/
theorem isReal_zero {α : Type*} : IsReal (fun _ : α => (0 : EReal)) := fun _ => ⟨0, rfl⟩

/-- a real-valued family is the extended-real reading of a family of reals -/
theorem IsReal.exists_eq {α : Type*} {f : α → EReal} (h : IsReal f) : ∃ y : α → ℝ, f = fun a => (y a : EReal) :=
  ⟨fun a => (h a).choose, funext fun a => (h a).choose_spec⟩

/-- real-valuedness passes to any reindexing -/
theorem IsReal.comp {α β : Type*} {f : α → EReal} (h : IsReal f) (g : β → α) : IsReal (fun b => f (g b)) :=
  fun b => h (g b)

/-- the pointwise sum of real-valued families is real-valued -/
theorem IsReal.add {α : Type*} {f g : α → EReal} (hf : IsReal f) (hg : IsReal g) : IsReal (fun a => f a + g a) := by
  intro a
  obtain ⟨r, hr⟩ := hf a
  obtain ⟨t, ht⟩ := hg a
  exact ⟨r + t, by show f a + g a = _; rw [hr, ht, EReal.coe_add]⟩

/-- the pointwise difference of real-valued families is real-valued -/
theorem IsReal.sub {α : Type*} {f g : α → EReal} (hf : IsReal f) (hg : IsReal g) : IsReal (fun a => f a - g a) := by
  intro a
  obtain ⟨r, hr⟩ := hf a
  obtain ⟨t, ht⟩ := hg a
  exact ⟨r - t, by show f a - g a = _; rw [hr, ht, EReal.coe_sub]⟩

/-- the pointwise product of real-valued families is real-valued -/
theorem IsReal.mul {α : Type*} {f g : α → EReal} (hf : IsReal f) (hg : IsReal g) : IsReal (fun a => f a * g a) := by
  intro a
  obtain ⟨r, hr⟩ := hf a
  obtain ⟨t, ht⟩ := hg a
  exact ⟨r * t, by show f a * g a = _; rw [hr, ht, EReal.coe_mul]⟩

/-- a finite sum of reals, read in the extended reals, is the sum of the readings -/
theorem coe_finset_sum {ι : Type*} (s : Finset ι) (y : ι → ℝ) :
    (∑ k ∈ s, (y k : EReal)) = ((∑ k ∈ s, y k : ℝ) : EReal) := by
  classical
  induction s using Finset.induction_on with
  | empty => simp
  | insert a s ha ih => rw [Finset.sum_insert ha, Finset.sum_insert ha, ih, EReal.coe_add]

/-- a finite sum of real-valued families is real-valued -/
theorem isReal_sum {ι α : Type*} (s : Finset ι) (f : ι → α → EReal) (h : ∀ k, IsReal (f k)) :
    IsReal (fun a => ∑ k ∈ s, f k a) := by
  intro a
  refine ⟨∑ k ∈ s, (h k a).choose, ?_⟩
  rw [← coe_finset_sum]
  exact Finset.sum_congr rfl fun k _ => (h k a).choose_spec

/-- a finite sum of the entries of one real-valued family is a real number -/
theorem IsReal.sum {ι : Type*} {f : ι → EReal} (h : IsReal f) (s : Finset ι) :
    ∃ r : ℝ, (∑ k ∈ s, f k) = (r : EReal) := by
  refine ⟨∑ k ∈ s, (h k).choose, ?_⟩
  rw [← coe_finset_sum]
  exact Finset.sum_congr rfl fun k _ => (h k).choose_spec

/-! ### The constants' values -/

/-- the pattern of +0.0 denotes 0 -/
theorem ofBits_zero : Ideal.ofBits .f32 0x00000000#32 = 0 := by
  simp [Ideal.ofBits, Ideal.ieee]

/-- the pattern of 1048576.0 = 2^20, the number of rows, denotes that real -/
theorem ofBits_n : Ideal.ofBits .f32 0x49800000#32 = ((1048576 : ℝ) : EReal) := by
  simp [Ideal.ofBits, Ideal.ieee, -EReal.coe_mul]; norm_num

/-- the variance's guard 0x3727C5AC = 2^(-17) * (1 + 0x27C5AC / 2^23) = 10995116 * 2^(-40), about 1e-5, denotes a
    positive real -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ### The law over the reals -/

/-- the reciprocal square root of a positive real is the real reciprocal of its root -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- mean of squares minus square of mean is the mean of the squared deviations, over N = 2^20 rows -/
theorem var_eq {R : Type} [Fintype R] (hcard : Fintype.card R = 1048576) (y : R → ℝ) :
    (∑ r, y r * y r) * (1 / 1048576) - (∑ r, y r) * (1 / 1048576) * ((∑ r, y r) * (1 / 1048576))
      = (∑ r, (y r - (∑ r, y r) * (1 / 1048576)) * (y r - (∑ r, y r) * (1 / 1048576))) * (1 / 1048576) := by
  have h : ∀ m : ℝ, ∑ r, (y r - m) * (y r - m) = (∑ r, y r * y r) - 2 * m * (∑ r, y r) + 1048576 * (m * m) := by
    intro m
    have e : ∀ r, (y r - m) * (y r - m) = y r * y r - 2 * m * y r + m * m := fun r => by ring
    simp only [e, Finset.sum_add_distrib, Finset.sum_sub_distrib, ← Finset.mul_sum, Finset.sum_const,
      Finset.card_univ, hcard, nsmul_eq_mul]
    push_cast
    ring
  rw [h]
  ring

/-- the mean of the squared deviations is not negative -/
theorem var_nonneg {R : Type} [Fintype R] (y : R → ℝ) (m : ℝ) :
    0 ≤ (∑ r, (y r - m) * (y r - m)) * (1 / 1048576) :=
  mul_nonneg (Finset.sum_nonneg fun r _ => mul_self_nonneg _) (by norm_num)

/-- THE LAW. `R` is the finite set of the 2^20 rows of one column, `x` the column, `w` and `b` its weight and
    bias, `e` the variance's guard. Scaling by `w * rsqrt (q / N - mean * mean + e)` and offsetting by
    `b - mean * scale` is normalising by the two-pass variance, then scaling by `w` and adding `b`. -/
theorem bn_relu_eq {R : Type} [Fintype R] (hcard : Fintype.card R = 1048576) (x : R → EReal) (hx : IsReal x)
    (w b : EReal) (hw : ∃ r : ℝ, w = (r : EReal)) (hb : ∃ r : ℝ, b = (r : EReal)) (e : ℝ) (he : 0 < e) (i : R) :
    max (x i * (w * Ideal.rsqrt ((Ideal.div (∑ r, x r * x r) ((1048576 : ℝ) : EReal)
              - Ideal.div (∑ r, x r) ((1048576 : ℝ) : EReal) * Ideal.div (∑ r, x r) ((1048576 : ℝ) : EReal))
              + (e : EReal)))
          + (b - Ideal.div (∑ r, x r) ((1048576 : ℝ) : EReal)
              * (w * Ideal.rsqrt ((Ideal.div (∑ r, x r * x r) ((1048576 : ℝ) : EReal)
                  - Ideal.div (∑ r, x r) ((1048576 : ℝ) : EReal) * Ideal.div (∑ r, x r) ((1048576 : ℝ) : EReal))
                  + (e : EReal))))) 0
      = max ((x i - Ideal.div (0 + ∑ r, x r) ((1048576 : ℝ) : EReal))
            * Ideal.rsqrt (Ideal.div (0 + ∑ r, (x r - Ideal.div (0 + ∑ r, x r) ((1048576 : ℝ) : EReal))
                * (x r - Ideal.div (0 + ∑ r, x r) ((1048576 : ℝ) : EReal))) ((1048576 : ℝ) : EReal) + (e : EReal))
            * w + b) 0 := by
  obtain ⟨y, rfl⟩ := hx.exists_eq
  obtain ⟨w', rfl⟩ := hw
  obtain ⟨b', rfl⟩ := hb
  have hN : (1048576 : ℝ) ≠ 0 := by norm_num
  simp only [zero_add, Ideal.div_coe hN, ← EReal.coe_mul, ← EReal.coe_sub, ← EReal.coe_add, coe_finset_sum]
  rw [var_eq hcard y]
  have hpos : 0 < (∑ r, (y r - (∑ r, y r) * (1 / 1048576)) * (y r - (∑ r, y r) * (1 / 1048576))) * (1 / 1048576) + e := by
    have := var_nonneg y ((∑ r, y r) * (1 / 1048576))
    linarith
  rw [rsqrt_coe_pos hpos]
  simp only [← EReal.coe_mul, ← EReal.coe_sub, ← EReal.coe_add]
  congr 2
  ring

end Cert.Spec

end
-- ==== Proof.Finite.lean ====
/- Real-valuedness carried through the host's and the kernel's re-indexing and contracting operations at the ideal
   instance, and the finiteness precondition read back: a 1 from "all |x| < +inf" over the six float inputs says that
   every entry of each is a real number. -/
import proofs.«150802_j73332271612005_1_alg».proof.Proof.BnAlgebra
import proofs.«150802_j73332271612005_1_alg».proof.Proof.Gen.Pre_finite_inputs
import Idealize.ShloMosaic.Lib.ReduceAll
import Idealize.ShloMosaic.PureOps.Ideal.Laws

noncomputable section

namespace Cert.Spec

open Idealize.ShloMosaic
open scoped BigOperators

/-! ### Operations that only re-index: every entry of the result is an entry of the operand -/

theorem isReal_transpose {s : Shape} (t : Shape) (perm : List (Fin s.rank)) (x : s.Idx → EReal)
    (h : s.Transposes perm t) (hx : IsReal x) : IsReal (transpose t perm x h) :=
  fun _ => hx _

theorem isReal_broadcastInDim {s : Shape} (t : Shape) (dims : Fin s.rank → Fin t.rank)
    (h : s.BroadcastsInDim t dims) (x : s.Idx → EReal) (hx : IsReal x) : IsReal (broadcastInDim t dims h x) :=
  fun _ => hx _

theorem isReal_shapeCast {s : Shape} (t : Shape) (x : s.Idx → EReal) (h : s.ShapeCasts t) (hx : IsReal x) :
    IsReal (shapeCast t x h) :=
  fun _ => hx _

theorem isReal_slice {s : Shape} (t : Shape) (start strides : Fin s.rank → Nat) (x : s.Idx → EReal)
    (h : s.SlicesBy start strides t) (hx : IsReal x) : IsReal (Host.slice t start strides x h) :=
  fun _ => hx _

theorem isReal_extractStridedSlice {s : Shape} (t : Shape) (off : Fin s.rank → Nat) (x : s.Idx → EReal)
    (h : s.Slices off t) (hx : IsReal x) : IsReal (extractStridedSlice t off x h) :=
  fun _ => hx _

/-- a gather reads the operand at a computed (clamped) index -/
theorem isReal_gather {s si t : Shape} {w : Nat} (d : GatherDims s si t) (x : s.Idx → EReal) (idx : IVec si w)
    (hx : IsReal x) : IsReal (Host.gather d x idx) :=
  fun _ => hx _

/-! ### Constants -/

/-- the splat of a pattern that denotes a real -/
theorem isReal_constant (s : Shape) (b : BitVec 32) (r : ℝ) (h : Ideal.ofBits .f32 b = (r : EReal)) :
    IsReal (constant (F := Ideal) s .f32 b) :=
  fun _ => ⟨r, h⟩

/-- the splat of +0.0 -/
theorem isReal_constant_zero (s : Shape) : IsReal (constant (F := Ideal) s .f32 0x00000000#32) :=
  isReal_constant s _ 0 (by rw [ofBits_zero]; rfl)

/-! ### Sums of products, and accumulation -/

/-- the host's accumulating scatter: each operand entry plus a finite sum of update entries -/
theorem isReal_scatterAdd {s si su : Shape} {w : Nat} (d : ScatterDims s si su) (x : FVec Ideal s .f32)
    (idx : IVec si w) (u : FVec Ideal su .f32) (hx : IsReal x) (hu : IsReal u) :
    IsReal (Host.scatterAdd d x idx u) := by
  intro i
  obtain ⟨a, ha⟩ := hx i
  obtain ⟨b, hb⟩ := hu.sum (Finset.univ.filter fun j => d.resultIdx? j idx = some i)
  refine ⟨a + b, ?_⟩
  show x i + ∑ j ∈ Finset.univ.filter (fun j => d.resultIdx? j idx = some i), u j = _
  rw [ha, hb, EReal.coe_add]

/-- the host's dot_general: a finite sum of products -/
theorem isReal_dotGeneral {sl sr so : Shape} {φ₁ φ₂ : FTy} (d : DotDims sl sr so) (p : Option ContractPrecision)
    (l : FVec Ideal sl φ₁) (r : FVec Ideal sr φ₂) (hl : IsReal l) (hr : IsReal r) :
    IsReal (Host.dotGeneral d p l r) := by
  intro j
  rw [show Host.dotGeneral d p l r j = _ from Ideal.dotGeneral_apply d p .single l r j]
  exact ((hl.comp (fun k => d.lhsIdx j k)).mul (hr.comp (fun k => d.rhsIdx j k))).sum Finset.univ

/-- the matrix unit's product added to a real-valued accumulator -/
theorem isReal_matmul {sl sr so : Shape} {φ₁ φ₂ : FTy} (d : DotDims sl sr so) (p : Option ContractPrecision)
    (l : FVec Ideal sl φ₁) (r : FVec Ideal sr φ₂) (acc : FVec Ideal so .f32) (hl : IsReal l) (hr : IsReal r)
    (hacc : IsReal acc) : IsReal (matmul d p l r acc) := by
  intro j
  obtain ⟨a, ha⟩ := hacc j
  obtain ⟨b, hb⟩ := ((hl.comp (fun k => d.lhsIdx j k)).mul (hr.comp (fun k => d.rhsIdx j k))).sum Finset.univ
  refine ⟨a + b, ?_⟩
  rw [show matmul d p l r acc j = _ from Ideal.matmul_apply d p l r acc j, ha, EReal.coe_add, ← hb]

/-- the matrix unit's product into the zero accumulator -/
theorem isReal_matmul_zero {sl sr so : Shape} {φ₁ φ₂ : FTy} (d : DotDims sl sr so) (p : Option ContractPrecision)
    (l : FVec Ideal sl φ₁) (r : FVec Ideal sr φ₂) (hl : IsReal l) (hr : IsReal r) :
    IsReal (matmul d p l r (constant so .f32 0x00000000#32)) :=
  isReal_matmul d p l r _ hl hr (isReal_constant_zero so)

/-! ### The finiteness precondition read back -/

/-- the pattern of +inf denotes the top element -/
theorem ofBits_inf : Ideal.ofBits .f32 0x7F800000#32 = ⊤ := by
  simp [Ideal.ofBits, Ideal.ieee]

/-- an extended real whose absolute value is below +inf is a real number -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

/-- one "all |x| < +inf" that came out 1: every entry of x is real -/
theorem isReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu j = 1#1) : IsReal x :=
  fun i => real_of_abs_lt_inf (x i) (Host.reduce_andi_all _ _ hr hu j h i)

open Cert.Pre_finite_inputs in
/-- THE PRECONDITION DECODED: the six float inputs are real-valued -/
theorem pre_isReal (a0 : FVec Ideal S262144x128 .f32) (a1 a2 : FVec Ideal S128x128 .f32)
    (a3 : FVec Ideal S256x128 .f32) (a4 a5 : FVec Ideal S128 .f32) (a6 : IVec S262144 32)
    (a7 a8 : IVec S1048576 32) (a9 a10 : IVec S524288 32)
    (h : Cert.Pre_finite_inputs.fn (F := Ideal) a0 a1 a2 a3 a4 a5 a6 a7 a8 a9 a10 = fun _ => 1#1) :
    IsReal a0 ∧ IsReal a1 ∧ IsReal a2 ∧ IsReal a3 ∧ IsReal a4 ∧ IsReal a5 := by
  have h0 := congrFun h ValueIdx.ix0
  dsimp only [Cert.Pre_finite_inputs.fn, Cert.Pre_finite_inputs.fn_part1, andi] at h0
  simp only [IntOp.andi_eq_one] at h0
  obtain ⟨⟨⟨⟨⟨h3, h7⟩, h12⟩, h17⟩, h22⟩, h27⟩ := h0
  exact ⟨isReal_of_all_finite a0 _ _ _ _ h3, isReal_of_all_finite a1 _ _ _ _ h7,
    isReal_of_all_finite a2 _ _ _ _ h12, isReal_of_all_finite a3 _ _ _ _ h17,
    isReal_of_all_finite a4 _ _ _ _ h22, isReal_of_all_finite a5 _ _ _ _ h27⟩

end Cert.Spec

end
-- ==== Proof.MsgReal.lean ====
/- The reference's message array (node sums through two weight matrices, gathered along the edge lists, plus the
   edge features through a third) is real-valued when the four float inputs it reads are: it is built from them by
   gathers, accumulating scatters into zero, transposes, contractions, broadcasts, reshapes and elementwise sums, each
   of which keeps real-valuedness. One lemma per operation, in program order. -/
import proofs.«150802_j73332271612005_1_alg».proof.Proof.Finite
import proofs.«150802_j73332271612005_1_alg».proof.Proof.Gen.ReferenceIdeal.Read

noncomputable section

namespace Cert.Spec

open Idealize.ShloMosaic
open scoped BigOperators

/-! ### The elementwise float sum -/

/-- the elementwise sum of two real-valued vectors -/
theorem isReal_addf {s : Shape} {φ : FTy} (x y : FVec Ideal s φ) (hx : IsReal x) (hy : IsReal y) :
    IsReal (addf x y) :=
  fun i => hx.add hy i

/-! ### The reference's message array, one operation at a time -/

section Msg

open Cert.ReferenceIdeal Cert.ReferenceIdeal.Gen Cert.ReferenceIdeal.Read

variable (x0 : (⟨S262144x128, .f32⟩ : BufTy).Contents (Elt Ideal))
  (x1 x2 : (⟨S128x128, .f32⟩ : BufTy).Contents (Elt Ideal))
  (x3 : (⟨S256x128, .f32⟩ : BufTy).Contents (Elt Ideal))
  (x6 : (⟨S262144, .i32⟩ : BufTy).Contents (Elt Ideal))
  (x7 x8 : (⟨S1048576, .i32⟩ : BufTy).Contents (Elt Ideal))
  (x9 x10 : (⟨S524288, .i32⟩ : BufTy).Contents (Elt Ideal))

/-- the zero array the node sums accumulate into -/
theorem v0_isReal : IsReal (val_main_v0 (F := Ideal)) := by
  unfold val_main_v0
  exact isReal_broadcastInDim _ _ _ _ (by unfold val_main_cst; exact isReal_constant_zero _)

/-- the per-segment sums of the node features -/
theorem v2_isReal (h0 : IsReal x0) : IsReal (val_main_v2 (F := Ideal) x0 x6) := by
  unfold val_main_v2
  exact isReal_scatterAdd _ _ _ _ v0_isReal h0

theorem v3_isReal (h1 : IsReal x1) : IsReal (val_main_v3 (F := Ideal) x1) := by
  unfold val_main_v3
  exact isReal_transpose _ _ _ _ h1

/-- the segment sums through the first weight matrix -/
theorem v4_isReal (h0 : IsReal x0) (h1 : IsReal x1) : IsReal (val_main_v4 (F := Ideal) x0 x1 x6) := by
  unfold val_main_v4
  exact isReal_dotGeneral _ _ _ _ (v2_isReal x0 x6 h0) (v3_isReal x1 h1)

/-- the node features gathered along the first edge list -/
theorem v11_isReal (h0 : IsReal x0) : IsReal (val_main_v11 (F := Ideal) x0 x7) := by
  unfold val_main_v11
  exact isReal_gather _ _ _ h0

theorem v12_isReal : IsReal (val_main_v12 (F := Ideal)) := by
  unfold val_main_v12
  exact isReal_broadcastInDim _ _ _ _ (by unfold val_main_cst_1; exact isReal_constant_zero _)

/-- their sums per receiving row -/
theorem v14_isReal (h0 : IsReal x0) : IsReal (val_main_v14 (F := Ideal) x0 x7 x8) := by
  unfold val_main_v14
  exact isReal_scatterAdd _ _ _ _ v12_isReal (v11_isReal x0 x7 h0)

theorem v15_isReal (h2 : IsReal x2) : IsReal (val_main_v15 (F := Ideal) x2) := by
  unfold val_main_v15
  exact isReal_transpose _ _ _ _ h2

/-- those sums through the second weight matrix -/
theorem v16_isReal (h0 : IsReal x0) (h2 : IsReal x2) : IsReal (val_main_v16 (F := Ideal) x0 x2 x7 x8) := by
  unfold val_main_v16
  exact isReal_dotGeneral _ _ _ _ (v14_isReal x0 x7 x8 h0) (v15_isReal x2 h2)

theorem v23_isReal (h0 : IsReal x0) (h1 : IsReal x1) : IsReal (val_main_v23 (F := Ideal) x0 x1 x6 x10) := by
  unfold val_main_v23
  exact isReal_gather _ _ _ (v4_isReal x0 x1 x6 h0 h1)

theorem v24_isReal (h0 : IsReal x0) (h1 : IsReal x1) (h2 : IsReal x2) :
    IsReal (val_main_v24 (F := Ideal) x0 x1 x2 x6 x7 x8 x10) := by
  unfold val_main_v24
  exact isReal_addf _ _ (v23_isReal x0 x1 x6 x10 h0 h1) (v16_isReal x0 x2 x7 x8 h0 h2)

theorem v31_isReal (h0 : IsReal x0) : IsReal (val_main_v31 (F := Ideal) x0 x9) := by
  unfold val_main_v31
  exact isReal_gather _ _ _ h0

theorem v32_isReal (h3 : IsReal x3) : IsReal (val_main_v32 (F := Ideal) x3) := by
  unfold val_main_v32
  exact isReal_transpose _ _ _ _ h3

theorem v33_isReal (h0 : IsReal x0) (h3 : IsReal x3) : IsReal (val_main_v33 (F := Ideal) x0 x3 x9) := by
  unfold val_main_v33
  exact isReal_dotGeneral _ _ _ _ (v31_isReal x0 x9 h0) (v32_isReal x3 h3)

theorem v34_isReal (h0 : IsReal x0) (h3 : IsReal x3) : IsReal (val_main_v34 (F := Ideal) x0 x3 x9) := by
  unfold val_main_v34
  exact isReal_shapeCast _ _ _ (v33_isReal x0 x3 x9 h0 h3)

theorem v35_isReal (h0 : IsReal x0) (h1 : IsReal x1) (h2 : IsReal x2) :
    IsReal (val_main_v35 (F := Ideal) x0 x1 x2 x6 x7 x8 x10) := by
  unfold val_main_v35
  exact isReal_broadcastInDim _ _ _ _ (v24_isReal x0 x1 x2 x6 x7 x8 x10 h0 h1 h2)

theorem v36_isReal (h0 : IsReal x0) (h1 : IsReal x1) (h2 : IsReal x2) :
    IsReal (val_main_v36 (F := Ideal) x0 x1 x2 x6 x7 x8 x10) := by
  unfold val_main_v36
  exact isReal_broadcastInDim _ _ _ _ (v35_isReal x0 x1 x2 x6 x7 x8 x10 h0 h1 h2)

theorem v37_isReal (h0 : IsReal x0) (h1 : IsReal x1) (h2 : IsReal x2) (h3 : IsReal x3) :
    IsReal (val_main_v37 (F := Ideal) x0 x1 x2 x3 x6 x7 x8 x9 x10) := by
  unfold val_main_v37
  exact isReal_addf _ _ (v36_isReal x0 x1 x2 x6 x7 x8 x10 h0 h1 h2) (v34_isReal x0 x3 x9 h0 h3)

/-- THE MESSAGE ARRAY is real-valued when the four float inputs it reads are -/
theorem msg_isReal (h0 : IsReal x0) (h1 : IsReal x1) (h2 : IsReal x2) (h3 : IsReal x3) :
    IsReal (val_main_v38 (F := Ideal) x0 x1 x2 x3 x6 x7 x8 x9 x10) := by
  unfold val_main_v38
  exact isReal_shapeCast _ _ _ (v37_isReal x0 x1 x2 x3 x6 x7 x8 x9 x10 h0 h1 h2 h3)

end Msg

end Cert.Spec

end
-- ==== Proof.BridgeMath.lean ====
/-
  The two closed forms of the normalised output, joined.  The kernel side arrives with each column's sum and sum of
  squares taken over messages e and the two rows j each message produces; the reference side with the same sums over
  the rows r = 2 e + j of the reshaped array.  Row-major order identifies the two index sets, and with every entry a
  real number the batch-normalisation law of BnAlgebra applies.
-/
import proofs.«150802_j73332271612005_1_alg».proof.Proof.BnAlgebra
import Mathlib.Logic.Equiv.Fin.Basic
import Mathlib.Algebra.BigOperators.Fin

noncomputable section

namespace Cert.Spec

open Idealize.ShloMosaic

/-- A sum over the 2^20 rows is the double sum over the 2^19 messages and the two rows of each: row 2 e + j. -/
theorem sum_rows {M : Type*} [AddCommMonoid M] (f : Fin 1048576 → M) :
    ∑ r, f r = ∑ e : Fin 524288, ∑ j : Fin 2, f ⟨2 * e.val + j.val, by omega⟩ := by
  rw [← Finset.sum_product', Finset.univ_product_univ]
  refine (Fintype.sum_equiv (finProdFinEquiv (m := 524288) (n := 2)) _ _ ?_).symm
  rintro ⟨e, j⟩
  refine congrArg f (Fin.ext ?_)
  simp only [finProdFinEquiv, Equiv.coe_fn_mk]
  omega

/-- The kernel's output element — the message times the folded scale plus the folded offset, the statistics taken
    message by message — is the reference's normalised element, the statistics taken row by row, when every message
    entry, weight and bias is a real number. -/
theorem out_eq (msg : Fin 1048576 → Fin 128 → EReal) (hmsg : ∀ q, IsReal fun r => msg r q)
    (w b : Fin 128 → EReal) (hw : IsReal w) (hb : IsReal b) (p : Fin 1048576) (q : Fin 128) :
    max (msg p q * (w q * Ideal.rsqrt ((Ideal.div (∑ e : Fin 524288, ∑ j : Fin 2, msg ⟨2 * e.val + j.val, by omega⟩ q * msg ⟨2 * e.val + j.val, by omega⟩ q) (Ideal.ofBits .f32 0x49800000#32)
            - Ideal.div (∑ e : Fin 524288, ∑ j : Fin 2, msg ⟨2 * e.val + j.val, by omega⟩ q) (Ideal.ofBits .f32 0x49800000#32)
              * Ideal.div (∑ e : Fin 524288, ∑ j : Fin 2, msg ⟨2 * e.val + j.val, by omega⟩ q) (Ideal.ofBits .f32 0x49800000#32))
            + Ideal.ofBits .f32 0x3727C5AC#32))
          + (b q - Ideal.div (∑ e : Fin 524288, ∑ j : Fin 2, msg ⟨2 * e.val + j.val, by omega⟩ q) (Ideal.ofBits .f32 0x49800000#32)
              * (w q * Ideal.rsqrt ((Ideal.div (∑ e : Fin 524288, ∑ j : Fin 2, msg ⟨2 * e.val + j.val, by omega⟩ q * msg ⟨2 * e.val + j.val, by omega⟩ q) (Ideal.ofBits .f32 0x49800000#32)
                  - Ideal.div (∑ e : Fin 524288, ∑ j : Fin 2, msg ⟨2 * e.val + j.val, by omega⟩ q) (Ideal.ofBits .f32 0x49800000#32)
                    * Ideal.div (∑ e : Fin 524288, ∑ j : Fin 2, msg ⟨2 * e.val + j.val, by omega⟩ q) (Ideal.ofBits .f32 0x49800000#32))
                  + Ideal.ofBits .f32 0x3727C5AC#32)))) 0
      = max ((msg p q - Ideal.div (Ideal.ofBits .f32 0x00000000#32 + ∑ k : Fin 1048576, msg k q) (Ideal.ofBits .f32 0x49800000#32))
            * Ideal.rsqrt (Ideal.div (Ideal.ofBits .f32 0x00000000#32
                  + ∑ k : Fin 1048576, (msg k q - Ideal.div (Ideal.ofBits .f32 0x00000000#32 + ∑ k : Fin 1048576, msg k q) (Ideal.ofBits .f32 0x49800000#32))
                      * (msg k q - Ideal.div (Ideal.ofBits .f32 0x00000000#32 + ∑ k : Fin 1048576, msg k q) (Ideal.ofBits .f32 0x49800000#32)))
                (Ideal.ofBits .f32 0x49800000#32) + Ideal.ofBits .f32 0x3727C5AC#32)
            * w q + b q) (Ideal.ofBits .f32 0x00000000#32) := by
  obtain ⟨e, he, hE⟩ := ofBits_eps
  rw [← sum_rows (fun r => msg r q * msg r q), ← sum_rows (fun r => msg r q), ofBits_n, hE, ofBits_zero]
  exact bn_relu_eq (R := Fin 1048576) (by simp) (fun r => msg r q) (hmsg q) (w q) (b q) (hw q) (hb q) e he p

end Cert.Spec

end
-- ==== Proof.Bridge.lean ====
/- The idealized kernel's result array is the reference's, index by index: the two linear layers are the reference's
   two 128 x 128 products; the combine stage's message for edge e, half j is the reference's message array at row
   2 e + j; the folded scale and offset of the last region, with the column sums taken message by message, give the
   reference's normalised, scaled, shifted and clamped element when the float inputs are finite. -/
import proofs.«150802_j73332271612005_1_alg».proof.Proof.KI.Run
import proofs.«150802_j73332271612005_1_alg».proof.Proof.KI.Val0
import proofs.«150802_j73332271612005_1_alg».proof.Proof.KI.Val1
import proofs.«150802_j73332271612005_1_alg».proof.Proof.KI.Val2
import proofs.«150802_j73332271612005_1_alg».proof.Proof.KI.KHost
import proofs.«150802_j73332271612005_1_alg».proof.Proof.KI.Val3
import proofs.«150802_j73332271612005_1_alg».proof.Defs
import proofs.«150802_j73332271612005_1_alg».proof.Proof.RefValue
import proofs.«150802_j73332271612005_1_alg».proof.Proof.MsgReal
import proofs.«150802_j73332271612005_1_alg».proof.Proof.BridgeMath
import proofs.«150802_j73332271612005_1_alg».proof.Proof.Gen.ReferenceIdeal.Run
import Idealize.ShloMosaic.Lib.ValueIdx
import Idealize.ShloMosaic.PureOps.Ideal.Laws

set_option maxRecDepth 16384

noncomputable section

namespace Cert.Proof.Bridge

open Cert.KernelIdeal Cert.KernelIdeal.Gen Cert.KernelIdeal.Val
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The two linear layers -/

/-- The node rows summed into their segments: the kernel's host operations are the reference's. -/
theorem v2_eq : V1 m ρ c main_v2 = Cert.ReferenceIdeal.Read.val_main_v2 (F := Ideal) (m ((c : Thread nD τ).loc main_arg0)) (m ((c : Thread nD τ).loc main_arg6)) := (V1_v2 m ρ c).trans rfl

/-- The first linear layer's result array is the reference's projected segment sums. -/
theorem ysum_eq : ((dat0 (V1 m ρ) c).arrAt 2 cfg0.N : S65536x128.Idx → EReal) = Cert.ReferenceIdeal.Read.val_main_v4 (F := Ideal) (m ((c : Thread nD τ).loc main_arg0)) (m ((c : Thread nD τ).loc main_arg1)) (m ((c : Thread nD τ).loc main_arg6)) := by
  funext i
  obtain ⟨p, q, rfl⟩ : ∃ (p : Fin 65536) (q : Fin 128), i = ix2 p q := ⟨i 0, i 1, eq_ix2 i⟩
  rw [final0, Cert.ReferenceIdeal.RefValue.ref_v4, v2_eq]
  refine (Finset.sum_congr rfl fun k _ => ?_ : @Eq EReal _ _)
  rw [V1_v13_apply]

/-- The gathered node rows summed into their edges: the kernel's host operations are the reference's. -/
theorem v12_eq : V3 m ρ c main_v12 = Cert.ReferenceIdeal.Read.val_main_v14 (F := Ideal) (m ((c : Thread nD τ).loc main_arg0)) (m ((c : Thread nD τ).loc main_arg7)) (m ((c : Thread nD τ).loc main_arg8)) := (V3_v12 m ρ c).trans rfl

/-- The second linear layer's result array is the reference's projected edge sums. -/
theorem yint_eq : ((dat1 (V3 m ρ) c).arrAt 2 cfg1.N : S524288x128.Idx → EReal) = Cert.ReferenceIdeal.Read.val_main_v16 (F := Ideal) (m ((c : Thread nD τ).loc main_arg0)) (m ((c : Thread nD τ).loc main_arg2)) (m ((c : Thread nD τ).loc main_arg7)) (m ((c : Thread nD τ).loc main_arg8)) := by
  funext i
  obtain ⟨p, q, rfl⟩ : ∃ (p : Fin 524288) (q : Fin 128), i = ix2 p q := ⟨i 0, i 1, eq_ix2 i⟩
  rw [final1, Cert.ReferenceIdeal.RefValue.ref_v16, v12_eq]
  refine (Finset.sum_congr rfl fun k _ => ?_ : @Eq EReal _ _)
  rw [V3_v15_apply]

/-! ## The message array -/

theorem v23_eq : V5 m ρ c main_v23 = Cert.ReferenceIdeal.Read.val_main_v23 (F := Ideal) (m ((c : Thread nD τ).loc main_arg0)) (m ((c : Thread nD τ).loc main_arg1)) (m ((c : Thread nD τ).loc main_arg6)) (m ((c : Thread nD τ).loc main_arg10)) := by
  rw [V5_v23, ysum_eq]; rfl

theorem v16_eq : V5 m ρ c main_v16 = Cert.ReferenceIdeal.Read.val_main_v16 (F := Ideal) (m ((c : Thread nD τ).loc main_arg0)) (m ((c : Thread nD τ).loc main_arg2)) (m ((c : Thread nD τ).loc main_arg7)) (m ((c : Thread nD τ).loc main_arg8)) := by
  rw [V5_v16, yint_eq]

theorem v30_eq : V5 m ρ c main_v30 = Cert.ReferenceIdeal.Read.val_main_v31 (F := Ideal) (m ((c : Thread nD τ).loc main_arg0)) (m ((c : Thread nD τ).loc main_arg9)) := (V5_v30 m ρ c).trans rfl

/-- The two transposed halves of the 256 x 128 weight, read at (k, h): row 128 j + h of the weight, column k. -/
theorem wx_apply (j : Fin 2) (k h : Fin 128) :
    (@ite (S128x128.Idx → EReal) (j = 0) _ (V5 m ρ c main_v32) (V5 m ρ c main_v34)) (ix2 k h)
      = ((m ((c : Thread nD τ).loc main_arg3)) : S256x128.Idx → EReal) (ix2 (⟨128 * j.val + h.val, by omega⟩ : Fin 256) k) := by
  obtain rfl | rfl : j = 0 ∨ j = 1 := by
    rcases j with ⟨_ | _ | n, hn⟩
    · exact Or.inl rfl
    · exact Or.inr rfl
    · omega
  · rw [if_pos rfl, V5_v32_apply]
    refine congrArg (fun r : Fin 256 => ((m ((c : Thread nD τ).loc main_arg3)) : S256x128.Idx → EReal) (ix2 r k)) (Fin.ext ?_)
    show h.val = 128 * 0 + h.val
    omega
  · rw [if_neg (by decide), V5_v34_apply]
    refine congrArg (fun r : Fin 256 => ((m ((c : Thread nD τ).loc main_arg3)) : S256x128.Idx → EReal) (ix2 r k)) (Fin.ext ?_)
    show 128 + h.val = 128 * 1 + h.val
    omega

/-- The combine stage's message for edge e, half j, lane h is the reference's message array at row 2 e + j. -/
theorem msg_eq (e : Fin 524288) (j : Fin 2) (h : Fin 128) :
    M2 (V5 m ρ) c e j h = (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 (⟨2 * e.val + j.val, by omega⟩ : Fin 1048576) h) := by
  rw [Cert.ReferenceIdeal.RefValue.ref_msg]
  unfold M2 aArr bArr xArr w0Arr w1Arr
  rw [v23_eq, v16_eq, v30_eq]
  congr 1
  refine Finset.sum_congr rfl fun k _ => ?_
  congr 1
  exact wx_apply m ρ c j k h

/-! ## The result -/

/-- The kernel's result array is the reference's, index by index, when the float inputs are finite. -/
theorem out_eq_ref (hpre : Cert.Pre_KernelIdeal m) (p : Fin 1048576) (q : Fin 128) :
    (W8 m ρ c (Proc.devRef .tc main_v53) : S1048576x128.Idx → EReal) (ix2 p q)
      = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 p q) := by
  obtain ⟨h0, h1, h2, h3, h4, h5⟩ := Cert.Spec.pre_isReal _ _ _ _ _ _ _ _ _ _ _ (hpre c)
  have hmsg : ∀ q : Fin 128, Cert.Spec.IsReal fun r : Fin 1048576 => (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r q) := fun q =>
    (Cert.Spec.msg_isReal (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) h0 h1 h2 h3).comp fun r : Fin 1048576 => ix2 r q
  have hw : Cert.Spec.IsReal fun q : Fin 128 => ((m ((c : Thread nD τ).loc main_arg4)) : S128.Idx → EReal) (ix1 q) := Cert.Spec.IsReal.comp h4 fun q : Fin 128 => ix1 q
  have hb : Cert.Spec.IsReal fun q : Fin 128 => ((m ((c : Thread nD τ).loc main_arg5)) : S128.Idx → EReal) (ix1 q) := Cert.Spec.IsReal.comp h5 fun q : Fin 128 => ix1 q
  obtain ⟨e, j, rfl⟩ : ∃ (e : Fin 524288) (j : Fin 2), p = (⟨2 * e.val + j.val, by omega⟩ : Fin 1048576) :=
    ⟨⟨p.val / 2, by omega⟩, ⟨p.val % 2, by omega⟩, Fin.ext (by show p.val = 2 * (p.val / 2) + p.val % 2; omega)⟩
  rw [W8_main_v53, final3, Cert.ReferenceIdeal.RefValue.ref_out, V7_v36_apply, V7_v51_apply, V7_v52_apply, final2_5]
  simp only [final2_6, final2_7, msg_eq]
  exact Cert.Spec.out_eq (fun r q => (Cert.ReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10))) (ix2 r q)) hmsg (fun q => ((m ((c : Thread nD τ).loc main_arg4)) : S128.Idx → EReal) (ix1 q))
    (fun q => ((m ((c : Thread nD τ).loc main_arg5)) : S128.Idx → EReal) (ix1 q)) hw hb (⟨2 * e.val + j.val, by omega⟩ : Fin 1048576) q

/-! ## The claim -/

/-- At the ideal instance the two programs, from memories agreeing on the arguments, both run and end with the same
    result array (the kernel's last region's output, read off the last boundary's contents; the reference's composed
    term) and unchanged arguments. -/
theorem algebraic : Cert.algebraic_KernelIdeal_ReferenceIdeal := by
  intro m ρ m' ρ' hpre hagree
  refine ⟨fun c => W8 m ρ c (Proc.devRef .tc main_v53), ?_, ?_⟩
  · exact (θ_run _ _ _).mono (fun r h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩) (run_all m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8, g9, g10⟩ := hagree c
    rw [Cert.ReferenceIdeal.Read.val_main_v64_eq, g0, g1, g2, g3, g4, g5, g6, g7, g8, g9, g10]
    funext i
    obtain ⟨p, q, rfl⟩ : ∃ (p : Fin 1048576) (q : Fin 128), i = ix2 p q := ⟨i 0, i 1, eq_ix2 i⟩
    exact (out_eq_ref m ρ c hpre p q).symm

end Cert.Proof.Bridge

end
-- ==== Proof.lean ====
/-
  The certificate of one GNN message-passing layer: segment sums and row gathers on the host, two dense linear layers,
  a fused combine stage that also accumulates each column's sum and sum of squares over all 2^20 produced rows, and a
  folded BatchNorm-affine + ReLU pass, against the plain formulation that normalises by the mean and the centred
  second moment.

  Frames.  Each of the two kernel programs runs as eight items — four stretches of host operations and four kernel
  regions — and every item leaves the argument arrays as launched: the run is followed item by item with the contents
  of every buffer named at each boundary (Proof/K/Run.lean at the word level, Proof/KI/Run.lean at the ideal
  instance; the regions' bodies in Reg0 … Reg3, the combine stage's carried accumulators in Reg2).  The reference is
  host operations only; its frame is its run with the result dropped.

  Preservation.  The ideal pass rewrote nothing, so there is nothing to preserve.

  Equivalence over the extended reals.  Both programs compute the same message array (Proof/Bridge.lean: the linear
  layers as sums over the contracted axis, the W_x product split in its two row blocks, the reshape as row 2 e + j);
  with finite inputs every message entry is a real number, and then q/N − μ² is the centred second moment and
  x·(w·r) + (b − μ·(w·r)) is ((x − μ)·r)·w + b (Proof/BnAlgebra.lean, Proof/BridgeMath.lean).
-/
import proofs.«150802_j73332271612005_1_alg».proof.Defs
import proofs.«150802_j73332271612005_1_alg».proof.Proof.Gen.Kernel
import proofs.«150802_j73332271612005_1_alg».proof.Proof.Gen.KernelIdeal
import proofs.«150802_j73332271612005_1_alg».proof.Proof.Gen.ReferenceIdeal
import proofs.«150802_j73332271612005_1_alg».proof.Proof.Gen.Pre_finite_inputs
import proofs.«150802_j73332271612005_1_alg».proof.Proof.Gen.ReferenceIdeal.Run
import proofs.«150802_j73332271612005_1_alg».proof.Proof.K.Run
import proofs.«150802_j73332271612005_1_alg».proof.Proof.KI.Run
import proofs.«150802_j73332271612005_1_alg».proof.Proof.Bridge
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Bridge.algebraic⟩

end Cert.Proof

end
